-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg1 : IVec S800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg1 main_v19
  let main_c_7 : IVec S_ 32 := constantI S_ 32 50000#32
  let main_v21 : IVec S800000 32 := broadcastInDim S800000 ![] bcast_S_S800000 main_c_7
  let main_v22 : IVec S800000 1 := cmpi .slt main_arg1 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800768 : Shape := ⟨1, ![800768]⟩
abbrev S50176x128 : Shape := ⟨2, ![50176, 128]⟩
abbrev S800768x1 : Shape := ⟨2, ![800768, 1]⟩
abbrev S1x800768 : Shape := ⟨2, ![1, 800768]⟩
abbrev S1x128 : Shape := ⟨2, ![1, 128]⟩
abbrev S800768x128 : Shape := ⟨2, ![800768, 128]⟩
abbrev S2048x1 : Shape := ⟨2, ![2048, 1]⟩
abbrev S1024x128 : Shape := ⟨2, ![1024, 128]⟩
abbrev S2048x128 : Shape := ⟨2, ![2048, 128]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 28
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S_, .i32⟩
  | .hbm, ⟨8, _⟩ => ⟨S800768, .i32⟩
  | .hbm, ⟨9, _⟩ => ⟨S_, .i32⟩
  | .hbm, ⟨10, _⟩ => ⟨S_, .i32⟩
  | .hbm, ⟨11, _⟩ => ⟨S800768, .i32⟩
  | .hbm, ⟨12, _⟩ => ⟨S_, .i32⟩
  | .hbm, ⟨13, _⟩ => ⟨S_, .f32⟩
  | .hbm, ⟨14, _⟩ => ⟨S800768, .f32⟩
  | .hbm, ⟨15, _⟩ => ⟨S50000x128, .bf16⟩
  | .hbm, ⟨16, _⟩ => ⟨S_, .i32⟩
  | .hbm, ⟨17, _⟩ => ⟨S_, .bf16⟩
  | .hbm, ⟨18, _⟩ => ⟨S50176x128, .bf16⟩
  | .hbm, ⟨19, _⟩ => ⟨S800768x1, .i32⟩
  | .hbm, ⟨20, _⟩ => ⟨S800768x1, .f32⟩
  | .hbm, ⟨21, _⟩ => ⟨S1x800768, .i32⟩
  | .hbm, ⟨22, _⟩ => ⟨S128x128, .f32⟩
  | .hbm, ⟨23, _⟩ => ⟨S128x128, .bf16⟩
  | .hbm, ⟨24, _⟩ => ⟨S1x128, .f32⟩
  | .hbm, ⟨25, _⟩ => ⟨S800768x128, .f32⟩
  | .hbm, ⟨26, _⟩ => ⟨S50176x128, .f32⟩
  | .hbm, ⟨27, _⟩ => ⟨S50000x128, .f32⟩
  | .local _ .vmem, ⟨0, _⟩ => ⟨S2048x1, .i32⟩
  | .local _ .vmem, ⟨1, _⟩ => ⟨S2048x1, .i32⟩
  | .local _ .vmem, ⟨2, _⟩ => ⟨S2048x1, .f32⟩
  | .local _ .vmem, ⟨3, _⟩ => ⟨S2048x1, .f32⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1x2048, .i32⟩
  | .local _ .vmem, ⟨10, _⟩ => ⟨S1x2048, .i32⟩
  | .local _ .vmem, ⟨11, _⟩ => ⟨S2048x128, .f32⟩
  | .local _ .vmem, ⟨12, _⟩ => ⟨S2048x128, .f32⟩
  | .local _ .vmem, ⟨13, _⟩ => ⟨S128x128, .bf16⟩
  | .local _ .vmem, ⟨14, _⟩ => ⟨S1x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_call3_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![391, 49], ![false, false]⟩

def k0_cond2 (i : grid0.Coords) : BitVec 1 :=
  let arg1 : BitVec 32 := BitVec.ofNat 32 (i 1).val
  let c48_i32 : BitVec 32 := 48#32
  let v22 : BitVec 1 := Scalar.cmpi .eq arg1 c48_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  pads_S800000_S800768_07680 : S800000.Pads (![0] : Fin 1 → Nat) ![768] ![0] S800768
  h_S_ : 0 < S_.numel
  bitsLt_bf16_f32 : FTy.bits .bf16 < FTy.bits .f32
  pads_S50000x128_S50176x128_01760_000 : S50000x128.Pads (![0, 0] : Fin 2 → Nat) ![176, 0] ![0, 0] S50176x128
  bcast_S800768_S800768x1_0 : S800768.BroadcastsInDim S800768x1 (![0] : Fin 1 → Fin S800768x1.rank)
  bcast_S800768_S1x800768_1 : S800768.BroadcastsInDim S1x800768 (![1] : Fin 1 → Fin S1x800768.rank)
  transposes_S128x128_S128x128_1_0 : S128x128.Transposes [1, 0] S128x128
  bcast_S128_S1x128_1 : S128.BroadcastsInDim S1x128 (![1] : Fin 1 → Fin S1x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  natLt_1_32 : 1 < 32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S2048x1_S2048x128 : S2048x1.Broadcasts S2048x128
  iota_S1024x2048_d0_w32 : S1024x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S50176x128_S50000x128_0_0 : S50176x128.Slices ![0, 0] S50000x128
  dot_S2048x1024_S1024x128_S2048x128_1_0_0_1_n_n_wf : DotDims.WF S2048x1024 S1024x128 S2048x128 [1] [0] [0] [1] [] []
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S800768x1.size a
  hwx0_0 : ∀ i : grid0.Coords, EltTy.bits .i32 = 32 ∨ (Rect.block (s := S800768x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S800768x1.size a
  hwx0_1 : ∀ i : grid0.Coords, EltTy.bits .f32 = 32 ∨ (Rect.block (s := S800768x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .bf16 = 32 ∨ (Rect.block (s := S50176x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S800768x128.size a
  hwx0_3 : ∀ i : grid0.Coords, EltTy.bits .f32 = 32 ∨ (Rect.block (s := S800768x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S800768x128.size a
  hwx1_1 : ∀ i : grid1.Coords, EltTy.bits .f32 = 32 ∨ (Rect.block (s := S800768x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S50176x128.size a
  hwx1_4 : ∀ i : grid1.Coords, EltTy.bits .f32 = 32 ∨ (Rect.block (s := S50176x128) S1024x128.size (cc1_transform_4 i) (hinb1_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v5) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S800000x1, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000x128, .f32⟩
  | .hbm, ⟨29, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Kernel.Def0.lean ====
/-
  Region 0 (the gather): for each tile of 2048 edges the kernel sweeps the 49 blocks of 1024 node rows, adding to a
  scratch accumulator the product of the edges' one-hot rows (edge e, node n: 1 when n is the edge's source) with the
  block of features, and at the last block writes the accumulator scaled by the edge weights. Stated here: the blocks
  the windows hold at a point, the accumulator after each point as a recursion over the points (reset at the first
  block of a tile), the invariant that carries it between points, and the pipeline's proof data.
-/
import proofs.«418971_j36292473651564_1_alg».proof.Proof.Gen.Kernel.Launch
import proofs.«418971_j36292473651564_1_alg».proof.Proof.Gen.Kernel.Skeleton
import proofs.«418971_j36292473651564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: the one-hot product of this point's source indices with this
    point's feature block, added to zero at the first node block of an edge tile (positions ≡ 0 mod 49) and to what the
    position before left otherwise. -/
def acc0 (c : Dev nD) : (n : ℕ) → n < cfg0.N → Vec F S2048x128 .f32
  | 0, hn => k0_pay2 (grid0.coords ⟨0, hn⟩) (iblk0 V c 0 ⟨0, hn⟩) (iblk0 V c 2 ⟨0, hn⟩) (k0_pay1 (F := F))
  | n + 1, hn => k0_pay2 (grid0.coords ⟨n + 1, hn⟩) (iblk0 V c 0 ⟨n + 1, hn⟩) (iblk0 V c 2 ⟨n + 1, hn⟩)
      (if (n + 1) % 49 = 0 then k0_pay1 (F := F) else acc0 c n (Nat.lt_of_succ_lt hn))

/-- The accumulator scratch, whole. -/
abbrev scM0 : Memref sig .tc .vmem S2048x128 .f32 := Memref.whole cc0_scratch0

/-- The region invariant before position `n`: before the first point every scoped buffer that is no staging buffer
    at anything; afterwards the accumulator scratch at what the position before left, the other such buffers at
    anything; throughout the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

/-- The proof data of pipeline 0 on core `c`: the arrays as the region finds them; after the body each input's buffer
    at its block, the output's at the accumulator scaled by the weights' block (consulted only where the body stores
    it, at the last node block of a tile); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 1 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 1 t) := by dsimp only [dat0]

/-- The accumulator at a position that opens an edge tile. -/
theorem acc0_first (c : Dev nD) (t : Fin cfg0.N) (h : t.val % 49 = 0) :
    acc0 V c t.val t.isLt = k0_pay2 (grid0.coords t) (iblk0 V c 0 t) (iblk0 V c 2 t) (k0_pay1 (F := F)) := by
  obtain ⟨n, hn⟩ := t
  cases n with
  | zero => rfl
  | succ n => exact (congrArg (k0_pay2 _ _ _) (if_pos h))

/-- The accumulator at any other position, over what the position before left. -/
theorem acc0_next (c : Dev nD) (t : Fin cfg0.N) (h : ¬t.val % 49 = 0) :
    acc0 V c t.val t.isLt = k0_pay2 (grid0.coords t) (iblk0 V c 0 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (congrArg (k0_pay2 _ _ _) (if_neg h))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The class invariant with the accumulator scratch split out as a memref owned at some contents. -/
theorem PhiA0_eq (c : Dev nD) :
    (Pipeline.ΦA spec0 c : sProp 𝕄)
      = iprop(((∃ d, owns (c : Thread nD τ) scM0 fullShare d)
        ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0, owns_whole]
  rfl

end

end Cert.Kernel.Hand

end
-- ==== Proof.Kernel.Sched0.lean ====
/-
  Region 0 (the gather), its schedule in closed form. A point t of the grid 391 × 49 has inner coordinate t mod 49
  (the last axis runs fastest). The accumulator is reset where the inner coordinate is 0 and the output block is
  stored where it is 48: both conditions, computed by the kernel as 32-bit word comparisons, are decided over the
  49 values of the inner coordinate. The three inputs are never idle; the output is idle, and not written back,
  exactly where the store's condition fails.
-/
import proofs.«418971_j36292473651564_1_alg».proof.Proof.Kernel.Def0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The inner coordinate of the point at position `t`: the position modulo 49. -/
theorem inner0_val (t : Fin cfg0.N) : ((grid0.coords t) 1).val = t.val % 49 := by
  show t.val / grid0.stride 1 % grid0.bound 1 = t.val % 49
  rw [show grid0.stride 1 = 1 from by decide, Nat.div_one]
  rfl

/-- The condition of the reset branch, from the grid coordinates: the inner coordinate, as a word, equals 0. -/
abbrev cond0_0 (i : grid0.Coords) : Prop :=
  (Scalar.cmpi .ne (Scalar.extui (Scalar.cmpi .eq (BitVec.ofNat 32 (i 1).val) 0#32)) 0#32) = 1#1

/-- The condition of the output branch: the inner coordinate, as a word, equals 48. -/
abbrev cond0_1 (i : grid0.Coords) : Prop := k0_cond2 i = 1#1

/-- Over the 49 inner coordinates the reset condition holds at 0 only. -/
theorem cond0_0_fin : ∀ k : Fin 49,
    (Scalar.cmpi .ne (Scalar.extui (Scalar.cmpi .eq (BitVec.ofNat 32 k.val) 0#32)) 0#32) = 1#1 ↔ k.val = 0 := by
  decide +kernel

/-- Over the 49 inner coordinates the output condition holds at 48 only. -/
theorem cond0_1_fin : ∀ k : Fin 49,
    (Scalar.cmpi .ne (Scalar.extui (Scalar.cmpi .eq (BitVec.ofNat 32 k.val) 48#32)) 0#32) = 1#1 ↔ k.val = 48 := by
  decide +kernel

/-- The reset branch is taken at the positions ≡ 0 (mod 49). -/
theorem hcond0_0 (t : Fin cfg0.N) : cond0_0 (grid0.coords t) ↔ t.val % 49 = 0 :=
  (cond0_0_fin ((grid0.coords t) 1)).trans (by rw [inner0_val])

/-- The output branch is taken at the positions ≡ 48 (mod 49). -/
theorem hcond0_1 (t : Fin cfg0.N) : cond0_1 (grid0.coords t) ↔ t.val % 49 = 48 :=
  (cond0_1_fin ((grid0.coords t) 1)).trans (by rw [inner0_val])

/-- The inputs are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- Where the output branch is not taken the output window is idle. -/
theorem idleAt0_3 (i : grid0.Coords) (h : ¬cond0_1 i) : cfg0.idle 3 i = true := by
  show (!(k0_cond2 i == 1#1)) = true
  rw [Bool.not_eq_true', beq_eq_false_iff_ne]
  exact h

/-- Where it is taken the output window is live. -/
theorem liveAt0_3 (i : grid0.Coords) (h : cond0_1 i) : cfg0.idle 3 i = false := by
  show (!(k0_cond2 i == 1#1)) = false
  rw [Bool.not_eq_false', beq_iff_eq]
  exact h

/-- Away from the positions ≡ 48 (mod 49) the output's block is not written back. -/
theorem noFlush0_3 (t : Fin cfg0.N) (h : ¬t.val % 49 = 48) : (cfg0.win 3).flush t = false :=
  Bool.eq_false_iff.mpr fun hf => h ((flush0_3 t).mp hf)

/-- Each window's current staging memref at position `t`, spelled as the pipeline passes it to the body, with its
    wholeness. -/
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)

end Cert.Kernel.Hand

end
-- ==== Proof.Kernel.Run0.lean ====
/-
  Region 0 (the gather): the kernel function's run in each of its three control cases, on whole memrefs.
  At the first node block of an edge tile the accumulator is reset to zero and then receives the one-hot product of
  the source indices with the feature block; at a middle block it receives the product added to what it held; at
  the last block, besides, the output buffer receives the accumulator scaled row by row by the edge weights. Every
  load and store is of the whole buffer, so what a buffer holds after the run is the last payload stored into it,
  and what a load after a store reads is that payload.
-/
import proofs.«418971_j36292473651564_1_alg».proof.Proof.Kernel.Sched0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The offsets of every load and store of the body: both zero. -/
theorem off_zero0 : (![0, 0] : Fin 2 → Nat) = fun _ => 0 := by funext a; fin_cases a <;> rfl

set_option maxHeartbeats 1000000 in
/-- The body at the first node block of an edge tile (reset taken, output branch not): on whole memrefs, the inputs'
    at `x0`, `x1`, `x2`, the output's at `xi3` (left as found), the accumulator at anything, it runs to the
    continuation holding the accumulator at the one-hot product of `x0` with `x2` added to zero. -/
theorem run0_A (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : cond0_0 i) (hc1 : ¬cond0_1 i)
    (x0 : Vec F S2048x1 .i32) (x1 : Vec F S2048x1 .f32) (x2 : Vec F S1024x128 .bf16)
    (xi3 : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 (k0_pay1 (F := F)))) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

set_option maxHeartbeats 1000000 in
/-- The body at a middle node block (neither branch taken): the accumulator, handed at `xs0`, is left at the one-hot
    product of `x0` with `x2` added to `xs0`; the output's buffer is left as found. -/
theorem run0_B (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : ¬cond0_0 i) (hc1 : ¬cond0_1 i)
    (x0 : Vec F S2048x1 .i32) (x1 : Vec F S2048x1 .f32) (x2 : Vec F S1024x128 .bf16) (xs0 : Vec F S2048x128 .f32)
    (xi3 : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 xs0)) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

set_option maxHeartbeats 1000000 in
/-- The body at the last node block of an edge tile (output branch taken, reset not): the accumulator, handed at
    `xs0`, is left at the one-hot product added to `xs0`, and the output's buffer, handed at anything, at that
    accumulator scaled row by row by the weights `x1`. -/
theorem run0_C (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : ¬cond0_0 i) (hc1 : cond0_1 i)
    (x0 : Vec F S2048x1 .i32) (x1 : Vec F S2048x1 .f32) (x2 : Vec F S1024x128 .bf16) (xs0 : Vec F S2048x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x2 xs0) x1) ∗ owns (c : Thread nD τ) arg6 fullShare (k0_pay2 i x0 x2 xs0)) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ·
      ipureintro
      (try sl_unfold_words)
      refine (View.read_writes_eq_canon _ _ _ (fun y => ?_)).trans ?_
      · exact ⟨_, List.Mem.head _, View.mem_set_unit_zero hz inb_S2048x128_S2048x128_0_0 y⟩
      rw [View.canon_cons_unit_zero hz]
      simp only [View.readAt_eq_ld, harg2.read_unread, harg3.read_unread, harg4.read_unread, harg6.read_unread,
        View.ld_unit_zero (S := S2048x1) hz, View.ld_unit_zero (S := S1024x128) hz, View.ld_unit_zero (S := S2048x128) hz,
        View.readCov_unit_zero (S := S2048x128) _ hz]
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

end Cert.Kernel.Hand

end
-- ==== Proof.Kernel.Obl0.lean ====
/-
  Region 0 (the gather): the body obligation of its pipeline, for the proof data fixed with the accumulator
  recursion. At every position the inputs' staging buffers hold their blocks; the position modulo 49 selects the
  control case; the kernel function's run in that case turns the accumulator the invariant carries into the next
  one of the recursion, and at the last node block of a tile leaves the output block at the scaled accumulator.
  Also: the class invariant is the invariant before the first point, and is given back after the last.
-/
import proofs.«418971_j36292473651564_1_alg».proof.Proof.Kernel.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The inputs' staging buffers hold their blocks -/

/-- Each input's current staging buffer holds its block at every point, fetched there or not: an input the body
    leaves in place, never idle, its blocks tiling the array. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any position. The inputs' memrefs hold their blocks; the position modulo 49 says which of the three
    control cases it is in. The invariant hands the body the accumulator at what the position before left (at anything
    at the very first position), and takes it back at this position's accumulator, which by the recursion is the
    one-hot product added to zero at the first node block of a tile and to the previous accumulator otherwise; the other
    scoped buffers and the generator register pass through. The output's buffer is handed back untouched except at the
    last node block of a tile, where it is left at the accumulator scaled by the weights. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 49 = 0
  · have h1 : ¬t.val % 49 = 48 := by omega
    rw [Dat.leavesExact_idle (dat0 V c) 3 t (idleAt0_3 _ (fun h => h1 ((hcond0_1 t).mp h))) (noFlush0_3 t h1)]
    rw [acc0_first V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc0_next V c t h0]
    rw [PhiS0_castSucc V c t, PhiS0_pos V c _ _ hz]
    by_cases h1 : t.val % 49 = 48
    · rw [show (dat0 V c).leavesExact 3 t = owns (c : Thread nD τ) (ms0_3 t) fullShare ((dat0 V c).after 3 t) from by
        unfold Dat.leavesExact; rw [liveAt0_3 _ ((hcond0_1 t).mpr h1)], after0_3]
      rw [acc0_next V c t h0]
      iintro ⟨⟨⟨HS0, Hr⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1)
        (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 _ (fun h => h1 ((hcond0_1 t).mp h))) (noFlush0_3 t h1)]
      iintro ⟨⟨⟨HS0, Hr⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 19159 := N_0; omega)

end

end Cert.Kernel.Hand

end
-- ==== Proof.Kernel.Def1.lean ====
/-
  Region 1 (the scatter and the linear layer): for each block of 1024 node rows the kernel sweeps the 391 tiles of 2048
  edges, adding to a scratch accumulator the product of the nodes' one-hot rows (node n, edge e: 1 when n is the edge's
  destination) with the tile of messages, and at the last tile writes the accumulator times the transposed weight
  matrix, plus the bias, cut below at zero. Stated here: the blocks the windows hold at a point, the accumulator after
  each point (reset at the first tile of a node block), the invariant that carries it, and the pipeline's proof data.
-/
import proofs.«418971_j36292473651564_1_alg».proof.Proof.Gen.Kernel.Launch
import proofs.«418971_j36292473651564_1_alg».proof.Proof.Gen.Kernel.Skeleton
import proofs.«418971_j36292473651564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: the one-hot product of this point's destination indices with
    this point's tile of messages, added to zero at the first edge tile of a node block (positions ≡ 0 mod 391) and to
    what the position before left otherwise. -/
def acc1 (c : Dev nD) : (n : ℕ) → n < cfg1.N → Vec F S1024x128 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 391 = 0 then k1_pay1 (F := F) else acc1 c n (Nat.lt_of_succ_lt hn))

/-- The accumulator scratch, whole. -/
abbrev scM1 : Memref sig .tc .vmem S1024x128 .f32 := Memref.whole cc1_scratch0

/-- The region invariant before position `n`: before the first point every scoped buffer that is no staging buffer
    at anything; afterwards the accumulator scratch at what the position before left, the other such buffers at
    anything; throughout the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

/-- The proof data of pipeline 1 on core `c`: the arrays as the region finds them; after the body each input's buffer
    at its block, the output's at the accumulator through the linear layer (consulted only where the body stores it,
    at the last edge tile of a node block); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

/-- The accumulator at a position that opens a node block. -/
theorem acc1_first (c : Dev nD) (t : Fin cfg1.N) (h : t.val % 391 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (congrArg (k1_pay2 _ _ _) (if_pos h))

/-- The accumulator at any other position, over what the position before left. -/
theorem acc1_next (c : Dev nD) (t : Fin cfg1.N) (h : ¬t.val % 391 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The class invariant with the accumulator scratch split out as a memref owned at some contents. -/
theorem PhiA1_eq (c : Dev nD) :
    (Pipeline.ΦA spec1 c : sProp 𝕄)
      = iprop(((∃ d, owns (c : Thread nD τ) scM1 fullShare d)
        ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]
  rfl

end

end Cert.Kernel.Hand

end
-- ==== Proof.Kernel.Sched1.lean ====
/-
  Region 1's schedule in closed form. The grid is 49 node blocks by 391 edge tiles, the tile coordinate running
  fastest, so the tile coordinate of point t is t mod 391. The kernel's two branches test that coordinate against 0
  (reset the accumulator) and against 390 (write the output block); both tests are decided over the 391 values of the
  coordinate. Also here: the inputs are never idle, the output is idle exactly where its branch is not taken and is
  not written back there, and each input's staging buffer holds the point's block whether or not it was fetched at
  that point (the weight matrix and the bias row are fetched once, their block index never moves).
-/
import proofs.«418971_j36292473651564_1_alg».proof.Proof.Kernel.Def1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The inner coordinate and the two branch conditions in closed form -/

/-- The inner coordinate of point `t` is `t mod 391`: the last axis runs fastest. -/
theorem coord1_inner (t : Fin cfg1.N) : ((grid1.coords t) 1).val = t.val % 391 := by
  show t.val / grid1.stride 1 % 391 = t.val % 391
  rw [show grid1.stride 1 = 1 from by decide, Nat.div_one]

/-- The reset branch's condition, from the grid coordinates: the inner coordinate is zero. -/
abbrev cond1_0 (i : grid1.Coords) : Prop := (Scalar.cmpi .ne (Scalar.extui (Scalar.cmpi .eq (BitVec.ofNat 32 (i 1).val) 0#32)) 0#32) = 1#1
/-- The output branch's condition, from the grid coordinates: the inner coordinate is the last. -/
abbrev cond1_1 (i : grid1.Coords) : Prop := k1_cond2 i = 1#1

/-- The reset condition over the 391 values of the inner coordinate. -/
theorem cond1_0_inner : ∀ k : Fin 391,
    (Scalar.cmpi .ne (Scalar.extui (Scalar.cmpi .eq (BitVec.ofNat 32 k.val) 0#32)) 0#32) = 1#1 ↔ k.val = 0 := by decide +kernel
/-- The output condition over the 391 values of the inner coordinate. -/
theorem cond1_1_inner : ∀ k : Fin 391,
    (Scalar.cmpi .ne (Scalar.extui (Scalar.cmpi .eq (BitVec.ofNat 32 k.val) 390#32)) 0#32) = 1#1 ↔ k.val = 390 := by decide +kernel

/-- The reset branch is taken exactly at the first edge tile of a node block. -/
theorem hcond1_0 (t : Fin cfg1.N) : cond1_0 (grid1.coords t) ↔ t.val % 391 = 0 := by
  have h := cond1_0_inner ⟨t.val % 391, Nat.mod_lt _ (by decide)⟩
  show (Scalar.cmpi .ne (Scalar.extui (Scalar.cmpi .eq (BitVec.ofNat 32 ((grid1.coords t) 1).val) 0#32)) 0#32) = 1#1 ↔ _
  rw [coord1_inner t]; exact h

/-- The output branch is taken exactly at the last edge tile of a node block. -/
theorem hcond1_1 (t : Fin cfg1.N) : cond1_1 (grid1.coords t) ↔ t.val % 391 = 390 := by
  have h := cond1_1_inner ⟨t.val % 391, Nat.mod_lt _ (by decide)⟩
  show (Scalar.cmpi .ne (Scalar.extui (Scalar.cmpi .eq (BitVec.ofNat 32 ((grid1.coords t) 1).val) 390#32)) 0#32) = 1#1 ↔ _
  rw [coord1_inner t]; exact h

/-! ## Where the windows are idle -/

/-- The four inputs are never idle. -/
theorem liveAt1_0 (i : grid1.Coords) : cfg1.idle 0 i = false := rfl
theorem liveAt1_1 (i : grid1.Coords) : cfg1.idle 1 i = false := rfl
theorem liveAt1_2 (i : grid1.Coords) : cfg1.idle 2 i = false := rfl
theorem liveAt1_3 (i : grid1.Coords) : cfg1.idle 3 i = false := rfl
/-- Where the output branch is not taken the output window is idle: nothing is stored into it. -/
theorem idleAt1_4 (i : grid1.Coords) (h : ¬cond1_1 i) : cfg1.idle 4 i = true := by
  show (!(k1_cond2 i == 1#1)) = true
  rw [Bool.not_eq_true', beq_eq_false_iff_ne]; exact h
/-- Where it is taken the output window is live. -/
theorem liveAt1_4 (i : grid1.Coords) (h : cond1_1 i) : cfg1.idle 4 i = false := by
  show (!(k1_cond2 i == 1#1)) = false
  rw [Bool.not_eq_false', beq_iff_eq]; exact h

/-- Away from the last edge tile of a node block the output's block is not written back. -/
theorem noFlush1_4 (t : Fin cfg1.N) (h : ¬t.val % 391 = 390) : (cfg1.win 4).flush t = false :=
  Bool.eq_false_iff.mpr fun hf => h ((flush1_4 t).mp hf)

/-! ## The memrefs the body is called with -/

/-- Each window's current staging memref at point `t`, spelled as the pipeline passes it, and its wholeness. -/
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)

/-! ## What each input's staging buffer holds when the body is called -/

section
variable (V : (c : Dev nD) → (b : Ref sig .tc) → Buf (Elt F) ((c : Thread nD τ).loc b))

/-- The destination indices' buffer holds this point's row block, fetched here or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0 V c t]; unfold Dat.blockOf iblk1; rw [A_eq1 V c 0]; try rfl) t d).trans
    (by unfold Dat.fetched Dat.blockOf iblk1; rw [A_eq1 V c 0]; try rfl)
/-- The messages' buffer holds this point's tile. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1 V c t]; unfold Dat.blockOf iblk1; rw [A_eq1 V c 1]; try rfl) t d).trans
    (by unfold Dat.fetched Dat.blockOf iblk1; rw [A_eq1 V c 1]; try rfl)
/-- The weight matrix's buffer holds the matrix at every point, though it is fetched once. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2 V c t]; unfold Dat.blockOf iblk1; rw [A_eq1 V c 2]; try rfl) t d).trans
    (by unfold Dat.fetched Dat.blockOf iblk1; rw [A_eq1 V c 2]; try rfl)
/-- The bias row's buffer holds the row at every point, though it is fetched once. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3 V c t]; unfold Dat.blockOf iblk1; rw [A_eq1 V c 3]; try rfl) t d).trans
    (by unfold Dat.fetched Dat.blockOf iblk1; rw [A_eq1 V c 3]; try rfl)

end

end Cert.Kernel.Hand

end
-- ==== Proof.Kernel.Run1.lean ====
/-
  Region 1's kernel function run in each of its three control cases, on any whole memrefs: at the first edge tile of
  a node block (the accumulator is zeroed, then the tile's one-hot product is added; the output is not touched), at a
  middle tile (the product is added to what the accumulator held), at the last tile (the same, then the accumulator
  through the linear layer is stored into the output). Each run hands the inputs back as found and names the stores it
  made into the accumulator (and, in the last case, the output) as a list of pieces; the lemmas after each run read
  those pieces back: they cover the block, and their canonical contents are the payload terms of the skeleton.
-/
import proofs.«418971_j36292473651564_1_alg».proof.Proof.Kernel.Sched1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block access of a matrix, as a function. -/
theorem hz2 : (![0, 0] : Fin 2 → Nat) = fun _ => 0 := funext fun a => by fin_cases a <;> rfl

set_option maxHeartbeats 1000000 in
/-- THE FIRST EDGE TILE of a node block (reset branch taken, output branch not): the inputs at their contents, the
    output's buffer at contents handed back untouched, the accumulator scratch at anything; the scratch ends with the
    named pieces written. -/
noncomputable def kernelRun1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) :
    { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare xi4
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The reset case's stores into the accumulator scratch cover it. -/
theorem scover1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) (y : S1024x128.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x128.size (by sl_kernel_rfl) y

/-- What the reset case leaves in the accumulator scratch: the one-hot product added to the zero block (the block
    is zeroed, read back, and the sum stored over it; the later store covers). -/
theorem scanon1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) :
    View.canon (kernelRun1_A c i arg2 harg2 arg3 harg3 arg4 harg4 arg5 harg5 arg6 harg6 arg7 harg7 hc0 hc1 x0 x1 x2 x3).1 = k1_pay2 i x0 x1 (k1_pay1 (F := F)) := by
  unfold kernelRun1_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1x2048) hz2,
    View.ld_unit_zero (S := S2048x128) hz2]

set_option maxHeartbeats 1000000 in
/-- A MIDDLE EDGE TILE (neither branch taken): as the first, the accumulator scratch at what the point before left. -/
noncomputable def kernelRun1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) :
    { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The middle case's one store into the accumulator scratch covers it. -/
theorem scover1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1024x128.size (by sl_kernel_rfl) y

/-- What the middle case leaves in the accumulator scratch: the one-hot product added to what it held. -/
theorem scanon1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) :
    View.canon (kernelRun1_B c i arg2 harg2 arg3 harg3 arg4 harg4 arg5 harg5 arg6 harg6 arg7 harg7 hc0 hc1 x0 x1 x2 x3 xs0).1 = k1_pay2 i x0 x1 xs0 := by
  unfold kernelRun1_B
  dsimp only
  sl_unfold_words
  rw [View.canon_unit_zero (S := S1024x128) hz2]
  simp only [View.readAt_eq_ld, harg2.read_unread, harg3.read_unread, harg7.read_unread, View.ld_unit_zero (S := S1x2048) hz2,
    View.ld_unit_zero (S := S2048x128) hz2, View.ld_unit_zero (S := S1024x128) hz2]

set_option maxHeartbeats 1000000 in
/-- THE LAST EDGE TILE (output branch taken, reset not): the output's buffer at anything, ending with its named
    pieces written; the accumulator scratch at what the point before left. -/
noncomputable def kernelRun1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The last case's one store into the accumulator scratch covers it. -/
theorem scover1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- Its one store into the output's staging buffer covers it. -/
theorem ocover1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What the last case leaves in the accumulator scratch: the one-hot product added to what it held. -/
theorem scanon1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    View.canon (kernelRun1_C c i arg2 harg2 arg3 harg3 arg4 harg4 arg5 harg5 arg6 harg6 arg7 harg7 hc0 hc1 x0 x1 x2 x3 xs0).2.1 = k1_pay2 i x0 x1 xs0 := by
  unfold kernelRun1_C
  dsimp only
  sl_unfold_words
  rw [View.canon_unit_zero (S := S1024x128) hz2]
  simp only [View.readAt_eq_ld, harg2.read_unread, harg3.read_unread, harg7.read_unread, View.ld_unit_zero (S := S1x2048) hz2,
    View.ld_unit_zero (S := S2048x128) hz2, View.ld_unit_zero (S := S1024x128) hz2]

/-- What it leaves in the output's staging buffer: the accumulator just stored, read back, through the linear layer. -/
theorem ocanon1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    View.canon (kernelRun1_C c i arg2 harg2 arg3 harg3 arg4 harg4 arg5 harg5 arg6 harg6 arg7 harg7 hc0 hc1 x0 x1 x2 x3 xs0).1 = k1_pay3 (k1_pay2 i x0 x1 xs0) x2 x3 := by
  unfold kernelRun1_C
  dsimp only
  sl_unfold_words
  rw [View.canon_unit_zero (S := S1024x128) hz2, View.readCov_unit_zero (S := S1024x128) _ hz2]
  simp only [View.readAt_eq_ld, harg2.read_unread, harg3.read_unread, harg4.read_unread, harg5.read_unread, harg7.read_unread,
    View.ld_unit_zero (S := S1x2048) hz2, View.ld_unit_zero (S := S2048x128) hz2, View.ld_unit_zero (S := S1024x128) hz2,
    View.ld_unit_zero (S := S128x128) hz2, View.ld_unit_zero (S := S1x128) hz2]

end Cert.Kernel.Hand

end
-- ==== Proof.Kernel.Obl1.lean ====
/-
  Region 1's body obligation. At a point the pipeline hands the body the invariant, the four inputs' staging buffers
  at their blocks and the output's at whatever it held. Which control case the point is in is read off the closed
  forms: the first edge tile of a node block (reset), a middle tile, the last tile (output). In each the kernel's run
  applies; the accumulator scratch is taken from the invariant (at anything before the very first point, at what the
  point before left afterwards) and handed back at this point's accumulator, the other scoped buffers and the
  generator register pass through untouched; the output's buffer is handed back untouched where its branch is not
  taken (it is idle and not written back there) and at the accumulator through the linear layer where it is.
-/
import proofs.«418971_j36292473651564_1_alg».proof.Proof.Kernel.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body leaves in each window's buffer -/

/-- An input's buffer is left at its block (an input is never idle). -/
theorem leaves1_0 (c : Dev nD) (t : Fin cfg1.N) :
    (dat1 V c).leavesExact 0 t = owns (c : Thread nD τ) (ms1_0 t) fullShare (iblk1 V c 0 t) :=
  (show (dat1 V c).leavesExact 0 t = owns (c : Thread nD τ) (ms1_0 t) fullShare ((dat1 V c).after 0 t) from rfl).trans
    (by rw [after1_0 V c t])
theorem leaves1_1 (c : Dev nD) (t : Fin cfg1.N) :
    (dat1 V c).leavesExact 1 t = owns (c : Thread nD τ) (ms1_1 t) fullShare (iblk1 V c 1 t) :=
  (show (dat1 V c).leavesExact 1 t = owns (c : Thread nD τ) (ms1_1 t) fullShare ((dat1 V c).after 1 t) from rfl).trans
    (by rw [after1_1 V c t])
theorem leaves1_2 (c : Dev nD) (t : Fin cfg1.N) :
    (dat1 V c).leavesExact 2 t = owns (c : Thread nD τ) (ms1_2 t) fullShare (iblk1 V c 2 t) :=
  (show (dat1 V c).leavesExact 2 t = owns (c : Thread nD τ) (ms1_2 t) fullShare ((dat1 V c).after 2 t) from rfl).trans
    (by rw [after1_2 V c t])
theorem leaves1_3 (c : Dev nD) (t : Fin cfg1.N) :
    (dat1 V c).leavesExact 3 t = owns (c : Thread nD τ) (ms1_3 t) fullShare (iblk1 V c 3 t) :=
  (show (dat1 V c).leavesExact 3 t = owns (c : Thread nD τ) (ms1_3 t) fullShare ((dat1 V c).after 3 t) from rfl).trans
    (by rw [after1_3 V c t])

/-- Away from the last edge tile the output's buffer is handed back as found. -/
theorem leaves1_4_idle (c : Dev nD) (t : Fin cfg1.N) (h1 : ¬t.val % 391 = 390) :
    (dat1 V c).leavesExact 4 t = iprop(∃ d, owns (c : Thread nD τ) (ms1_4 t) fullShare ((dat1 V c).before 4 t d)) :=
  Dat.leavesExact_idle (dat1 V c) 4 t (idleAt1_4 (grid1.coords t) (fun h => h1 ((hcond1_1 t).mp h))) (noFlush1_4 t h1)

/-- At the last edge tile it is left at the accumulator through the linear layer. -/
theorem leaves1_4_live (c : Dev nD) (t : Fin cfg1.N) (h1 : t.val % 391 = 390) :
    (dat1 V c).leavesExact 4 t = owns (c : Thread nD τ) (ms1_4 t) fullShare
      (k1_pay3 (acc1 V c t.val t.isLt) (iblk1 V c 2 t) (iblk1 V c 3 t)) := by
  unfold Dat.leavesExact
  rw [liveAt1_4 (grid1.coords t) ((hcond1_1 t).mpr h1), after1_4 V c t]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by cases on the tile coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V]
  rw [show (dat1 V c).owesAt () t.succ = (dat1 V c).owesAt () t.castSucc from rfl]
  rw [show (dat1 V c).Φ t.succ = PhiS1 V c (t.val + 1) t.isLt from rfl, PhiS1_succ V c t.val t.isLt]
  rw [leaves1_0 V c t, leaves1_1 V c t, leaves1_2 V c t, leaves1_3 V c t]
  by_cases h0 : t.val % 391 = 0
  · -- the first edge tile of a node block
    have h1 : ¬t.val % 391 = 390 := by omega
    rw [leaves1_4_idle V c t h1, acc1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _)
        ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))).trans
              (scanon1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _)
        ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))).trans
              (scanon1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_next V c t h0, PhiS1_castSucc V c t, PhiS1_pos V c _ _ hz]
    by_cases h1 : t.val % 391 = 390
    · -- the last edge tile
      rw [leaves1_4_live V c t h1, acc1_next V c t h0]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) ((hcond1_1 t).mpr h1) (iblk1 V c 0 t) (iblk1 V c 1 t) (iblk1 V c 2 t) (iblk1 V c 3 t)
              (acc1 V c (t.val - 1) (Nat.lt_of_le_of_lt (Nat.sub_le _ _) t.isLt)))).trans
              (scanon1_C c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) ((hcond1_1 t).mpr h1) (iblk1 V c 0 t) (iblk1 V c 1 t) (iblk1 V c 2 t) (iblk1 V c 3 t)
              (acc1 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (ocover1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)))).trans
        (ocanon1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)))
    · -- a middle edge tile
      rw [leaves1_4_idle V c t h1]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) (fun h => h1 ((hcond1_1 t).mp h)) (iblk1 V c 0 t) (iblk1 V c 1 t) (iblk1 V c 2 t) (iblk1 V c 3 t)
        (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) (fun h => h1 ((hcond1_1 t).mp h)) (iblk1 V c 0 t) (iblk1 V c 1 t) (iblk1 V c 2 t) (iblk1 V c 3 t)
              (acc1 V c (t.val - 1) (Nat.lt_of_le_of_lt (Nat.sub_le _ _) t.isLt)))).trans
              (scanon1_B c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) (fun h => h1 ((hcond1_1 t).mp h)) (iblk1 V c 0 t) (iblk1 V c 1 t) (iblk1 V c 2 t) (iblk1 V c 3 t)
              (acc1 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 19159 := N_1; omega), PhiA1_eq]
  iintro ⟨⟨HS0, Hr⟩, Hg⟩
  isplitl [HS0 Hr]
  · isplitl [HS0]
    · iexists _; iexact HS0
    iexact Hr
  iexact Hg

end

end Cert.Kernel.Hand

end
-- ==== Proof.Kernel.Launch.lean ====
/-
  The two kernel regions as segments of the program's run, and the run itself. Between two items of the program every
  unscoped buffer of a core is held at named contents: the launch memory, then each host stretch applied, then after
  region 0 the message array at what the pipeline's write-backs leave, after region 1 the padded output array
  likewise. Beside the buffers ride the generator register at some state and the fact that the core owes nothing.
  Each region takes its windows' arrays out of the held buffers, runs its pipeline under the body obligation, and puts
  them back; the accumulator scratch enters the invariant at anything and is forgotten at the exit.
-/
import proofs.«418971_j36292473651564_1_alg».proof.Proof.Kernel.Obl0
import proofs.«418971_j36292473651564_1_alg».proof.Proof.Kernel.Obl1
import proofs.«418971_j36292473651564_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the regions are entered from and leave -/

/-- Region 0's entry contents: the launch memory through the nine host stretches before it. -/
abbrev Ent0 : (c : Dev nD) → (b : Ref sig .tc) → Buf (Elt F) ((c : Thread nD τ).loc b) := fun c b => V9 m c b

/-- What region 0 leaves in the message array: its blocks' write-backs folded over the entry contents. -/
def out10 (c : Dev nD) : Buf (Elt F) ((c : Thread nD τ).loc main_v11) := (dat0 (Ent0 m) c).arrAt 3 cfg0.N

/-- Every unscoped buffer after region 0. -/
abbrev Y10 (c : Dev nD) : Valuation τ sig (Elt F) := Function.update (V9 m c) main_v11 (out10 m c)

/-- Region 1's entry contents. -/
abbrev Ent1 : (c : Dev nD) → (b : Ref sig .tc) → Buf (Elt F) ((c : Thread nD τ).loc b) := fun c b => Y10 m c b

/-- What region 1 leaves in the padded output array. -/
def out11 (c : Dev nD) : Buf (Elt F) ((c : Thread nD τ).loc main_v12) := (dat1 (Ent1 m) c).arrAt 4 cfg1.N

/-- Every unscoped buffer after region 1. -/
abbrev Y11 (c : Dev nD) : Valuation τ sig (Elt F) := Function.update (Y10 m c) main_v12 (out11 m c)

/-- What the regions leave, as the family the run's valuations are written over: the message array after region 0,
    the padded output array after region 1 (no other entry is read). -/
def outs : Outs (F := F) := fun _ r c =>
  Function.update (Function.update (fun r : Ref sig .tc => (V9 m c r : Buf (Elt F) ((c : Thread nD τ).loc r))) main_v11 (out10 m c))
    main_v12 (out11 m c) r

theorem outs_v11 (J : ℕ) (c : Dev nD) : outs m J main_v11 c = out10 m c := by
  unfold outs
  rw [Function.update_of_ne (by decide : (main_v11 : Ref sig .tc) ≠ main_v12), Function.update_self]

theorem outs_v12 (J : ℕ) (c : Dev nD) : outs m J main_v12 c = out11 m c := by
  unfold outs
  rw [Function.update_self]

theorem V10_eq (c : Dev nD) : V10 m (outs m) c = Y10 m c := by
  show Function.update (V9 m c) main_v11 (outs m 10 main_v11 c) = _
  rw [outs_v11]

theorem V11_eq (c : Dev nD) : V11 m (outs m) c = Y11 m c := by
  show Function.update (V10 m (outs m) c) main_v12 (outs m 11 main_v12 c) = _
  rw [outs_v12, V10_eq]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ent0 m) c
  | ⟨1, _⟩ => fun c => dat1 (Ent1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The arrays at a region's exit -/

/-- After region 0 each of its arrays holds what the pipeline leaves: the three inputs as entered, the message array
    its folded write-backs. -/
theorem hF0 (c : Dev nD) (w : Fin cfg0.W) : (pdats m 0 c).arrAt w cfg0.N = (fun b : Ref sig .tc => Y10 m c b) (Pipeline.arrRef spec0 w) := by
  match w with
  | ⟨0, _⟩ => exact ((dat0 (Ent0 m) c).arrAt_in 0 rfl _).trans (Function.update_of_ne (StableHlo.devRef_ne_of_ne (by decide : (main_v5 : Ref sig .tc) ≠ main_v11)) (out10 m c) (V9 m c)).symm
  | ⟨1, _⟩ => exact ((dat0 (Ent0 m) c).arrAt_in 1 rfl _).trans (Function.update_of_ne (StableHlo.devRef_ne_of_ne (by decide : (main_v6 : Ref sig .tc) ≠ main_v11)) (out10 m c) (V9 m c)).symm
  | ⟨2, _⟩ => exact ((dat0 (Ent0 m) c).arrAt_in 2 rfl _).trans (Function.update_of_ne (StableHlo.devRef_ne_of_ne (by decide : (main_v4 : Ref sig .tc) ≠ main_v11)) (out10 m c) (V9 m c)).symm
  | ⟨3, _⟩ => exact (Function.update_self (Proc.devRef .tc main_v11) (out10 m c) (V9 m c)).symm

/-- Every buffer that is no array of region 0 is as entered. -/
theorem hrest0 (c : Dev nD) : ∀ b, b ∉ Finset.univ.image (Pipeline.arrRef spec0) → (fun b : Ref sig .tc => Y10 m c b) b = Ent0 m c b :=
  fun b hb => Function.update_of_ne (StableHlo.devRef_ne_of_ne fun e => hb (Finset.mem_image.mpr ⟨3, Finset.mem_univ _, e.symm⟩)) _ _

/-- After region 1 each of its arrays holds what the pipeline leaves: the four inputs as entered, the padded output
    array its folded write-backs. -/
theorem hF1 (c : Dev nD) (w : Fin cfg1.W) : (pdats m 1 c).arrAt w cfg1.N = (fun b : Ref sig .tc => Y11 m c b) (Pipeline.arrRef spec1 w) := by
  match w with
  | ⟨0, _⟩ => exact ((dat1 (Ent1 m) c).arrAt_in 0 rfl _).trans (Function.update_of_ne (StableHlo.devRef_ne_of_ne (by decide : (main_v7 : Ref sig .tc) ≠ main_v12)) (out11 m c) (Y10 m c)).symm
  | ⟨1, _⟩ => exact ((dat1 (Ent1 m) c).arrAt_in 1 rfl _).trans (Function.update_of_ne (StableHlo.devRef_ne_of_ne (by decide : (main_v11 : Ref sig .tc) ≠ main_v12)) (out11 m c) (Y10 m c)).symm
  | ⟨2, _⟩ => exact ((dat1 (Ent1 m) c).arrAt_in 2 rfl _).trans (Function.update_of_ne (StableHlo.devRef_ne_of_ne (by decide : (main_v9 : Ref sig .tc) ≠ main_v12)) (out11 m c) (Y10 m c)).symm
  | ⟨3, _⟩ => exact ((dat1 (Ent1 m) c).arrAt_in 3 rfl _).trans (Function.update_of_ne (StableHlo.devRef_ne_of_ne (by decide : (main_v10 : Ref sig .tc) ≠ main_v12)) (out11 m c) (Y10 m c)).symm
  | ⟨4, _⟩ => exact (Function.update_self (Proc.devRef .tc main_v12) (out11 m c) (Y10 m c)).symm

/-- Every buffer that is no array of region 1 is as entered. -/
theorem hrest1 (c : Dev nD) : ∀ b, b ∉ Finset.univ.image (Pipeline.arrRef spec1) → (fun b : Ref sig .tc => Y11 m c b) b = Ent1 m c b :=
  fun b hb => Function.update_of_ne (StableHlo.devRef_ne_of_ne fun e => hb (Finset.mem_image.mpr ⟨4, Finset.mem_univ _, e.symm⟩)) _ _

/-! ## The regions as segments -/

section Segs

-- applying a library lemma stated over the pinned configuration unifies with the printed one only when unification may
-- unfold plain definitions in a metavariable's type
set_option backward.isDefEq.respectTransparency.types false in
/-- Region 0 over the thread state: entered from every unscoped buffer at `V9 m`, left with the output array at
    what the write-backs leave and every other buffer as entered. Its arrays are split out of the unscoped buffers and
    put back at the exit contents; the generator register enters the invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ent0 m) c)
    unfold Pipeline.ΦA
    iintro ⟨Hp, -, Hr⟩
    isplitl [Hr]; · iexact Hr
    iexact Hp
  hout c := by
    rw [Pipeline.ownSems0_none]
    refine (hout0 (Ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (fun b => Y10 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at `Y10 m`, left with the output array at
    what the write-backs leave and every other buffer as entered. Its arrays are split out of the unscoped buffers and
    put back at the exit contents; the generator register enters the invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m) c).loose
  hwaits := Pipeline.hwaits_of_owed_zero _ _ _ _ L lv 1 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ent1 m) c)
    unfold Pipeline.ΦA
    iintro ⟨Hp, -, Hr⟩
    isplitl [Hr]; · iexact Hr
    iexact Hp
  hout c := by
    rw [Pipeline.ownSems0_none]
    refine (hout1 (Ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (fun b => Y11 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segs

end Cert.Kernel.Hand

end
-- ==== Proof.Kernel.Frame.lean ====
/-
  The program's run, from the two regions' records: every weakly fair execution from a memory with zero counters
  terminates, nothing faults, and the argument arrays end as launched.
  The launch deals each core its generator register and the fact that it owes nothing, which ride beside the buffers.
-/
import proofs.«418971_j36292473651564_1_alg».proof.Proof.Kernel.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
/-- The launch's ghost state: the pipelines' cells and duty tokens, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the rest state: its generator register at its launch state, owing nothing. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, H⟩; iexact H

-- the conditional frame's implicit arguments are found by unifying its conclusion with this one
set_option backward.isDefEq.respectTransparency.types false in
/-- THE FRAME, at any float instance: the run terminates, faults nowhere and leaves the six argument arrays as
    launched. -/
theorem frame_of_obl : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀
    (fun _ c => R c) (hE0 ρ) (fun c => hE2 c)
    (reg0 m) (fun c => .rfl) (fun c => by rw [V10_eq]; exact .rfl)
    (reg1 m) (fun c => by rw [V10_eq]; exact .rfl) (fun c => by rw [V11_eq]; exact .rfl)

end

end Cert.Kernel.Hand

end
-- ==== Proof.KernelIdeal.Def0.lean ====
/-
  Region 0 (the gather): for each tile of 2048 edges the kernel sweeps the 49 blocks of 1024 node rows, adding to a
  scratch accumulator the product of the edges' one-hot rows (edge e, node n: 1 when n is the edge's source) with the
  block of features, and at the last block writes the accumulator scaled by the edge weights. Stated here: the blocks
  the windows hold at a point, the accumulator after each point as a recursion over the points (reset at the first
  block of a tile), the invariant that carries it between points, and the pipeline's proof data.
-/
import proofs.«418971_j36292473651564_1_alg».proof.Proof.Gen.KernelIdeal.Launch
import proofs.«418971_j36292473651564_1_alg».proof.Proof.Gen.KernelIdeal.Skeleton
import proofs.«418971_j36292473651564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at position `n`: the one-hot product of this point's source indices with this
    point's feature block, added to zero at the first node block of an edge tile (positions ≡ 0 mod 49) and to what the
    position before left otherwise. -/
def acc0 (c : Dev nD) : (n : ℕ) → n < cfg0.N → Vec F S2048x128 .f32
  | 0, hn => k0_pay2 (grid0.coords ⟨0, hn⟩) (iblk0 V c 0 ⟨0, hn⟩) (iblk0 V c 2 ⟨0, hn⟩) (k0_pay1 (F := F))
  | n + 1, hn => k0_pay2 (grid0.coords ⟨n + 1, hn⟩) (iblk0 V c 0 ⟨n + 1, hn⟩) (iblk0 V c 2 ⟨n + 1, hn⟩)
      (if (n + 1) % 49 = 0 then k0_pay1 (F := F) else acc0 c n (Nat.lt_of_succ_lt hn))

/-- The accumulator scratch, whole. -/
abbrev scM0 : Memref sig .tc .vmem S2048x128 .f32 := Memref.whole cc0_scratch0

/-- The region invariant before position `n`: before the first point every scoped buffer that is no staging buffer
    at anything; afterwards the accumulator scratch at what the position before left, the other such buffers at
    anything; throughout the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

/-- The proof data of pipeline 0 on core `c`: the arrays as the region finds them; after the body each input's buffer
    at its block, the output's at the accumulator scaled by the weights' block (consulted only where the body stores
    it, at the last node block of a tile); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 1 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (acc0 V c t.val t.isLt) (iblk0 V c 1 t) := by dsimp only [dat0]

/-- The accumulator at a position that opens an edge tile. -/
theorem acc0_first (c : Dev nD) (t : Fin cfg0.N) (h : t.val % 49 = 0) :
    acc0 V c t.val t.isLt = k0_pay2 (grid0.coords t) (iblk0 V c 0 t) (iblk0 V c 2 t) (k0_pay1 (F := F)) := by
  obtain ⟨n, hn⟩ := t
  cases n with
  | zero => rfl
  | succ n => exact (congrArg (k0_pay2 _ _ _) (if_pos h))

/-- The accumulator at any other position, over what the position before left. -/
theorem acc0_next (c : Dev nD) (t : Fin cfg0.N) (h : ¬t.val % 49 = 0) :
    acc0 V c t.val t.isLt = k0_pay2 (grid0.coords t) (iblk0 V c 0 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (congrArg (k0_pay2 _ _ _) (if_neg h))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- The class invariant with the accumulator scratch split out as a memref owned at some contents. -/
theorem PhiA0_eq (c : Dev nD) :
    (Pipeline.ΦA spec0 c : sProp 𝕄)
      = iprop(((∃ d, owns (c : Thread nD τ) scM0 fullShare d)
        ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [bigSepL_singleton, scM0, owns_whole]
  rfl

end

end Cert.KernelIdeal.Hand

end
-- ==== Proof.KernelIdeal.Sched0.lean ====
/-
  Region 0 (the gather), its schedule in closed form. A point t of the grid 391 × 49 has inner coordinate t mod 49
  (the last axis runs fastest). The accumulator is reset where the inner coordinate is 0 and the output block is
  stored where it is 48: both conditions, computed by the kernel as 32-bit word comparisons, are decided over the
  49 values of the inner coordinate. The three inputs are never idle; the output is idle, and not written back,
  exactly where the store's condition fails.
-/
import proofs.«418971_j36292473651564_1_alg».proof.Proof.KernelIdeal.Def0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The inner coordinate of the point at position `t`: the position modulo 49. -/
theorem inner0_val (t : Fin cfg0.N) : ((grid0.coords t) 1).val = t.val % 49 := by
  show t.val / grid0.stride 1 % grid0.bound 1 = t.val % 49
  rw [show grid0.stride 1 = 1 from by decide, Nat.div_one]
  rfl

/-- The condition of the reset branch, from the grid coordinates: the inner coordinate, as a word, equals 0. -/
abbrev cond0_0 (i : grid0.Coords) : Prop :=
  (Scalar.cmpi .ne (Scalar.extui (Scalar.cmpi .eq (BitVec.ofNat 32 (i 1).val) 0#32)) 0#32) = 1#1

/-- The condition of the output branch: the inner coordinate, as a word, equals 48. -/
abbrev cond0_1 (i : grid0.Coords) : Prop := k0_cond2 i = 1#1

/-- Over the 49 inner coordinates the reset condition holds at 0 only. -/
theorem cond0_0_fin : ∀ k : Fin 49,
    (Scalar.cmpi .ne (Scalar.extui (Scalar.cmpi .eq (BitVec.ofNat 32 k.val) 0#32)) 0#32) = 1#1 ↔ k.val = 0 := by
  decide +kernel

/-- Over the 49 inner coordinates the output condition holds at 48 only. -/
theorem cond0_1_fin : ∀ k : Fin 49,
    (Scalar.cmpi .ne (Scalar.extui (Scalar.cmpi .eq (BitVec.ofNat 32 k.val) 48#32)) 0#32) = 1#1 ↔ k.val = 48 := by
  decide +kernel

/-- The reset branch is taken at the positions ≡ 0 (mod 49). -/
theorem hcond0_0 (t : Fin cfg0.N) : cond0_0 (grid0.coords t) ↔ t.val % 49 = 0 :=
  (cond0_0_fin ((grid0.coords t) 1)).trans (by rw [inner0_val])

/-- The output branch is taken at the positions ≡ 48 (mod 49). -/
theorem hcond0_1 (t : Fin cfg0.N) : cond0_1 (grid0.coords t) ↔ t.val % 49 = 48 :=
  (cond0_1_fin ((grid0.coords t) 1)).trans (by rw [inner0_val])

/-- The inputs are never idle. -/
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl

/-- Where the output branch is not taken the output window is idle. -/
theorem idleAt0_3 (i : grid0.Coords) (h : ¬cond0_1 i) : cfg0.idle 3 i = true := by
  show (!(k0_cond2 i == 1#1)) = true
  rw [Bool.not_eq_true', beq_eq_false_iff_ne]
  exact h

/-- Where it is taken the output window is live. -/
theorem liveAt0_3 (i : grid0.Coords) (h : cond0_1 i) : cfg0.idle 3 i = false := by
  show (!(k0_cond2 i == 1#1)) = false
  rw [Bool.not_eq_false', beq_iff_eq]
  exact h

/-- Away from the positions ≡ 48 (mod 49) the output's block is not written back. -/
theorem noFlush0_3 (t : Fin cfg0.N) (h : ¬t.val % 49 = 48) : (cfg0.win 3).flush t = false :=
  Bool.eq_false_iff.mpr fun hf => h ((flush0_3 t).mp hf)

/-- Each window's current staging memref at position `t`, spelled as the pipeline passes it to the body, with its
    wholeness. -/
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KernelIdeal.Run0.lean ====
/-
  Region 0 (the gather): the kernel function's run in each of its three control cases, on whole memrefs.
  At the first node block of an edge tile the accumulator is reset to zero and then receives the one-hot product of
  the source indices with the feature block; at a middle block it receives the product added to what it held; at
  the last block, besides, the output buffer receives the accumulator scaled row by row by the edge weights. Every
  load and store is of the whole buffer, so what a buffer holds after the run is the last payload stored into it,
  and what a load after a store reads is that payload.
-/
import proofs.«418971_j36292473651564_1_alg».proof.Proof.KernelIdeal.Sched0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of every load and store of the body: both zero. -/
theorem off_zero0 : (![0, 0] : Fin 2 → Nat) = fun _ => 0 := by funext a; fin_cases a <;> rfl

set_option maxHeartbeats 1000000 in
/-- The body at the first node block of an edge tile (reset taken, output branch not): on whole memrefs, the inputs'
    at `x0`, `x1`, `x2`, the output's at `xi3` (left as found), the accumulator at anything, it runs to the
    continuation holding the accumulator at the one-hot product of `x0` with `x2` added to zero. -/
theorem run0_A (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : cond0_0 i) (hc1 : ¬cond0_1 i)
    (x0 : Vec F S2048x1 .i32) (x1 : Vec F S2048x1 .f32) (x2 : Vec F S1024x128 .bf16)
    (xi3 : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 (k0_pay1 (F := F)))) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

set_option maxHeartbeats 1000000 in
/-- The body at a middle node block (neither branch taken): the accumulator, handed at `xs0`, is left at the one-hot
    product of `x0` with `x2` added to `xs0`; the output's buffer is left as found. -/
theorem run0_B (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : ¬cond0_0 i) (hc1 : ¬cond0_1 i)
    (x0 : Vec F S2048x1 .i32) (x1 : Vec F S2048x1 .f32) (x2 : Vec F S1024x128 .bf16) (xs0 : Vec F S2048x128 .f32)
    (xi3 : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 i x0 x2 xs0)) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

set_option maxHeartbeats 1000000 in
/-- The body at the last node block of an edge tile (output branch taken, reset not): the accumulator, handed at
    `xs0`, is left at the one-hot product added to `xs0`, and the output's buffer, handed at anything, at that
    accumulator scaled row by row by the weights `x1`. -/
theorem run0_C (c : Dev nD) (i : grid0.Coords)
    (arg2 : Memref sig .tc .vmem S2048x1 .i32) (harg2 : arg2.IsWhole)
    (arg3 : Memref sig .tc .vmem S2048x1 .f32) (harg3 : arg3.IsWhole)
    (arg4 : Memref sig .tc .vmem S1024x128 .bf16) (harg4 : arg4.IsWhole)
    (arg5 : Memref sig .tc .vmem S2048x128 .f32) (harg5 : arg5.IsWhole)
    (arg6 : Memref sig .tc .vmem S2048x128 .f32) (harg6 : arg6.IsWhole)
    (hc0 : ¬cond0_0 i) (hc1 : cond0_1 i)
    (x0 : Vec F S2048x1 .i32) (x1 : Vec F S2048x1 .f32) (x2 : Vec F S1024x128 .bf16) (xs0 : Vec F S2048x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs0
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 i x0 x2 xs0) x1) ∗ owns (c : Thread nD τ) arg6 fullShare (k0_pay2 i x0 x2 xs0)) -∗ K ⟨⟩))
      ⊢ wp frame (wpE (defs₀ (F := F)) Variants.none c none) E (cc0__gather_scale_kernel i arg2 harg2 arg3 harg3 arg4 harg4 arg5 harg5 arg6 harg6) K := by
  have hz := off_zero0
  simp only [cc0__gather_scale_kernel_eq_skeleton]; unfold cc0__gather_scale_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0; obtain rfl := harg3.eq_unread hf1; obtain rfl := harg4.eq_unread hf2
  obtain rfl := harg6.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ·
      ipureintro
      (try sl_unfold_words)
      refine (View.read_writes_eq_canon _ _ _ (fun y => ?_)).trans ?_
      · exact ⟨_, List.Mem.head _, View.mem_set_unit_zero hz inb_S2048x128_S2048x128_0_0 y⟩
      rw [View.canon_cons_unit_zero hz]
      simp only [View.readAt_eq_ld, harg2.read_unread, harg3.read_unread, harg4.read_unread, harg6.read_unread,
        View.ld_unit_zero (S := S2048x1) hz, View.ld_unit_zero (S := S1024x128) hz, View.ld_unit_zero (S := S2048x128) hz,
        View.readCov_unit_zero (S := S2048x128) _ hz]
  iexists _; isplitr
  swap; · iexact HS0
  ·
    ipureintro
    (try sl_unfold_words)
    refine (View.read_writes_eq_canon _ _ _ (fun y => ?_)).trans ?_
    · exact ⟨_, List.Mem.head _, View.mem_set_unit_zero hz inb_S2048x128_S2048x128_0_0 y⟩
    rw [View.canon_cons_unit_zero hz]
    simp only [View.readAt_eq_ld, harg2.read_unread, harg3.read_unread, harg4.read_unread, harg6.read_unread,
      View.ld_unit_zero (S := S2048x1) hz, View.ld_unit_zero (S := S1024x128) hz, View.ld_unit_zero (S := S2048x128) hz,
      View.readCov_unit_zero (S := S2048x128) _ hz]

end Cert.KernelIdeal.Hand

end
-- ==== Proof.KernelIdeal.Obl0.lean ====
/-
  Region 0 (the gather): the body obligation of its pipeline, for the proof data fixed with the accumulator
  recursion. At every position the inputs' staging buffers hold their blocks; the position modulo 49 selects the
  control case; the kernel function's run in that case turns the accumulator the invariant carries into the next
  one of the recursion, and at the last node block of a tile leaves the output block at the scaled accumulator.
  Also: the class invariant is the invariant before the first point, and is given back after the last.
-/
import proofs.«418971_j36292473651564_1_alg».proof.Proof.KernelIdeal.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The inputs' staging buffers hold their blocks -/

/-- Each input's current staging buffer holds its block at every point, fetched there or not: an input the body
    leaves in place, never idle, its blocks tiling the array. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

/-- What the body is called with at position `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any position. The inputs' memrefs hold their blocks; the position modulo 49 says which of the three
    control cases it is in. The invariant hands the body the accumulator at what the position before left (at anything
    at the very first position), and takes it back at this position's accumulator, which by the recursion is the
    one-hot product added to zero at the first node block of a tile and to the previous accumulator otherwise; the other
    scoped buffers and the generator register pass through. The output's buffer is handed back untouched except at the
    last node block of a tile, where it is left at the accumulator scaled by the weights. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 49 = 0
  · have h1 : ¬t.val % 49 = 48 := by omega
    rw [Dat.leavesExact_idle (dat0 V c) 3 t (idleAt0_3 _ (fun h => h1 ((hcond0_1 t).mp h))) (noFlush0_3 t h1)]
    rw [acc0_first V c t h0]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩⟩
      iapply (run0_A c (grid0.coords t) _ _ _ _ _ _ _ _ _ _ ((hcond0_0 t).mpr h0) (fun h => h1 ((hcond0_1 t).mp h))
        (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc0_next V c t h0]
    rw [PhiS0_castSucc V c t, PhiS0_pos V c _ _ hz]
    by_cases h1 : t.val % 49 = 48
    · rw [show (dat0 V c).leavesExact 3 t = owns (c : Thread nD τ) (ms0_3 t) fullShare ((dat0 V c).after 3 t) from by
        unfold Dat.leavesExact; rw [liveAt0_3 _ ((hcond0_1 t).mpr h1)], after0_3]
      rw [acc0_next V c t h0]
      iintro ⟨⟨⟨HS0, Hr⟩, Hg⟩, Ho, ⟨%d0, H0⟩, ⟨%d1, H1⟩, ⟨%d2, H2⟩, ⟨%d3, H3⟩⟩
      iapply (run0_C c (grid0.coords t) _ _ _ _ _ _ _ _ _ _ (fun h => h0 ((hcond0_0 t).mp h)) ((hcond0_1 t).mpr h1)
        (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexact H3
    · rw [Dat.leavesExact_idle (dat0 V c) 3 t (idleAt0_3 _ (fun h => h1 ((hcond0_1 t).mp h))) (noFlush0_3 t h1)]
      iintro ⟨⟨⟨HS0, Hr⟩, Hg⟩, Ho, ⟨%d0, H0⟩, ⟨%d1, H1⟩, ⟨%d2, H2⟩, ⟨%d3, H3⟩⟩
      iapply (run0_B c (grid0.coords t) _ _ _ _ _ _ _ _ _ _ (fun h => h0 ((hcond0_0 t).mp h)) (fun h => h1 ((hcond0_1 t).mp h))
        (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      iexists _; iexact H3

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 19159 := N_0; omega)

end

end Cert.KernelIdeal.Hand

end
-- ==== Proof.KernelIdeal.Def1.lean ====
/-
  Region 1 (the scatter and the linear layer): for each block of 1024 node rows the kernel sweeps the 391 tiles of 2048
  edges, adding to a scratch accumulator the product of the nodes' one-hot rows (node n, edge e: 1 when n is the edge's
  destination) with the tile of messages, and at the last tile writes the accumulator times the transposed weight
  matrix, plus the bias, cut below at zero. Stated here: the blocks the windows hold at a point, the accumulator after
  each point (reset at the first tile of a node block), the invariant that carries it, and the pipeline's proof data.
-/
import proofs.«418971_j36292473651564_1_alg».proof.Proof.Gen.KernelIdeal.Launch
import proofs.«418971_j36292473651564_1_alg».proof.Proof.Gen.KernelIdeal.Skeleton
import proofs.«418971_j36292473651564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at position `n`: the one-hot product of this point's destination indices with
    this point's tile of messages, added to zero at the first edge tile of a node block (positions ≡ 0 mod 391) and to
    what the position before left otherwise. -/
def acc1 (c : Dev nD) : (n : ℕ) → n < cfg1.N → Vec F S1024x128 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 391 = 0 then k1_pay1 (F := F) else acc1 c n (Nat.lt_of_succ_lt hn))

/-- The accumulator scratch, whole. -/
abbrev scM1 : Memref sig .tc .vmem S1024x128 .f32 := Memref.whole cc1_scratch0

/-- The region invariant before position `n`: before the first point every scoped buffer that is no staging buffer
    at anything; afterwards the accumulator scratch at what the position before left, the other such buffers at
    anything; throughout the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

/-- The proof data of pipeline 1 on core `c`: the arrays as the region finds them; after the body each input's buffer
    at its block, the output's at the accumulator through the linear layer (consulted only where the body stores it,
    at the last edge tile of a node block); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val t.isLt) (iblk1 V c 2 t) (iblk1 V c 3 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (acc1 V c t.val t.isLt) (iblk1 V c 2 t) (iblk1 V c 3 t) := by dsimp only [dat1]

/-- The accumulator at a position that opens a node block. -/
theorem acc1_first (c : Dev nD) (t : Fin cfg1.N) (h : t.val % 391 = 0) :
    acc1 V c t.val t.isLt = k1_pay2 (grid1.coords t) (iblk1 V c 0 t) (iblk1 V c 1 t) (k1_pay1 (F := F)) := by
  obtain ⟨n, hn⟩ := t
  cases n with
  | zero => rfl
  | succ n => exact (congrArg (k1_pay2 _ _ _) (if_pos h))

/-- The accumulator at any other position, over what the position before left. -/
theorem acc1_next (c : Dev nD) (t : Fin cfg1.N) (h : ¬t.val % 391 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact (congrArg (k1_pay2 _ _ _) (if_neg h))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The class invariant with the accumulator scratch split out as a memref owned at some contents. -/
theorem PhiA1_eq (c : Dev nD) :
    (Pipeline.ΦA spec1 c : sProp 𝕄)
      = iprop(((∃ d, owns (c : Thread nD τ) scM1 fullShare d)
        ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [bigSepL_singleton, scM1, owns_whole]
  rfl

end

end Cert.KernelIdeal.Hand

end
-- ==== Proof.KernelIdeal.Sched1.lean ====
/-
  Region 1's schedule in closed form. The grid is 49 node blocks by 391 edge tiles, the tile coordinate running
  fastest, so the tile coordinate of point t is t mod 391. The kernel's two branches test that coordinate against 0
  (reset the accumulator) and against 390 (write the output block); both tests are decided over the 391 values of the
  coordinate. Also here: the inputs are never idle, the output is idle exactly where its branch is not taken and is
  not written back there, and each input's staging buffer holds the point's block whether or not it was fetched at
  that point (the weight matrix and the bias row are fetched once, their block index never moves).
-/
import proofs.«418971_j36292473651564_1_alg».proof.Proof.KernelIdeal.Def1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The inner coordinate and the two branch conditions in closed form -/

/-- The inner coordinate of point `t` is `t mod 391`: the last axis runs fastest. -/
theorem coord1_inner (t : Fin cfg1.N) : ((grid1.coords t) 1).val = t.val % 391 := by
  show t.val / grid1.stride 1 % 391 = t.val % 391
  rw [show grid1.stride 1 = 1 from by decide, Nat.div_one]

/-- The reset branch's condition, from the grid coordinates: the inner coordinate is zero. -/
abbrev cond1_0 (i : grid1.Coords) : Prop := (Scalar.cmpi .ne (Scalar.extui (Scalar.cmpi .eq (BitVec.ofNat 32 (i 1).val) 0#32)) 0#32) = 1#1
/-- The output branch's condition, from the grid coordinates: the inner coordinate is the last. -/
abbrev cond1_1 (i : grid1.Coords) : Prop := k1_cond2 i = 1#1

/-- The reset condition over the 391 values of the inner coordinate. -/
theorem cond1_0_inner : ∀ k : Fin 391,
    (Scalar.cmpi .ne (Scalar.extui (Scalar.cmpi .eq (BitVec.ofNat 32 k.val) 0#32)) 0#32) = 1#1 ↔ k.val = 0 := by decide +kernel
/-- The output condition over the 391 values of the inner coordinate. -/
theorem cond1_1_inner : ∀ k : Fin 391,
    (Scalar.cmpi .ne (Scalar.extui (Scalar.cmpi .eq (BitVec.ofNat 32 k.val) 390#32)) 0#32) = 1#1 ↔ k.val = 390 := by decide +kernel

/-- The reset branch is taken exactly at the first edge tile of a node block. -/
theorem hcond1_0 (t : Fin cfg1.N) : cond1_0 (grid1.coords t) ↔ t.val % 391 = 0 := by
  have h := cond1_0_inner ⟨t.val % 391, Nat.mod_lt _ (by decide)⟩
  show (Scalar.cmpi .ne (Scalar.extui (Scalar.cmpi .eq (BitVec.ofNat 32 ((grid1.coords t) 1).val) 0#32)) 0#32) = 1#1 ↔ _
  rw [coord1_inner t]; exact h

/-- The output branch is taken exactly at the last edge tile of a node block. -/
theorem hcond1_1 (t : Fin cfg1.N) : cond1_1 (grid1.coords t) ↔ t.val % 391 = 390 := by
  have h := cond1_1_inner ⟨t.val % 391, Nat.mod_lt _ (by decide)⟩
  show (Scalar.cmpi .ne (Scalar.extui (Scalar.cmpi .eq (BitVec.ofNat 32 ((grid1.coords t) 1).val) 390#32)) 0#32) = 1#1 ↔ _
  rw [coord1_inner t]; exact h

/-! ## Where the windows are idle -/

/-- The four inputs are never idle. -/
theorem liveAt1_0 (i : grid1.Coords) : cfg1.idle 0 i = false := rfl
theorem liveAt1_1 (i : grid1.Coords) : cfg1.idle 1 i = false := rfl
theorem liveAt1_2 (i : grid1.Coords) : cfg1.idle 2 i = false := rfl
theorem liveAt1_3 (i : grid1.Coords) : cfg1.idle 3 i = false := rfl
/-- Where the output branch is not taken the output window is idle: nothing is stored into it. -/
theorem idleAt1_4 (i : grid1.Coords) (h : ¬cond1_1 i) : cfg1.idle 4 i = true := by
  show (!(k1_cond2 i == 1#1)) = true
  rw [Bool.not_eq_true', beq_eq_false_iff_ne]; exact h
/-- Where it is taken the output window is live. -/
theorem liveAt1_4 (i : grid1.Coords) (h : cond1_1 i) : cfg1.idle 4 i = false := by
  show (!(k1_cond2 i == 1#1)) = false
  rw [Bool.not_eq_false', beq_iff_eq]; exact h

/-- Away from the last edge tile of a node block the output's block is not written back. -/
theorem noFlush1_4 (t : Fin cfg1.N) (h : ¬t.val % 391 = 390) : (cfg1.win 4).flush t = false :=
  Bool.eq_false_iff.mpr fun hf => h ((flush1_4 t).mp hf)

/-! ## The memrefs the body is called with -/

/-- Each window's current staging memref at point `t`, spelled as the pipeline passes it, and its wholeness. -/
abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)

/-! ## What each input's staging buffer holds when the body is called -/

section
variable (V : (c : Dev nD) → (b : Ref sig .tc) → Buf (Elt F) ((c : Thread nD τ).loc b))

/-- The destination indices' buffer holds this point's row block, fetched here or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0 V c t]; unfold Dat.blockOf iblk1; rw [A_eq1 V c 0]; try rfl) t d).trans
    (by unfold Dat.fetched Dat.blockOf iblk1; rw [A_eq1 V c 0]; try rfl)
/-- The messages' buffer holds this point's tile. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1 V c t]; unfold Dat.blockOf iblk1; rw [A_eq1 V c 1]; try rfl) t d).trans
    (by unfold Dat.fetched Dat.blockOf iblk1; rw [A_eq1 V c 1]; try rfl)
/-- The weight matrix's buffer holds the matrix at every point, though it is fetched once. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2 V c t]; unfold Dat.blockOf iblk1; rw [A_eq1 V c 2]; try rfl) t d).trans
    (by unfold Dat.fetched Dat.blockOf iblk1; rw [A_eq1 V c 2]; try rfl)
/-- The bias row's buffer holds the row at every point, though it is fetched once. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3 V c t]; unfold Dat.blockOf iblk1; rw [A_eq1 V c 3]; try rfl) t d).trans
    (by unfold Dat.fetched Dat.blockOf iblk1; rw [A_eq1 V c 3]; try rfl)

end

end Cert.KernelIdeal.Hand

end
-- ==== Proof.KernelIdeal.Run1.lean ====
/-
  Region 1's kernel function run in each of its three control cases, on any whole memrefs: at the first edge tile of
  a node block (the accumulator is zeroed, then the tile's one-hot product is added; the output is not touched), at a
  middle tile (the product is added to what the accumulator held), at the last tile (the same, then the accumulator
  through the linear layer is stored into the output). Each run hands the inputs back as found and names the stores it
  made into the accumulator (and, in the last case, the output) as a list of pieces; the lemmas after each run read
  those pieces back: they cover the block, and their canonical contents are the payload terms of the skeleton.
-/
import proofs.«418971_j36292473651564_1_alg».proof.Proof.KernelIdeal.Sched1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block access of a matrix, as a function. -/
theorem hz2 : (![0, 0] : Fin 2 → Nat) = fun _ => 0 := funext fun a => by fin_cases a <;> rfl

set_option maxHeartbeats 1000000 in
/-- THE FIRST EDGE TILE of a node block (reset branch taken, output branch not): the inputs at their contents, the
    output's buffer at contents handed back untouched, the accumulator scratch at anything; the scratch ends with the
    named pieces written. -/
noncomputable def kernelRun1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) :
    { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare xi4
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The reset case's stores into the accumulator scratch cover it. -/
theorem scover1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) (y : S1024x128.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S1024x128.size (by sl_kernel_rfl) y

/-- What the reset case leaves in the accumulator scratch: the one-hot product added to the zero block (the block
    is zeroed, read back, and the sum stored over it; the later store covers). -/
theorem scanon1_A (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1x2048 .i32) (x1 : Vec F S2048x128 .f32) (x2 : Vec F S128x128 .bf16) (x3 : Vec F S1x128 .f32) :
    View.canon (kernelRun1_A c i arg2 harg2 arg3 harg3 arg4 harg4 arg5 harg5 arg6 harg6 arg7 harg7 hc0 hc1 x0 x1 x2 x3).1 = k1_pay2 i x0 x1 (k1_pay1 (F := F)) := by
  unfold kernelRun1_A
  dsimp only
  sl_unfold_words
  rw [View.canon_cons_unit_zero (S := S1024x128) hz2, View.readCov_unit_zero (S := S1024x128) _ hz2]
  simp only [View.readAt_eq_ld, harg2.read_unread, harg3.read_unread, View.ld_unit_zero (S := S1x2048) hz2,
    View.ld_unit_zero (S := S2048x128) hz2]

set_option maxHeartbeats 1000000 in
/-- A MIDDLE EDGE TILE (neither branch taken): as the first, the accumulator scratch at what the point before left. -/
noncomputable def kernelRun1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) :
    { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

/-- The middle case's one store into the accumulator scratch covers it. -/
theorem scover1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_B c i arg2 harg2 arg3 harg3 arg4 harg4 arg5 harg5 arg6 harg6 arg7 harg7 hc0 hc1 x0 x1 x2 x3 xs0).1, y ∈ pc.1.set :=
  View.cover_of_tiledL (kernelRun1_B c i arg2 harg2 arg3 harg3 arg4 harg4 arg5 harg5 arg6 harg6 arg7 harg7 hc0 hc1 x0 x1 x2 x3 xs0).1 S1024x128.size (by sl_kernel_rfl) y

/-- What the middle case leaves in the accumulator scratch: the one-hot product added to what it held. -/
theorem scanon1_B (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : ¬cond1_1 i)
    (x0 : Vec F S1x2048 .i32) (x1 : Vec F S2048x128 .f32) (x2 : Vec F S128x128 .bf16) (x3 : Vec F S1x128 .f32) (xs0 : Vec F S1024x128 .f32) :
    View.canon (kernelRun1_B c i arg2 harg2 arg3 harg3 arg4 harg4 arg5 harg5 arg6 harg6 arg7 harg7 hc0 hc1 x0 x1 x2 x3 xs0).1 = k1_pay2 i x0 x1 xs0 := by
  unfold kernelRun1_B
  dsimp only
  sl_unfold_words
  rw [View.canon_unit_zero (S := S1024x128) hz2]
  simp only [View.readAt_eq_ld, harg2.read_unread, harg3.read_unread, harg7.read_unread, View.ld_unit_zero (S := S1x2048) hz2,
    View.ld_unit_zero (S := S2048x128) hz2, View.ld_unit_zero (S := S1024x128) hz2]

set_option maxHeartbeats 1000000 in
/-- THE LAST EDGE TILE (output branch taken, reset not): the output's buffer at anything, ending with its named
    pieces written; the accumulator scratch at what the point before left. -/
noncomputable def kernelRun1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2
            ∗ owns (c : Thread nD τ) arg5 fullShare x3 ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-- The last case's one store into the accumulator scratch covers it. -/
theorem scover1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1024x128.size (by sl_kernel_rfl) y

/-- Its one store into the output's staging buffer covers it. -/
theorem ocover1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) (y : S1024x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1024x128.size (by sl_kernel_rfl) y

/-- What the last case leaves in the accumulator scratch: the one-hot product added to what it held. -/
theorem scanon1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    View.canon (kernelRun1_C c i arg2 harg2 arg3 harg3 arg4 harg4 arg5 harg5 arg6 harg6 arg7 harg7 hc0 hc1 x0 x1 x2 x3 xs0).2.1 = k1_pay2 i x0 x1 xs0 := by
  unfold kernelRun1_C
  dsimp only
  sl_unfold_words
  rw [View.canon_unit_zero (S := S1024x128) hz2]
  simp only [View.readAt_eq_ld, harg2.read_unread, harg3.read_unread, harg7.read_unread, View.ld_unit_zero (S := S1x2048) hz2,
    View.ld_unit_zero (S := S2048x128) hz2, View.ld_unit_zero (S := S1024x128) hz2]

/-- What it leaves in the output's staging buffer: the accumulator just stored, read back, through the linear layer. -/
theorem ocanon1_C (c : Dev nD) (i : grid1.Coords)
    (arg2 : Memref sig .tc .vmem S1x2048 .i32) (harg2 : arg2.IsWhole) (arg3 : Memref sig .tc .vmem S2048x128 .f32) (harg3 : arg3.IsWhole)
    (arg4 : Memref sig .tc .vmem S128x128 .bf16) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1x2048 .i32) (x1 : Vec F S2048x128 .f32) (x2 : Vec F S128x128 .bf16) (x3 : Vec F S1x128 .f32) (xs0 : Vec F S1024x128 .f32) :
    View.canon (kernelRun1_C c i arg2 harg2 arg3 harg3 arg4 harg4 arg5 harg5 arg6 harg6 arg7 harg7 hc0 hc1 x0 x1 x2 x3 xs0).1 = k1_pay3 (k1_pay2 i x0 x1 xs0) x2 x3 := by
  unfold kernelRun1_C
  dsimp only
  sl_unfold_words
  rw [View.canon_unit_zero (S := S1024x128) hz2, View.readCov_unit_zero (S := S1024x128) _ hz2]
  simp only [View.readAt_eq_ld, harg2.read_unread, harg3.read_unread, harg4.read_unread, harg5.read_unread, harg7.read_unread,
    View.ld_unit_zero (S := S1x2048) hz2, View.ld_unit_zero (S := S2048x128) hz2, View.ld_unit_zero (S := S1024x128) hz2,
    View.ld_unit_zero (S := S128x128) hz2, View.ld_unit_zero (S := S1x128) hz2]

end Cert.KernelIdeal.Hand

end
-- ==== Proof.KernelIdeal.Obl1.lean ====
/-
  Region 1's body obligation. At a point the pipeline hands the body the invariant, the four inputs' staging buffers
  at their blocks and the output's at whatever it held. Which control case the point is in is read off the closed
  forms: the first edge tile of a node block (reset), a middle tile, the last tile (output). In each the kernel's run
  applies; the accumulator scratch is taken from the invariant (at anything before the very first point, at what the
  point before left afterwards) and handed back at this point's accumulator, the other scoped buffers and the
  generator register pass through untouched; the output's buffer is handed back untouched where its branch is not
  taken (it is idle and not written back there) and at the accumulator through the linear layer where it is.
-/
import proofs.«418971_j36292473651564_1_alg».proof.Proof.KernelIdeal.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## What the body leaves in each window's buffer -/

/-- An input's buffer is left at its block (an input is never idle). -/
theorem leaves1_0 (c : Dev nD) (t : Fin cfg1.N) :
    (dat1 V c).leavesExact 0 t = owns (c : Thread nD τ) (ms1_0 t) fullShare (iblk1 V c 0 t) :=
  (show (dat1 V c).leavesExact 0 t = owns (c : Thread nD τ) (ms1_0 t) fullShare ((dat1 V c).after 0 t) from rfl).trans
    (by rw [after1_0 V c t])
theorem leaves1_1 (c : Dev nD) (t : Fin cfg1.N) :
    (dat1 V c).leavesExact 1 t = owns (c : Thread nD τ) (ms1_1 t) fullShare (iblk1 V c 1 t) :=
  (show (dat1 V c).leavesExact 1 t = owns (c : Thread nD τ) (ms1_1 t) fullShare ((dat1 V c).after 1 t) from rfl).trans
    (by rw [after1_1 V c t])
theorem leaves1_2 (c : Dev nD) (t : Fin cfg1.N) :
    (dat1 V c).leavesExact 2 t = owns (c : Thread nD τ) (ms1_2 t) fullShare (iblk1 V c 2 t) :=
  (show (dat1 V c).leavesExact 2 t = owns (c : Thread nD τ) (ms1_2 t) fullShare ((dat1 V c).after 2 t) from rfl).trans
    (by rw [after1_2 V c t])
theorem leaves1_3 (c : Dev nD) (t : Fin cfg1.N) :
    (dat1 V c).leavesExact 3 t = owns (c : Thread nD τ) (ms1_3 t) fullShare (iblk1 V c 3 t) :=
  (show (dat1 V c).leavesExact 3 t = owns (c : Thread nD τ) (ms1_3 t) fullShare ((dat1 V c).after 3 t) from rfl).trans
    (by rw [after1_3 V c t])

/-- Away from the last edge tile the output's buffer is handed back as found. -/
theorem leaves1_4_idle (c : Dev nD) (t : Fin cfg1.N) (h1 : ¬t.val % 391 = 390) :
    (dat1 V c).leavesExact 4 t = iprop(∃ d, owns (c : Thread nD τ) (ms1_4 t) fullShare ((dat1 V c).before 4 t d)) :=
  Dat.leavesExact_idle (dat1 V c) 4 t (idleAt1_4 (grid1.coords t) (fun h => h1 ((hcond1_1 t).mp h))) (noFlush1_4 t h1)

/-- At the last edge tile it is left at the accumulator through the linear layer. -/
theorem leaves1_4_live (c : Dev nD) (t : Fin cfg1.N) (h1 : t.val % 391 = 390) :
    (dat1 V c).leavesExact 4 t = owns (c : Thread nD τ) (ms1_4 t) fullShare
      (k1_pay3 (acc1 V c t.val t.isLt) (iblk1 V c 2 t) (iblk1 V c 3 t)) := by
  unfold Dat.leavesExact
  rw [liveAt1_4 (grid1.coords t) ((hcond1_1 t).mpr h1), after1_4 V c t]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: by cases on the tile coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V]
  rw [show (dat1 V c).owesAt () t.succ = (dat1 V c).owesAt () t.castSucc from rfl]
  rw [show (dat1 V c).Φ t.succ = PhiS1 V c (t.val + 1) t.isLt from rfl, PhiS1_succ V c t.val t.isLt]
  rw [leaves1_0 V c t, leaves1_1 V c t, leaves1_2 V c t, leaves1_3 V c t]
  by_cases h0 : t.val % 391 = 0
  · -- the first edge tile of a node block
    have h1 : ¬t.val % 391 = 390 := by omega
    rw [leaves1_4_idle V c t h1, acc1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _)
        ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))).trans
              (scanon1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))
          iexact Hr
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun1_A c (grid1.coords t) (ms1_0 t) (hs1_0 t) (ms1_1 t) (hs1_1 t) (ms1_2 t) (hs1_2 t) (ms1_3 t) (hs1_3 t) (ms1_4 t) (hs1_4 t) scM1 (Memref.isWhole_whole _)
        ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))).trans
              (scanon1_A c (grid1.coords t) (ms1_0 t) (hs1_0 t) (ms1_1 t) (hs1_1 t) (ms1_2 t) (hs1_2 t) (ms1_3 t) (hs1_3 t) (ms1_4 t) (hs1_4 t) scM1 (Memref.isWhole_whole _)
              ((hcond1_0 t).mpr h0) (fun h => h1 ((hcond1_1 t).mp h)) (iblk1 V c 0 t) (iblk1 V c 1 t) (iblk1 V c 2 t) (iblk1 V c 3 t))
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc1_next V c t h0, PhiS1_castSucc V c t, PhiS1_pos V c _ _ hz]
    by_cases h1 : t.val % 391 = 390
    · -- the last edge tile
      rw [leaves1_4_live V c t h1, acc1_next V c t h0]
      iintro ⟨⟨⟨HS0, Hr⟩, Hg⟩, Ho, ⟨%d0, H0⟩, ⟨%d1, H1⟩, ⟨%d2, H2⟩, ⟨%d3, H3⟩, ⟨%d4, H4⟩⟩
      iapply ((kernelRun1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_C c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) ((hcond1_1 t).mpr h1) (iblk1 V c 0 t) (iblk1 V c 1 t) (iblk1 V c 2 t) (iblk1 V c 3 t)
              (acc1 V c (t.val - 1) (Nat.lt_of_le_of_lt (Nat.sub_le _ _) t.isLt)))).trans
              (scanon1_C c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) ((hcond1_1 t).mpr h1) (iblk1 V c 0 t) (iblk1 V c 1 t) (iblk1 V c 2 t) (iblk1 V c 3 t)
              (acc1 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_canon _ _ _ (ocover1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)))).trans
        (ocanon1_C c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) ((hcond1_1 t).mpr h1) (iblk1 V c 0 t) (iblk1 V c 1 t) (iblk1 V c 2 t) (iblk1 V c 3 t)
        (acc1 V c (t.val - 1) (Nat.lt_of_le_of_lt (Nat.sub_le _ _) t.isLt)))
    · -- a middle edge tile
      rw [leaves1_4_idle V c t h1]
      iintro ⟨⟨⟨HS0, Hr⟩, Hg⟩, Ho, ⟨%d0, H0⟩, ⟨%d1, H1⟩, ⟨%d2, H2⟩, ⟨%d3, H3⟩, ⟨%d4, H4⟩⟩
      iapply ((kernelRun1_B c (grid1.coords t) (ms1_0 t) (hs1_0 t) (ms1_1 t) (hs1_1 t) (ms1_2 t) (hs1_2 t) (ms1_3 t) (hs1_3 t) (ms1_4 t) (hs1_4 t) scM1 (Memref.isWhole_whole _)
        (fun h => h0 ((hcond1_0 t).mp h)) (fun h => h1 ((hcond1_1 t).mp h)) (iblk1 V c 0 t) (iblk1 V c 1 t) (iblk1 V c 2 t) (iblk1 V c 3 t)
        (acc1 V c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro
            exact (View.read_writes_eq_canon _ _ _ (scover1_B c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) (fun h => h1 ((hcond1_1 t).mp h)) (iblk1 V c 0 t) (iblk1 V c 1 t) (iblk1 V c 2 t) (iblk1 V c 3 t)
              (acc1 V c (t.val - 1) (Nat.lt_of_le_of_lt (Nat.sub_le _ _) t.isLt)))).trans
              (scanon1_B c (grid1.coords t) (ms1_0 t) (hs1_0 t) (ms1_1 t) (hs1_1 t) (ms1_2 t) (hs1_2 t) (ms1_3 t) (hs1_3 t) (ms1_4 t) (hs1_4 t) scM1 (Memref.isWhole_whole _)
              (fun h => h0 ((hcond1_0 t).mp h)) (fun h => h1 ((hcond1_1 t).mp h)) (iblk1 V c 0 t) (iblk1 V c 1 t) (iblk1 V c 2 t) (iblk1 V c 3 t)
              (acc1 V c (t.val - 1) (Nat.lt_of_le_of_lt (Nat.sub_le _ _) t.isLt)))
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 19159 := N_1; omega), PhiA1_eq]
  iintro ⟨⟨HS0, Hr⟩, Hg⟩
  isplitl [HS0 Hr]
  · isplitl [HS0]
    · iexists _; iexact HS0
    iexact Hr
  iexact Hg

end

end Cert.KernelIdeal.Hand

end
-- ==== Proof.KernelIdeal.Launch.lean ====
/-
  The two kernel regions as segments of the program's run, and the run itself. Between two items of the program every
  unscoped buffer of a core is held at named contents: the launch memory, then each host stretch applied, then after
  region 0 the message array at what the pipeline's write-backs leave, after region 1 the padded output array
  likewise. Beside the buffers ride the generator register at some state and the fact that the core owes nothing.
  Each region takes its windows' arrays out of the held buffers, runs its pipeline under the body obligation, and puts
  them back; the accumulator scratch enters the invariant at anything and is forgotten at the exit.
-/
import proofs.«418971_j36292473651564_1_alg».proof.Proof.KernelIdeal.Obl0
import proofs.«418971_j36292473651564_1_alg».proof.Proof.KernelIdeal.Obl1
import proofs.«418971_j36292473651564_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the regions are entered from and leave -/

/-- Region 0's entry contents: the launch memory through the nine host stretches before it. -/
abbrev Ent0 : (c : Dev nD) → (b : Ref sig .tc) → Buf (Elt F) ((c : Thread nD τ).loc b) := fun c b => V9 m c b

/-- What region 0 leaves in the message array: its blocks' write-backs folded over the entry contents. -/
def out10 (c : Dev nD) : Buf (Elt F) ((c : Thread nD τ).loc main_v11) := (dat0 (Ent0 m) c).arrAt 3 cfg0.N

/-- Every unscoped buffer after region 0. -/
abbrev Y10 (c : Dev nD) : Valuation τ sig (Elt F) := Function.update (V9 m c) main_v11 (out10 m c)

/-- Region 1's entry contents. -/
abbrev Ent1 : (c : Dev nD) → (b : Ref sig .tc) → Buf (Elt F) ((c : Thread nD τ).loc b) := fun c b => Y10 m c b

/-- What region 1 leaves in the padded output array. -/
def out11 (c : Dev nD) : Buf (Elt F) ((c : Thread nD τ).loc main_v12) := (dat1 (Ent1 m) c).arrAt 4 cfg1.N

/-- Every unscoped buffer after region 1. -/
abbrev Y11 (c : Dev nD) : Valuation τ sig (Elt F) := Function.update (Y10 m c) main_v12 (out11 m c)

/-- What the regions leave, as the family the run's valuations are written over: the message array after region 0,
    the padded output array after region 1 (no other entry is read). -/
def outs : Outs (F := F) := fun _ r c =>
  Function.update (Function.update (fun r : Ref sig .tc => (V9 m c r : Buf (Elt F) ((c : Thread nD τ).loc r))) main_v11 (out10 m c))
    main_v12 (out11 m c) r

theorem outs_v11 (J : ℕ) (c : Dev nD) : outs m J main_v11 c = out10 m c := by
  unfold outs
  rw [Function.update_of_ne (by decide : (main_v11 : Ref sig .tc) ≠ main_v12), Function.update_self]

theorem outs_v12 (J : ℕ) (c : Dev nD) : outs m J main_v12 c = out11 m c := by
  unfold outs
  rw [Function.update_self]

theorem V10_eq (c : Dev nD) : V10 m (outs m) c = Y10 m c := by
  show Function.update (V9 m c) main_v11 (outs m 10 main_v11 c) = _
  rw [outs_v11]

theorem V11_eq (c : Dev nD) : V11 m (outs m) c = Y11 m c := by
  show Function.update (V10 m (outs m) c) main_v12 (outs m 11 main_v12 c) = _
  rw [outs_v12, V10_eq]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Ent0 m) c
  | ⟨1, _⟩ => fun c => dat1 (Ent1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The arrays at a region's exit -/

/-- After region 0 each of its arrays holds what the pipeline leaves: the three inputs as entered, the message array
    its folded write-backs. -/
theorem hF0 (c : Dev nD) (w : Fin cfg0.W) : (pdats m 0 c).arrAt w cfg0.N = (fun b : Ref sig .tc => Y10 m c b) (Pipeline.arrRef spec0 w) := by
  match w with
  | ⟨0, _⟩ => exact ((dat0 (Ent0 m) c).arrAt_in 0 rfl _).trans (Function.update_of_ne (StableHlo.devRef_ne_of_ne (by decide : (main_v5 : Ref sig .tc) ≠ main_v11)) (out10 m c) (V9 m c)).symm
  | ⟨1, _⟩ => exact ((dat0 (Ent0 m) c).arrAt_in 1 rfl _).trans (Function.update_of_ne (StableHlo.devRef_ne_of_ne (by decide : (main_v6 : Ref sig .tc) ≠ main_v11)) (out10 m c) (V9 m c)).symm
  | ⟨2, _⟩ => exact ((dat0 (Ent0 m) c).arrAt_in 2 rfl _).trans (Function.update_of_ne (StableHlo.devRef_ne_of_ne (by decide : (main_v4 : Ref sig .tc) ≠ main_v11)) (out10 m c) (V9 m c)).symm
  | ⟨3, _⟩ => exact (Function.update_self (Proc.devRef .tc main_v11) (out10 m c) (V9 m c)).symm

/-- Every buffer that is no array of region 0 is as entered. -/
theorem hrest0 (c : Dev nD) : ∀ b, b ∉ Finset.univ.image (Pipeline.arrRef spec0) → (fun b : Ref sig .tc => Y10 m c b) b = Ent0 m c b :=
  fun b hb => Function.update_of_ne (StableHlo.devRef_ne_of_ne fun e => hb (Finset.mem_image.mpr ⟨3, Finset.mem_univ _, e.symm⟩)) _ _

/-- After region 1 each of its arrays holds what the pipeline leaves: the four inputs as entered, the padded output
    array its folded write-backs. -/
theorem hF1 (c : Dev nD) (w : Fin cfg1.W) : (pdats m 1 c).arrAt w cfg1.N = (fun b : Ref sig .tc => Y11 m c b) (Pipeline.arrRef spec1 w) := by
  match w with
  | ⟨0, _⟩ => exact ((dat1 (Ent1 m) c).arrAt_in 0 rfl _).trans (Function.update_of_ne (StableHlo.devRef_ne_of_ne (by decide : (main_v7 : Ref sig .tc) ≠ main_v12)) (out11 m c) (Y10 m c)).symm
  | ⟨1, _⟩ => exact ((dat1 (Ent1 m) c).arrAt_in 1 rfl _).trans (Function.update_of_ne (StableHlo.devRef_ne_of_ne (by decide : (main_v11 : Ref sig .tc) ≠ main_v12)) (out11 m c) (Y10 m c)).symm
  | ⟨2, _⟩ => exact ((dat1 (Ent1 m) c).arrAt_in 2 rfl _).trans (Function.update_of_ne (StableHlo.devRef_ne_of_ne (by decide : (main_v9 : Ref sig .tc) ≠ main_v12)) (out11 m c) (Y10 m c)).symm
  | ⟨3, _⟩ => exact ((dat1 (Ent1 m) c).arrAt_in 3 rfl _).trans (Function.update_of_ne (StableHlo.devRef_ne_of_ne (by decide : (main_v10 : Ref sig .tc) ≠ main_v12)) (out11 m c) (Y10 m c)).symm
  | ⟨4, _⟩ => exact (Function.update_self (Proc.devRef .tc main_v12) (out11 m c) (Y10 m c)).symm

/-- Every buffer that is no array of region 1 is as entered. -/
theorem hrest1 (c : Dev nD) : ∀ b, b ∉ Finset.univ.image (Pipeline.arrRef spec1) → (fun b : Ref sig .tc => Y11 m c b) b = Ent1 m c b :=
  fun b hb => Function.update_of_ne (StableHlo.devRef_ne_of_ne fun e => hb (Finset.mem_image.mpr ⟨4, Finset.mem_univ _, e.symm⟩)) _ _

/-! ## The regions as segments -/

section Segs

-- applying a library lemma stated over the pinned configuration unifies with the printed one only when unification may
-- unfold plain definitions in a metavariable's type
set_option backward.isDefEq.respectTransparency.types false in
/-- Region 0 over the thread state: entered from every unscoped buffer at `V9 m`, left with the output array at
    what the write-backs leave and every other buffer as entered. Its arrays are split out of the unscoped buffers and
    put back at the exit contents; the generator register enters the invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (Y10 m c) ∗ R c)
  X c := iprop(∃ r, prngReg c r)
  Y c := iprop(∃ r, prngReg c r)
  Z c := Pipeline.unscopedRest (Ix := Unit) (Name := ℕ) (U := UR sig nD τ) (Lvl := ℕ) spec0 c (Ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Ent0 m) c)
    unfold Pipeline.ΦA
    iintro ⟨Hp, -, Hr⟩
    isplitl [Hr]; · iexact Hr
    iexact Hp
  hout c := by
    rw [Pipeline.ownSems0_none]
    refine (hout0 (Ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ent0 m c) (fun b => Y10 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Region 1 over the thread state: entered from every unscoped buffer at `Y10 m`, left with the output array at
    what the write-backs leave and every other buffer as entered. Its arrays are split out of the unscoped buffers and
    put back at the exit contents; the generator register enters the invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent1 m) c).loose
  hwaits := Pipeline.hwaits_of_owed_zero _ _ _ _ L lv 1 fun _ _ => rfl
  pre c := iprop(StableHlo.held (c : Thread nD τ) (Pipeline.ucRefs τ sig) (Y10 m c) ∗ R c)
  post c := iprop(StableHlo.held (c : Thread nD τ) (Pipeline.ucRefs τ sig) (Y11 m c) ∗ R c)
  X c := iprop(∃ r, prngReg c r)
  Y c := iprop(∃ r, prngReg c r)
  Z c := Pipeline.unscopedRest (Ix := Unit) (Name := ℕ) (U := UR sig nD τ) (Lvl := ℕ) spec1 c (Ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Ent1 m) c)
    unfold Pipeline.ΦA
    iintro ⟨Hp, -, Hr⟩
    isplitl [Hr]; · iexact Hr
    iexact Hp
  hout c := by
    rw [Pipeline.ownSems0_none]
    refine (hout1 (Ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ent1 m c) (fun b => Y11 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segs

end Cert.KernelIdeal.Hand

end
-- ==== Proof.KernelIdeal.Frame.lean ====
/-
  The program's run, from the two regions' records: every weakly fair execution from a memory with zero counters
  terminates, nothing faults, and the argument arrays end as launched.
  The launch deals each core its generator register and the fact that it owes nothing, which ride beside the buffers.
-/
import proofs.«418971_j36292473651564_1_alg».proof.Proof.KernelIdeal.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
/-- The launch's ghost state: the pipelines' cells and duty tokens, nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the rest state: its generator register at its launch state, owing nothing. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, H⟩; iexact H

-- the conditional frame's implicit arguments are found by unifying its conclusion with this one
set_option backward.isDefEq.respectTransparency.types false in
/-- THE FRAME, at any float instance: the run terminates, faults nowhere and leaves the six argument arrays as
    launched. -/
theorem frame_of_obl : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀
    (fun _ c => R c) (hE0 ρ) (fun c => hE2 c)
    (reg0 m) (fun c => .rfl) (fun c => by rw [V10_eq]; exact .rfl)
    (reg1 m) (fun c => by rw [V10_eq]; exact .rfl) (fun c => by rw [V11_eq]; exact .rfl)

end

end Cert.KernelIdeal.Hand

end
-- ==== Proof.KernelIdeal.FrameVal.lean ====
/-
  The idealized program's run with its result: besides the frame, the result buffer ends at the host slice (rows 0 to
  49999) of what region 1 leaves in the padded output array.
-/
import proofs.«418971_j36292473651564_1_alg».proof.Proof.KernelIdeal.Frame
import proofs.«418971_j36292473651564_1_alg».proof.Proof.KernelIdeal.RegionsVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
-- the conditional frame's implicit arguments are found by unifying its conclusion with this one
set_option backward.isDefEq.respectTransparency.types false in
/-- THE RUN WITH ITS RESULT. -/
theorem run_val_of_obl : θ_run defs (onTc (τ := τ) (main (F := F))) ⟨m, fun _ => 0, ρ⟩ (fun r => ∀ c : Dev nD,
      r.2.mem ((c.tc : Thread nD τ).loc main_v13) = V12 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond_val m emb₁ () 𝒱₀ L lv (fun _ _ => rfl) ρ (outs m) (pdats m) 0 (fun _ => (BI.emp : sProp 𝕄))
    (initOf (Pipeline.cells cfgs cellOf_inj) (Pipeline.launchToks cfgs cellOf_inj)) hu₀
    (fun _ c => R c) (hE0 ρ) (fun c => hE2 c)
    (reg0 m) (fun c => .rfl) (fun c => by rw [V10_eq]; exact .rfl)
    (reg1 m) (fun c => by rw [V10_eq]; exact .rfl) (fun c => by rw [V11_eq]; exact .rfl)

end

end Cert.KernelIdeal.Hand

end
-- ==== Proof.KernelIdeal.Val0a.lean ====
/-
  Region 0 (the gather), the arithmetic of one grid point read at an index, over the extended reals: the reset block is
  zero; one step adds to the accumulator's entry (p, q) the sum over the 1024 node rows n of the block of
  (the source word of edge row p is k·1024 + n ? 1 : 0) · feature[n, q], k the node-block coordinate; the stored block is
  the accumulator's entry times the weight of its edge row. The one-hot entry is a word comparison widened to 32 bits and
  converted (1 where the words agree, 0 elsewhere; narrowing the format changes nothing); the product into a zero
  accumulator is the plain sum over the contracted coordinate.
-/
import proofs.«418971_j36292473651564_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Cert.KernelIdeal Cert.KernelIdeal.Gen

/-- The one-hot entry: a word comparison widened and converted is 1 where the words agree and 0 elsewhere. -/
theorem onehot_scalar (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  by_cases h : x = y
  · have e : IntOp.cmpi .eq x y = 1#1 := by subst h; simp [IntOp.cmpi]
    rw [if_pos h, e]
    have e2 : ((1#1 : BitVec 1).setWidth 32).toInt = 1 := by decide
    rw [e2]; simp
  · have e : IntOp.cmpi .eq x y = 0#1 := by
      show BitVec.ofBool (x == y) = 0#1
      rw [beq_eq_false_iff_ne.mpr h]; rfl
    rw [if_neg h, e]
    have e2 : ((0#1 : BitVec 1).setWidth 32).toInt = 0 := by decide
    rw [e2]; simp

/-- The zero block. -/
theorem pay1_apply (j : S2048x128.Idx) : (k0_pay1 (F := Ideal)) j = 0 := by
  unfold k0_pay1
  simp only [shapeCast_self]
  show Ideal.ofBits .f32 0x00000000#32 = 0
  exact Ideal.ofBits_zero_f32

/-- The scaled block: entry (p, q) of the accumulator times the weight of row p. -/
theorem pay3_apply (v25 : Vec Ideal S2048x128 .f32) (v26 : Vec Ideal S2048x1 .f32) (p : Fin 2048) (q : Fin 128) :
    k0_pay3 v25 v26 (ix2 p q) = v25 (ix2 p q) * v26 (ix2 p 0) := by
  unfold k0_pay3
  simp only [shapeCast_self]
  refine (mulf_apply _ _ _).trans ?_
  refine congrArg (v25 (ix2 p q) * ·) ?_
  refine broadcastTo_apply v26 _ (ix2 p q) (ix2 p 0) fun a => ?_
  match a with
  | ⟨0, _⟩ => rfl
  | ⟨1, _⟩ => rfl

/-- The product's dimension numbers: the left operand's columns contracted with the right operand's rows. -/
abbrev Dgs : DotDims S2048x1024 S1024x128 S2048x128 := dot_S2048x1024_S1024x128_S2048x128_1_0_0_1_n_n

theorem Dgs_lhs_0 (p : Fin 2048) (q : Fin 128) (k : dot_S2048x1024_S1024x128_S2048x128_1_0_0_1_n_n.contr.Idx) :
    (dot_S2048x1024_S1024x128_S2048x128_1_0_0_1_n_n.lhsIdx (ix2 p q) k 0).val = p.val := by
  simp [DotDims.lhsIdx, dot_S2048x1024_S1024x128_S2048x128_1_0_0_1_n_n]; rfl
theorem Dgs_lhs_1 (p : Fin 2048) (q : Fin 128) (k : dot_S2048x1024_S1024x128_S2048x128_1_0_0_1_n_n.contr.Idx) :
    (dot_S2048x1024_S1024x128_S2048x128_1_0_0_1_n_n.lhsIdx (ix2 p q) k 1).val = (k ⟨0, by decide⟩).val :=
  dot_S2048x1024_S1024x128_S2048x128_1_0_0_1_n_n.lhsIdx_val_of_single rfl _ _
theorem Dgs_rhs_0 (p : Fin 2048) (q : Fin 128) (k : dot_S2048x1024_S1024x128_S2048x128_1_0_0_1_n_n.contr.Idx) :
    (dot_S2048x1024_S1024x128_S2048x128_1_0_0_1_n_n.rhsIdx (ix2 p q) k 0).val = (k ⟨0, by decide⟩).val :=
  dot_S2048x1024_S1024x128_S2048x128_1_0_0_1_n_n.rhsIdx_val_of_single rfl _ _
theorem Dgs_rhs_1 (p : Fin 2048) (q : Fin 128) (k : dot_S2048x1024_S1024x128_S2048x128_1_0_0_1_n_n.contr.Idx) :
    (dot_S2048x1024_S1024x128_S2048x128_1_0_0_1_n_n.rhsIdx (ix2 p q) k 1).val = q.val := by
  simp [DotDims.rhsIdx, dot_S2048x1024_S1024x128_S2048x128_1_0_0_1_n_n]; rfl

/-- The product into a zero accumulator, read at (p, q): the sum over the contracted coordinate. -/
theorem matmul_gs_apply (A : FVec Ideal S2048x1024 .bf16) (B : FVec Ideal S1024x128 .bf16) (p : Fin 2048) (q : Fin 128) :
    FloatOps.matmul dot_S2048x1024_S1024x128_S2048x128_1_0_0_1_n_n none A B (constant S2048x128 .f32 0x00000000#32) (ix2 p q)
      = ∑ n : Fin 1024, A (ix2 p n) * B (ix2 n q) := by
  rw [Ideal.matmul_constant_zero_apply,
    ← Equiv.sum_comp (contrEquiv1 dot_S2048x1024_S1024x128_S2048x128_1_0_0_1_n_n 1024 rfl rfl).symm]
  refine Finset.sum_congr rfl fun n _ => ?_
  have cv := contrEquiv1_symm_val dot_S2048x1024_S1024x128_S2048x128_1_0_0_1_n_n 1024 rfl rfl n
  have l2 : dot_S2048x1024_S1024x128_S2048x128_1_0_0_1_n_n.lhsIdx (ix2 p q)
      ((contrEquiv1 dot_S2048x1024_S1024x128_S2048x128_1_0_0_1_n_n 1024 rfl rfl).symm n) = ix2 p n := by
    funext ax; apply Fin.ext
    match ax with
    | ⟨0, _⟩ => exact Dgs_lhs_0 _ _ _
    | ⟨1, _⟩ => exact (Dgs_lhs_1 _ _ _).trans cv
  have r2 : dot_S2048x1024_S1024x128_S2048x128_1_0_0_1_n_n.rhsIdx (ix2 p q)
      ((contrEquiv1 dot_S2048x1024_S1024x128_S2048x128_1_0_0_1_n_n 1024 rfl rfl).symm n) = ix2 n q := by
    funext ax; apply Fin.ext
    match ax with
    | ⟨0, _⟩ => exact (Dgs_rhs_0 _ _ _).trans cv
    | ⟨1, _⟩ => exact Dgs_rhs_1 _ _ _
  rw [l2, r2]

/-- The one-hot matrix of a block: entry (p, n) is 1 when the source word of row p names node row k·1024 + n. -/
theorem onehot_entry (k : Nat) (v7 : IVec S2048x1 32) (p : Fin 2048) (n : Fin 1024) :
    (truncf .bf16 (sitofp (F := Ideal) .f32 (extui 32 (cmpi .eq
        (addi (iota .tc S2048x1024 32 [1] iota_S2048x1024_d1_w32) (broadcast S2048x1024 (Scalar.muli (BitVec.ofNat 32 k) 1024#32)))
        (broadcastTo S2048x1024 v7 broadcasts_S2048x1_S2048x1024)) natLt_1_32)) bitsLt_bf16_f32 : FVec Ideal S2048x1024 .bf16) (ix2 p n)
      = if v7 (ix2 p 0) = BitVec.ofNat 32 (k * 1024 + n.val) then (1 : EReal) else 0 := by
  have e1 : iota .tc S2048x1024 32 [1] iota_S2048x1024_d1_w32 (ix2 p n) = BitVec.ofNat 32 n.val :=
    iota_single_apply .tc S2048x1024 32 1 _ (ix2 p n)
  have e2 : broadcastTo S2048x1024 v7 broadcasts_S2048x1_S2048x1024 (ix2 p n) = v7 (ix2 p 0) :=
    broadcastTo_apply v7 _ (ix2 p n) (ix2 p 0) (fun a => match a with | ⟨0, _⟩ => rfl | ⟨1, _⟩ => rfl)
  show FloatOps.sitofp (F := Ideal) .f32 ((IntOp.cmpi .eq
      (IntOp.addi (iota .tc S2048x1024 32 [1] iota_S2048x1024_d1_w32 (ix2 p n)) (IntOp.muli (BitVec.ofNat 32 k) 1024#32))
      (broadcastTo S2048x1024 v7 broadcasts_S2048x1_S2048x1024 (ix2 p n))).setWidth 32) = _
  rw [e1, e2, onehot_scalar]
  have e3 : IntOp.addi (BitVec.ofNat 32 n.val) (IntOp.muli (BitVec.ofNat 32 k) 1024#32) = BitVec.ofNat 32 (k * 1024 + n.val) := by
    show BitVec.ofNat 32 n.val + BitVec.ofNat 32 k * 1024#32 = _
    rw [BitVec.ofNat_add, BitVec.ofNat_mul]
    exact BitVec.add_comm _ _
  rw [e3]
  exact if_congr eq_comm rfl rfl

/-- One step of the gather: the accumulator plus the product of the block's one-hot rows with the feature block. -/
theorem pay2_apply (i : grid0.Coords) (v7 : Vec Ideal S2048x1 .i32) (v14 : Vec Ideal S1024x128 .bf16) (v16 : Vec Ideal S2048x128 .f32)
    (p : Fin 2048) (q : Fin 128) :
    k0_pay2 i v7 v14 v16 (ix2 p q)
      = v16 (ix2 p q) + ∑ n : Fin 1024,
          (if v7 (ix2 p 0) = BitVec.ofNat 32 ((i 1).val * 1024 + n.val) then (1 : EReal) else 0) * v14 (ix2 n q) := by
  unfold k0_pay2
  simp only [shapeCast_self, matmul]
  refine (addf_apply _ _ _).trans ?_
  refine congrArg (v16 (ix2 p q) + ·) ?_
  refine (matmul_gs_apply _ _ p q).trans ?_
  refine Finset.sum_congr rfl fun n _ => ?_
  exact congrArg (· * v14 (ix2 n q)) (onehot_entry (i 1).val v7 p n)

end Cert.KernelIdeal.Hand

end
-- ==== Proof.Spec.lean ====
/-
  The specification: a graph-convolution layer over 50000 nodes and 800000 edges with 128 features.
  Edge e carries the message  feature[src e, ·] · w e ; node n collects the sum of the messages of the edges whose
  destination is n ; the output row of n is  max (agg n · Wᵀ + b, 0).
  Besides the layer itself (`out`), two intermediate forms say what a one-hot product computes on PADDED arrays
  (800768 edges, 50176 node rows): a gather written as a sum over all node rows of (row = source ? 1 : 0) · feature row,
  and a scatter written as a sum over all edges of (destination = row ? 1 : 0) · message. All over the extended reals.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨2, ![50000, 128]⟩       -- node features, and the output
abbrev SE : Shape := ⟨1, ![800000]⟩           -- one word or weight per edge
abbrev SW : Shape := ⟨2, ![128, 128]⟩         -- the weight matrix (output feature, input feature)
abbrev SB : Shape := ⟨1, ![128]⟩              -- the bias
abbrev SNp : Shape := ⟨2, ![50176, 128]⟩      -- node rows padded to 49 blocks of 1024
abbrev SEc : Shape := ⟨2, ![800768, 1]⟩       -- edges padded to 391 tiles of 2048, as a column
abbrev SEr : Shape := ⟨2, ![1, 800768]⟩       -- the same as a row
abbrev SEp : Shape := ⟨2, ![800768, 128]⟩     -- one message row per padded edge
abbrev SBr : Shape := ⟨2, ![1, 128]⟩          -- the bias as a row

/-! ## The layer -/

/-- The message of edge `e` in feature column `d`: the source node's feature times the edge weight (an edge whose
    source word is no node row carries nothing). -/
def msg (feature : SN.Idx → EReal) (src : SE.Idx → BitVec 32) (w : SE.Idx → EReal) (e : Fin 800000) (d : Fin 128) : EReal :=
  (if h : (src (ix1 e)).toNat < 50000 then feature (ix2 ⟨(src (ix1 e)).toNat, h⟩ d) else 0) * w (ix1 e)

/-- What node `n` collects in column `d`: the sum of the messages of the edges whose destination word is `n`. -/
def agg (feature : SN.Idx → EReal) (src dst : SE.Idx → BitVec 32) (w : SE.Idx → EReal) (n : Fin 50000) (d : Fin 128) : EReal :=
  ∑ e : Fin 800000, if dst (ix1 e) = BitVec.ofNat 32 n.val then msg feature src w e d else 0

/-- The layer's output at node `n`, output feature `k`. -/
def outAt (feature : SN.Idx → EReal) (src dst : SE.Idx → BitVec 32) (w : SE.Idx → EReal) (Wm : SW.Idx → EReal) (b : SB.Idx → EReal)
    (n : Fin 50000) (k : Fin 128) : EReal :=
  max ((∑ d : Fin 128, agg feature src dst w n d * Wm (ix2 k d)) + b (ix1 k)) 0

/-- The layer's output array. -/
def out (feature : SN.Idx → EReal) (src dst : SE.Idx → BitVec 32) (w : SE.Idx → EReal) (Wm : SW.Idx → EReal) (b : SB.Idx → EReal) :
    SN.Idx → EReal :=
  fun j => outAt feature src dst w Wm b (j 0) (j 1)

/-! ## What the one-hot products compute on the padded arrays -/

/-- The gather as a product with one-hot rows, then the scale: row `e`, column `d` is the sum over ALL node rows
    `n` of (the source word of `e` is `n` ? 1 : 0) · featP[n, d], times the weight of `e`. -/
def msgP (featP : SNp.Idx → EReal) (srcC : SEc.Idx → BitVec 32) (wC : SEc.Idx → EReal) : SEp.Idx → EReal :=
  fun j => (∑ n : Fin 50176, (if srcC (ix2 (j 0) 0) = BitVec.ofNat 32 n.val then (1 : EReal) else 0) * featP (ix2 n (j 1)))
    * wC (ix2 (j 0) 0)

/-- The scatter as a product with one-hot rows, then the linear layer: row `n`, output feature `k` is
    max (∑_d (∑_e (the destination word of `e` is `n` ? 1 : 0) · msgs[e, d]) · wt[d, k] + bias[k], 0). -/
def outP (dstR : SEr.Idx → BitVec 32) (msgs : SEp.Idx → EReal) (wt : SW.Idx → EReal) (bR : SBr.Idx → EReal) : SNp.Idx → EReal :=
  fun j => max ((∑ d : Fin 128,
      (∑ e : Fin 800768, (if dstR (ix2 0 e) = BitVec.ofNat 32 (j 0).val then (1 : EReal) else 0) * msgs (ix2 e d)) * wt (ix2 d (j 1)))
    + bR (ix2 0 (j 1))) 0

end Cert.Spec

end
-- ==== Proof.KernelIdeal.Val0.lean ====
/-
  Region 0 (the gather), the value of its output array over the extended reals. Point t of the 391 × 49 grid has
  edge-tile coordinate t / 49 and node-block coordinate t % 49; its windows hold rows 2048·(t / 49) … of the source
  words and weights and rows 1024·(t % 49) … of the features. By induction over the points the accumulator after
  point t holds, at (p, q), the sum over node blocks 0 … t % 49 of the block sums
  ∑ₙ (source word of edge row 2048·(t / 49) + p is the node row ? 1 : 0) · feature[node row, q];
  at t % 49 = 48 that is the sum over all 50176 node rows, and the block written back is it times the edge's weight.
  Those 391 blocks tile the 800768 rows, so the array ends holding the messages of the specification.
-/
import proofs.«418971_j36292473651564_1_alg».proof.Proof.KernelIdeal.Def0
import proofs.«418971_j36292473651564_1_alg».proof.Proof.KernelIdeal.Val0a
import proofs.«418971_j36292473651564_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## Where a point sits on the grid, and which blocks its windows hold -/

theorem stride0_0 : grid0.stride 0 = 49 := by decide
theorem stride0_1 : grid0.stride 1 = 1 := by decide

/-- The edge-tile coordinate of point t is t / 49 … -/
theorem coord0_0 (t : Fin cfg0.N) : (grid0.coords t 0).val = t.val / 49 := by
  have hN : grid0.N = 19159 := N_0
  have ht : t.val < grid0.N := t.isLt
  show t.val / grid0.stride 0 % 391 = _
  rw [stride0_0]; omega
/-- … and its node-block coordinate t % 49. -/
theorem coord0_1 (t : Fin cfg0.N) : (grid0.coords t 1).val = t.val % 49 := by
  show t.val / grid0.stride 1 % 49 = _
  rw [stride0_1, Nat.div_one]

theorem word_toNat (x : ℕ) (h : x < 19159) : (BitVec.ofNat 32 x).toNat = x := by
  rw [BitVec.toNat_ofNat]; exact Nat.mod_eq_of_lt (by omega)

/-- The source words' and the weights' block index is (t / 49, 0), the features' (t % 49, 0), the output's (t / 49, 0). -/
theorem idx0_0 (t : Fin cfg0.N) : win0_0.index t 0 = t.val / 49 ∧ win0_0.index t 1 = 0 := by
  have hN : grid0.N = 19159 := N_0
  have ht : t.val < grid0.N := t.isLt
  refine ⟨?_, rfl⟩
  show (BitVec.ofNat 32 (grid0.coords t 0).val).toNat = _
  rw [coord0_0, word_toNat _ (by omega)]
theorem idx0_1 (t : Fin cfg0.N) : win0_1.index t 0 = t.val / 49 ∧ win0_1.index t 1 = 0 := by
  have hN : grid0.N = 19159 := N_0
  have ht : t.val < grid0.N := t.isLt
  refine ⟨?_, rfl⟩
  show (BitVec.ofNat 32 (grid0.coords t 0).val).toNat = _
  rw [coord0_0, word_toNat _ (by omega)]
theorem idx0_2 (t : Fin cfg0.N) : win0_2.index t 0 = t.val % 49 ∧ win0_2.index t 1 = 0 := by
  refine ⟨?_, rfl⟩
  show (BitVec.ofNat 32 (grid0.coords t 1).val).toNat = _
  rw [coord0_1, word_toNat _ (by omega)]
theorem idx0_3 (t : Fin cfg0.N) : win0_3.index t 0 = t.val / 49 ∧ win0_3.index t 1 = 0 := by
  have hN : grid0.N = 19159 := N_0
  have ht : t.val < grid0.N := t.isLt
  refine ⟨?_, rfl⟩
  show (BitVec.ofNat 32 (grid0.coords t 0).val).toNat = _
  rw [coord0_0, word_toNat _ (by omega)]

section
variable (V : (c : Dev nD) → (b : Ref sig .tc) → Buf (Elt Ideal) ((c : Thread nD τ).loc b))

/-- The three input arrays as the region finds them: the padded source words, weights and features. -/
abbrev srcA (c : Dev nD) : Vec Ideal S800768x1 .i32 := V c main_v5
abbrev wgtA (c : Dev nD) : Vec Ideal S800768x1 .f32 := V c main_v6
abbrev featA (c : Dev nD) : Vec Ideal S50176x128 .bf16 := V c main_v4
/-- Their blocks at point t. -/
abbrev srcB (c : Dev nD) (t : Fin cfg0.N) : Vec Ideal S2048x1 .i32 := iblk0 V c 0 t
abbrev wgtB (c : Dev nD) (t : Fin cfg0.N) : Vec Ideal S2048x1 .f32 := iblk0 V c 1 t
abbrev featB (c : Dev nD) (t : Fin cfg0.N) : Vec Ideal S1024x128 .bf16 := iblk0 V c 2 t

/-- Row p of the source-word block at point t is edge row 2048·(t / 49) + p. -/
theorem srcB_apply (c : Dev nD) (t : Fin cfg0.N) (p : Fin 2048) (e : Fin 800768) (he : e.val = 2048 * (t.val / 49) + p.val) :
    srcB V c t (ix2 p 0) = srcA V c (ix2 e 0) := by
  unfold srcB srcA iblk0
  rw [View.read_apply]
  show V c main_v5 _ = V c main_v5 _
  congr 1
  funext a
  apply Fin.ext
  match a with
  | ⟨0, _⟩ => show win0_0.index t 0 * 2048 + 1 * p.val = e.val; rw [(idx0_0 t).1, he]; omega
  | ⟨1, _⟩ => show win0_0.index t 1 * 1 + 1 * 0 = 0; rw [(idx0_0 t).2]

/-- Row p of the weight block at point t is edge row 2048·(t / 49) + p. -/
theorem wgtB_apply (c : Dev nD) (t : Fin cfg0.N) (p : Fin 2048) (e : Fin 800768) (he : e.val = 2048 * (t.val / 49) + p.val) :
    wgtB V c t (ix2 p 0) = wgtA V c (ix2 e 0) := by
  unfold wgtB wgtA iblk0
  rw [View.read_apply]
  show V c main_v6 _ = V c main_v6 _
  congr 1
  funext a
  apply Fin.ext
  match a with
  | ⟨0, _⟩ => show win0_1.index t 0 * 2048 + 1 * p.val = e.val; rw [(idx0_1 t).1, he]; omega
  | ⟨1, _⟩ => show win0_1.index t 1 * 1 + 1 * 0 = 0; rw [(idx0_1 t).2]

/-- Row n of the feature block at point t is node row 1024·(t % 49) + n. -/
theorem featB_apply (c : Dev nD) (t : Fin cfg0.N) (n : Fin 1024) (q : Fin 128) (r : Fin 50176) (hr : r.val = 1024 * (t.val % 49) + n.val) :
    featB V c t (ix2 n q) = featA V c (ix2 r q) := by
  unfold featB featA iblk0
  rw [View.read_apply]
  show V c main_v4 _ = V c main_v4 _
  congr 1
  funext a
  apply Fin.ext
  match a with
  | ⟨0, _⟩ => show win0_2.index t 0 * 1024 + 1 * n.val = r.val; rw [(idx0_2 t).1, hr]; omega
  | ⟨1, _⟩ => show win0_2.index t 1 * 128 + 1 * q.val = q.val; rw [(idx0_2 t).2]; omega

/-! ## The sum over the node rows, block by block -/

/-- A sum over B consecutive runs of K naturals is the sum over the first B·K naturals. -/
theorem sum_range_blocks {M : Type} [AddCommMonoid M] (g : ℕ → M) (K : ℕ) : ∀ B : ℕ,
    ∑ b ∈ Finset.range B, ∑ n ∈ Finset.range K, g (b * K + n) = ∑ n ∈ Finset.range (B * K), g n
  | 0 => by simp
  | B + 1 => by rw [Finset.sum_range_succ, sum_range_blocks g K B, Nat.succ_mul, Finset.sum_range_add]

/-- The term of edge row e, column q, at node row n (a natural; nothing beyond the last row). -/
def gterm (c : Dev nD) (e : Fin 800768) (q : Fin 128) (n : ℕ) : EReal :=
  if h : n < 50176 then (if srcA V c (ix2 e 0) = BitVec.ofNat 32 n then (1 : EReal) else 0) * featA V c (ix2 ⟨n, h⟩ q) else 0

/-- The terms of node block b, added. -/
def blockSum (c : Dev nD) (e : Fin 800768) (q : Fin 128) (b : ℕ) : EReal :=
  ∑ n : Fin 1024, gterm V c e q (b * 1024 + n.val)

/-- What one step adds at point t is the block sum of node block t % 49. -/
theorem step_sum (c : Dev nD) (t : Fin cfg0.N) (p : Fin 2048) (q : Fin 128) (e : Fin 800768) (he : e.val = 2048 * (t.val / 49) + p.val) :
    (∑ n : Fin 1024, (if srcB V c t (ix2 p 0) = BitVec.ofNat 32 ((grid0.coords t 1).val * 1024 + n.val) then (1 : EReal) else 0)
        * featB V c t (ix2 n q))
      = blockSum V c e q (t.val % 49) := by
  unfold blockSum
  refine Finset.sum_congr rfl fun n _ => ?_
  have hn : n.val < 1024 := n.isLt
  have hlt : t.val % 49 * 1024 + n.val < 50176 := by omega
  unfold gterm
  rw [dif_pos hlt, srcB_apply V c t p e he, coord0_1, featB_apply V c t n q ⟨t.val % 49 * 1024 + n.val, hlt⟩ (by show t.val % 49 * 1024 + n.val = 1024 * (t.val % 49) + n.val; omega)]

/-- All 49 block sums are the sum over all 50176 node rows. -/
theorem sum_all (c : Dev nD) (e : Fin 800768) (q : Fin 128) :
    ∑ b ∈ Finset.range 49, blockSum V c e q b
      = ∑ n : Fin 50176, (if srcA V c (ix2 e 0) = BitVec.ofNat 32 n.val then (1 : EReal) else 0) * featA V c (ix2 n q) := by
  unfold blockSum
  have h1 : ∀ b : ℕ, ∑ n : Fin 1024, gterm V c e q (b * 1024 + n.val) = ∑ n ∈ Finset.range 1024, gterm V c e q (b * 1024 + n) :=
    fun b => Fin.sum_univ_eq_sum_range (fun n => gterm V c e q (b * 1024 + n)) 1024
  rw [Finset.sum_congr rfl (fun b _ => h1 b), sum_range_blocks (gterm V c e q) 1024 49,
    ← Fin.sum_univ_eq_sum_range (gterm V c e q) (49 * 1024)]
  show ∑ n : Fin 50176, gterm V c e q n.val = _
  refine Finset.sum_congr rfl fun n _ => ?_
  unfold gterm
  rw [dif_pos n.isLt]

/-! ## The accumulator after each point -/

/-- After point n the accumulator's entry (p, q) is the sum of the block sums of node blocks 0 … n % 49, for the edge
    row 2048·(n / 49) + p. -/
theorem acc0_eq (c : Dev nD) : ∀ (n : ℕ) (hn : n < cfg0.N) (p : Fin 2048) (q : Fin 128) (e : Fin 800768),
    e.val = 2048 * (n / 49) + p.val →
    (acc0 V c n hn : Vec Ideal S2048x128 .f32) (ix2 p q) = ∑ b ∈ Finset.range (n % 49 + 1), blockSum V c e q b := by
  intro n
  induction n with
  | zero =>
    intro hn p q e he
    have h0 : (⟨0, hn⟩ : Fin cfg0.N).val % 49 = 0 := rfl
    refine (congrFun (acc0_first V c ⟨0, hn⟩ h0) (ix2 p q)).trans ?_
    refine (pay2_apply (grid0.coords ⟨0, hn⟩) (srcB V c ⟨0, hn⟩) (featB V c ⟨0, hn⟩) (k0_pay1 (F := Ideal)) p q).trans ?_
    rw [pay1_apply, zero_add, step_sum V c ⟨0, hn⟩ p q e he, Finset.sum_range_one]
    rfl
  | succ m ih =>
    intro hn p q e he
    by_cases h : (m + 1) % 49 = 0
    · refine (congrFun (acc0_first V c ⟨m + 1, hn⟩ h) (ix2 p q)).trans ?_
      refine (pay2_apply (grid0.coords ⟨m + 1, hn⟩) (srcB V c ⟨m + 1, hn⟩) (featB V c ⟨m + 1, hn⟩) (k0_pay1 (F := Ideal)) p q).trans ?_
      rw [pay1_apply, zero_add, step_sum V c ⟨m + 1, hn⟩ p q e he, h, Finset.sum_range_one]
    · refine (congrFun (acc0_next V c ⟨m + 1, hn⟩ h) (ix2 p q)).trans ?_
      refine (pay2_apply (grid0.coords ⟨m + 1, hn⟩) (srcB V c ⟨m + 1, hn⟩) (featB V c ⟨m + 1, hn⟩)
        (acc0 V c m (Nat.lt_of_succ_lt hn)) p q).trans ?_
      rw [ih (Nat.lt_of_succ_lt hn) p q e (by omega), step_sum V c ⟨m + 1, hn⟩ p q e he]
      show _ + blockSum V c e q ((m + 1) % 49) = _
      have hm : m % 49 + 1 = (m + 1) % 49 := by omega
      rw [hm, ← Finset.sum_range_succ]

/-! ## The stored blocks, and the array they tile -/

/-- What a point at the last node block of its tile writes back is its block of the messages. -/
theorem flushed_eq0 (c : Dev nD) (t : Fin cfg0.N) (hf : (cfg0.win 3).flush t = true) :
    (dat0 V c).flushed 3 t = ((cfg0.win 3).blk t).view.read (Elt Ideal) (Cert.Spec.msgP (featA V c) (srcA V c) (wgtA V c)) := by
  have h48 : t.val % 49 = 48 := (flush0_3 t).mp hf
  have hN : grid0.N = 19159 := N_0
  have ht : t.val < grid0.N := t.isLt
  show (cfg0.win 3).cut (grid0.coords t) ((dat0 V c).after 3 t) = _
  rw [after0_3]
  funext j
  obtain ⟨p, q, rfl⟩ : ∃ (p : Fin 2048) (q : Fin 128), j = ix2 p q := ⟨j 0, j 1, eq_ix2 j⟩
  have hp : p.val < 2048 := p.isLt
  have hemb : ((cfg0.win 3).blk t).view.emb (ix2 p q) = ix2 (⟨2048 * (t.val / 49) + p.val, by omega⟩ : Fin 800768) q := by
    funext a
    apply Fin.ext
    match a with
    | ⟨0, _⟩ => show win0_3.index t 0 * 2048 + 1 * p.val = 2048 * (t.val / 49) + p.val; rw [(idx0_3 t).1]; omega
    | ⟨1, _⟩ => show win0_3.index t 1 * 128 + 1 * q.val = q.val; rw [(idx0_3 t).2]; omega
  show k0_pay3 (acc0 V c t.val t.isLt) (wgtB V c t) (ix2 p q) = Cert.Spec.msgP (featA V c) (srcA V c) (wgtA V c) (((cfg0.win 3).blk t).view.emb (ix2 p q))
  rw [hemb]
  refine (pay3_apply (acc0 V c t.val t.isLt) (wgtB V c t) p q).trans ?_
  rw [acc0_eq V c t.val t.isLt p q ⟨2048 * (t.val / 49) + p.val, by omega⟩ rfl,
    wgtB_apply V c t p ⟨2048 * (t.val / 49) + p.val, by omega⟩ rfl, h48, sum_all]
  rfl

/-- After all the points the output array holds the messages: row e, column q is the sum over all node rows of
    (the source word of e names the row ? 1 : 0) · feature, times the weight of e. -/
theorem msg_arr (c : Dev nD) :
    (dat0 (F := Ideal) V c).arrAt 3 cfg0.N = Cert.Spec.msgP (V c main_v4) (V c main_v5) (V c main_v6) :=
  (dat0 V c).arrAt_eq_of_cover 3 (Cert.Spec.msgP (featA V c) (srcA V c) (wgtA V c)) (flushed_eq0 V c) fun i => by
    have hN : grid0.N = 19159 := N_0
    have hi0 : (i 0).val < 800768 := (i 0).isLt
    have hi1 : (i 1).val < 128 := (i 1).isLt
    have htN : 49 * ((i 0).val / 2048) + 48 < cfg0.N := by show _ < grid0.N; omega
    refine ⟨⟨49 * ((i 0).val / 2048) + 48, htN⟩, (flush0_3 _).mpr (by show (49 * ((i 0).val / 2048) + 48) % 49 = 48; omega), ?_⟩
    show i ∈ ((View.whole main_v11).slice (win0_3.rect ⟨49 * ((i 0).val / 2048) + 48, htN⟩)).set
    rw [View.set_slice_whole, Rect.mem_set_unit]
    intro a
    match a with
    | ⟨0, _⟩ =>
      show win0_3.index ⟨49 * ((i 0).val / 2048) + 48, htN⟩ 0 * 2048 ≤ (i 0).val
        ∧ (i 0).val < win0_3.index ⟨49 * ((i 0).val / 2048) + 48, htN⟩ 0 * 2048 + 2048
      rw [(idx0_3 _).1]
      show (49 * ((i 0).val / 2048) + 48) / 49 * 2048 ≤ (i 0).val ∧ (i 0).val < (49 * ((i 0).val / 2048) + 48) / 49 * 2048 + 2048
      omega
    | ⟨1, _⟩ =>
      show win0_3.index ⟨49 * ((i 0).val / 2048) + 48, htN⟩ 1 * 128 ≤ (i 1).val
        ∧ (i 1).val < win0_3.index ⟨49 * ((i 0).val / 2048) + 48, htN⟩ 1 * 128 + 128
      rw [(idx0_3 _).2]
      omega

end

end Cert.KernelIdeal.Hand

end
-- ==== Proof.KernelIdeal.Val1a.lean ====
/-
  Region 1's three payloads read at one entry, over the extended reals. The reset payload is zero. The accumulation
  payload at (p, q) is what the accumulator held there plus the sum, over the tile's 2048 edges e, of
  (destination word of e = the node row's number ? 1 : 0) · message[e, q]: the one-hot matrix entry is a word
  comparison widened and converted (1 or 0), the format changes are the identity, and a matrix product into a zero
  accumulator is the plain sum over the contracted axis. The output payload at (p, q) is
  max (∑_d acc[p, d] · wt[d, q] + bias[q], 0).
-/
import proofs.«418971_j36292473651564_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand.R1

open Idealize.ShloMosaic Idealize.ShloMosaic.ValueIdx
open Cert.KernelIdeal Cert.KernelIdeal.Gen

/-- A word comparison widened to 32 bits and converted is 1 where the words agree and 0 elsewhere. -/
theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  unfold IntOp.cmpi
  by_cases h : a = b
  · subst h; simp
  · have hb : (a == b) = false := by simpa using h
    simp [hb, h]

abbrev D2 := dot_S1024x2048_S2048x128_S1024x128_1_0_0_1_n_n
abbrev D3 := dot_S1024x128_S128x128_S1024x128_1_0_0_1_n_n

theorem lhs2_0 (j : S1024x128.Idx) (k : dot_S1024x2048_S2048x128_S1024x128_1_0_0_1_n_n.contr.Idx) :
    (dot_S1024x2048_S2048x128_S1024x128_1_0_0_1_n_n.lhsIdx j k 0).val = (j 0).val := rfl
theorem lhs2_1 (j : S1024x128.Idx) (k : dot_S1024x2048_S2048x128_S1024x128_1_0_0_1_n_n.contr.Idx) :
    (dot_S1024x2048_S2048x128_S1024x128_1_0_0_1_n_n.lhsIdx j k 1).val = (k ⟨0, by decide⟩).val := rfl
theorem rhs2_0 (j : S1024x128.Idx) (k : dot_S1024x2048_S2048x128_S1024x128_1_0_0_1_n_n.contr.Idx) :
    (dot_S1024x2048_S2048x128_S1024x128_1_0_0_1_n_n.rhsIdx j k 0).val = (k ⟨0, by decide⟩).val := rfl
theorem rhs2_1 (j : S1024x128.Idx) (k : dot_S1024x2048_S2048x128_S1024x128_1_0_0_1_n_n.contr.Idx) :
    (dot_S1024x2048_S2048x128_S1024x128_1_0_0_1_n_n.rhsIdx j k 1).val = (j 1).val := rfl

/-- The scatter product read at (p, q): the sum over the tile's 2048 edges. -/
theorem matmul2_apply (lhs : FVec Ideal S1024x2048 .bf16) (rhs : FVec Ideal S2048x128 .bf16) (p : Fin 1024) (q : Fin 128) :
    matmul dot_S1024x2048_S2048x128_S1024x128_1_0_0_1_n_n none lhs rhs (constant (F := Ideal) S1024x128 .f32 0x00000000#32) (ix2 p q)
      = ∑ e : Fin 2048, lhs (ix2 p e) * rhs (ix2 e q) := by
  simp only [matmul]
  rw [Ideal.matmul_constant_zero_apply]
  rw [← Equiv.sum_comp (contrEquiv1 dot_S1024x2048_S2048x128_S1024x128_1_0_0_1_n_n 2048 rfl rfl).symm]
  refine Finset.sum_congr rfl fun e _ => ?_
  have hl : dot_S1024x2048_S2048x128_S1024x128_1_0_0_1_n_n.lhsIdx (ix2 p q) ((contrEquiv1 dot_S1024x2048_S2048x128_S1024x128_1_0_0_1_n_n 2048 rfl rfl).symm e) = ix2 p e := by
    funext a; apply Fin.ext
    match a with
    | ⟨0, _⟩ => exact lhs2_0 _ _
    | ⟨1, _⟩ => exact (lhs2_1 _ _).trans (contrEquiv1_symm_val _ 2048 rfl rfl e)
  have hr : dot_S1024x2048_S2048x128_S1024x128_1_0_0_1_n_n.rhsIdx (ix2 p q) ((contrEquiv1 dot_S1024x2048_S2048x128_S1024x128_1_0_0_1_n_n 2048 rfl rfl).symm e) = ix2 e q := by
    funext a; apply Fin.ext
    match a with
    | ⟨0, _⟩ => exact (rhs2_0 _ _).trans (contrEquiv1_symm_val _ 2048 rfl rfl e)
    | ⟨1, _⟩ => exact rhs2_1 _ _
  rw [hl, hr]

theorem lhs3_0 (j : S1024x128.Idx) (k : dot_S1024x128_S128x128_S1024x128_1_0_0_1_n_n.contr.Idx) :
    (dot_S1024x128_S128x128_S1024x128_1_0_0_1_n_n.lhsIdx j k 0).val = (j 0).val := rfl
theorem lhs3_1 (j : S1024x128.Idx) (k : dot_S1024x128_S128x128_S1024x128_1_0_0_1_n_n.contr.Idx) :
    (dot_S1024x128_S128x128_S1024x128_1_0_0_1_n_n.lhsIdx j k 1).val = (k ⟨0, by decide⟩).val := rfl
theorem rhs3_0 (j : S1024x128.Idx) (k : dot_S1024x128_S128x128_S1024x128_1_0_0_1_n_n.contr.Idx) :
    (dot_S1024x128_S128x128_S1024x128_1_0_0_1_n_n.rhsIdx j k 0).val = (k ⟨0, by decide⟩).val := rfl
theorem rhs3_1 (j : S1024x128.Idx) (k : dot_S1024x128_S128x128_S1024x128_1_0_0_1_n_n.contr.Idx) :
    (dot_S1024x128_S128x128_S1024x128_1_0_0_1_n_n.rhsIdx j k 1).val = (j 1).val := rfl

/-- The linear layer's product read at (p, q): the sum over the 128 input features. -/
theorem matmul3_apply (lhs : FVec Ideal S1024x128 .bf16) (rhs : FVec Ideal S128x128 .bf16) (p : Fin 1024) (q : Fin 128) :
    matmul dot_S1024x128_S128x128_S1024x128_1_0_0_1_n_n none lhs rhs (constant (F := Ideal) S1024x128 .f32 0x00000000#32) (ix2 p q)
      = ∑ d : Fin 128, lhs (ix2 p d) * rhs (ix2 d q) := by
  simp only [matmul]
  rw [Ideal.matmul_constant_zero_apply]
  rw [← Equiv.sum_comp (contrEquiv1 dot_S1024x128_S128x128_S1024x128_1_0_0_1_n_n 128 rfl rfl).symm]
  refine Finset.sum_congr rfl fun e _ => ?_
  have hl : dot_S1024x128_S128x128_S1024x128_1_0_0_1_n_n.lhsIdx (ix2 p q) ((contrEquiv1 dot_S1024x128_S128x128_S1024x128_1_0_0_1_n_n 128 rfl rfl).symm e) = ix2 p e := by
    funext a; apply Fin.ext
    match a with
    | ⟨0, _⟩ => exact lhs3_0 _ _
    | ⟨1, _⟩ => exact (lhs3_1 _ _).trans (contrEquiv1_symm_val _ 128 rfl rfl e)
  have hr : dot_S1024x128_S128x128_S1024x128_1_0_0_1_n_n.rhsIdx (ix2 p q) ((contrEquiv1 dot_S1024x128_S128x128_S1024x128_1_0_0_1_n_n 128 rfl rfl).symm e) = ix2 e q := by
    funext a; apply Fin.ext
    match a with
    | ⟨0, _⟩ => exact (rhs3_0 _ _).trans (contrEquiv1_symm_val _ 128 rfl rfl e)
    | ⟨1, _⟩ => exact rhs3_1 _ _
  rw [hl, hr]

/-- The one-hot matrix of a node block against a tile of destination words, read at (p, e): 1 where the
    word of edge e is the node row's number (the row inside the block plus the block's first row), else 0. -/
theorem onehot_apply (a0 : BitVec 32) (v7 : IVec S1x2048 32) (hio : S1024x2048.Iotas .tc 32 [0]) (hb : S1x2048.Broadcasts S1024x2048) (hlt : 1 < 32)
    (p : Fin 1024) (e : Fin 2048) :
    (sitofp .f32 (extui 32 (cmpi .eq (addi (iota .tc S1024x2048 32 [0] hio) (broadcast S1024x2048 (Scalar.muli a0 1024#32))) (broadcastTo S1024x2048 v7 hb)) hlt) : FVec Ideal S1024x2048 .f32) (ix2 p e)
      = if BitVec.ofNat 32 p.val + a0 * 1024#32 = v7 (ix2 0 e) then (1 : EReal) else 0 := by
  show FloatOps.sitofp (F := Ideal) .f32 ((IntOp.cmpi .eq (IntOp.addi (iota .tc S1024x2048 32 [0] hio (ix2 p e)) (Scalar.muli a0 1024#32)) (broadcastTo S1024x2048 v7 hb (ix2 p e))).setWidth 32) = _
  rw [onehot_word, iota_single_apply, broadcastTo_1b_ab_apply]
  rfl

/-- The reset payload is zero everywhere. -/
theorem pay1_apply (p : Fin 1024) (q : Fin 128) : (k1_pay1 (F := Ideal)) (ix2 p q) = (0 : EReal) := by
  unfold k1_pay1
  simp only [shapeCast_self]
  exact Ideal.ofBits_zero_f32

/-- The accumulation payload at (p, q): what the accumulator held plus the sum over the tile's edges whose
    destination word is the node row's number of the edge's message in column q. -/
theorem pay2_apply (i : grid1.Coords) (v7 : Vec Ideal S1x2048 .i32) (v14 : Vec Ideal S2048x128 .f32) (v17 : Vec Ideal S1024x128 .f32)
    (p : Fin 1024) (q : Fin 128) :
    k1_pay2 i v7 v14 v17 (ix2 p q) = v17 (ix2 p q) + ∑ e : Fin 2048,
      (if BitVec.ofNat 32 p.val + BitVec.ofNat 32 (i 0).val * 1024#32 = v7 (ix2 0 e) then (1 : EReal) else 0) * v14 (ix2 e q) := by
  unfold k1_pay2
  simp only [shapeCast_self]
  show v17 (ix2 p q) + matmul (F := Ideal) dot_S1024x2048_S2048x128_S1024x128_1_0_0_1_n_n none _ _ _ (ix2 p q) = _
  refine congrArg (v17 (ix2 p q) + ·) ((matmul2_apply _ _ p q).trans ?_)
  refine Finset.sum_congr rfl fun e _ => ?_
  refine congrArg (· * v14 (ix2 e q)) ?_
  exact onehot_apply _ v7 _ _ _ p e

/-- The output payload at (p, q): the accumulator's row times the weight column, plus the bias, cut below at zero. -/
theorem pay3_apply (v26 : Vec Ideal S1024x128 .f32) (v28 : Vec Ideal S128x128 .bf16) (v31 : Vec Ideal S1x128 .f32) (p : Fin 1024) (q : Fin 128) :
    k1_pay3 v26 v28 v31 (ix2 p q) = max ((∑ d : Fin 128, v26 (ix2 p d) * v28 (ix2 d q)) + v31 (ix2 0 q)) (0 : EReal) := by
  unfold k1_pay3
  simp only [shapeCast_self]
  show max (matmul (F := Ideal) dot_S1024x128_S128x128_S1024x128_1_0_0_1_n_n none _ _ _ (ix2 p q) + broadcastTo S1024x128 v31 _ (ix2 p q)) (Ideal.ofBits .f32 0x00000000#32) = _
  rw [matmul3_apply, broadcastTo_1b_ab_apply, Ideal.ofBits_zero_f32]
  rfl

end Cert.KernelIdeal.Hand.R1

end
-- ==== Proof.KernelIdeal.Val1b.lean ====
/-
  Region 1's accumulator after each point, over the extended reals. Point t of the 49 × 391 grid is (i, kk) with
  i = t / 391 and kk = t mod 391. There the destination words' window holds words 2048·kk … 2048·kk + 2047, the
  messages' window the same rows, the weights' and the bias's windows their whole arrays, and the output's window
  rows 1024·i … 1024·i + 1023. By induction on the point the accumulator holds, at (p, q), the sum over the edges e
  of tiles 0 … kk of (destination word of e = 1024·i + p ? 1 : 0) · message[e, q]; at kk = 390 that is the sum over
  all 800768 padded edges.
-/
import proofs.«418971_j36292473651564_1_alg».proof.Proof.KernelIdeal.Def1
import proofs.«418971_j36292473651564_1_alg».proof.Proof.KernelIdeal.Val1a
import Idealize.ShloMosaic.Lib.Pipeline.Value
import Idealize.ShloMosaic.Lib.ValueIdx

set_option maxRecDepth 16384

noncomputable section

open scoped BigOperators

namespace Cert.KernelIdeal.Hand.R1

open Idealize.ShloMosaic Idealize.ShloMosaic.TcCoe Idealize.ShloMosaic.ValueIdx Idealize.SL.Sem
open Idealize.ShloMosaic.Pipeline (Dat)
open Cert.KernelIdeal Cert.KernelIdeal.Gen

/-! ## The grid's coordinates and the windows' block indices at a point -/

theorem coord1_0 (t : Fin cfg1.N) : (grid1.coords t 0).val = t.val / 391 := by
  have hN : cfg1.N = 19159 := N_1
  have ht := t.isLt
  show t.val / grid1.stride 0 % grid1.bound 0 = _
  rw [show grid1.stride 0 = 391 from by decide, show grid1.bound 0 = 49 from rfl]
  omega

theorem coord1_1 (t : Fin cfg1.N) : (grid1.coords t 1).val = t.val % 391 := by
  show t.val / grid1.stride 1 % grid1.bound 1 = _
  rw [show grid1.stride 1 = 1 from by decide, show grid1.bound 1 = 391 from rfl]
  omega

theorem word_lt (n : ℕ) (h : n < 4294967296) : (BitVec.ofNat 32 n).toNat = n := by
  rw [BitVec.toNat_ofNat]; exact Nat.mod_eq_of_lt h

/-- The destination words' block moves with the edge tile. -/
theorem idx1_0 (t : Fin cfg1.N) : win1_0.index t 0 = 0 ∧ win1_0.index t 1 = t.val % 391 := by
  refine ⟨rfl, ?_⟩
  show (BitVec.ofNat 32 (grid1.coords t 1).val).toNat = _
  rw [coord1_1, word_lt _ (by omega)]

/-- So does the messages' block. -/
theorem idx1_1 (t : Fin cfg1.N) : win1_1.index t 0 = t.val % 391 ∧ win1_1.index t 1 = 0 := by
  refine ⟨?_, rfl⟩
  show (BitVec.ofNat 32 (grid1.coords t 1).val).toNat = _
  rw [coord1_1, word_lt _ (by omega)]

/-- The weights and the bias have one block. -/
theorem idx1_2 (t : Fin cfg1.N) : win1_2.index t 0 = 0 ∧ win1_2.index t 1 = 0 := ⟨rfl, rfl⟩
theorem idx1_3 (t : Fin cfg1.N) : win1_3.index t 0 = 0 ∧ win1_3.index t 1 = 0 := ⟨rfl, rfl⟩

/-- The output's block moves with the node block. -/
theorem idx1_4 (t : Fin cfg1.N) : win1_4.index t 0 = t.val / 391 ∧ win1_4.index t 1 = 0 := by
  have hN : cfg1.N = 19159 := N_1
  have ht := t.isLt
  refine ⟨?_, rfl⟩
  show (BitVec.ofNat 32 (grid1.coords t 0).val).toNat = _
  rw [coord1_0, word_lt _ (by omega)]

/-! ## The blocks the windows hold at a point, read off their arrays -/

section Blocks
variable {F : FTy → Type} [FloatOps F]
variable (V : (c : Dev nD) → (b : Ref sig .tc) → Buf (Elt F) ((c : Thread nD τ).loc b))

/-- The padded destination words, the messages, the transposed weights and the bias row as the region finds them. -/
abbrev dstArr (c : Dev nD) : Vec F S1x800768 .i32 := V c main_v7
abbrev msgArr (c : Dev nD) : Vec F S800768x128 .f32 := V c main_v11
abbrev wtArr (c : Dev nD) : Vec F S128x128 .bf16 := V c main_v9
abbrev biasArr (c : Dev nD) : Vec F S1x128 .f32 := V c main_v10

/-- Their blocks at a point. -/
abbrev dstBlk (c : Dev nD) (t : Fin cfg1.N) : Vec F S1x2048 .i32 := iblk1 V c 0 t
abbrev msgBlk (c : Dev nD) (t : Fin cfg1.N) : Vec F S2048x128 .f32 := iblk1 V c 1 t
abbrev wtBlk (c : Dev nD) (t : Fin cfg1.N) : Vec F S128x128 .bf16 := iblk1 V c 2 t
abbrev biasBlk (c : Dev nD) (t : Fin cfg1.N) : Vec F S1x128 .f32 := iblk1 V c 3 t

/-- Word e of the destination block at point t is word 2048·(t mod 391) + e of the array. -/
theorem dstBlk_apply (c : Dev nD) (t : Fin cfg1.N) (e : Fin 2048) (k : S1x800768.Idx)
    (hk0 : (k 0).val = 0) (hk1 : (k 1).val = 2048 * (t.val % 391) + e.val) :
    dstBlk V c t (ix2 0 e) = dstArr V c k := by
  obtain ⟨h0, h1⟩ := idx1_0 t
  unfold dstBlk dstArr iblk1
  rw [View.read_apply]
  show V c main_v7 _ = V c main_v7 _
  congr 1
  funext a
  apply Fin.ext
  match a with
  | ⟨0, _⟩ => show win1_0.index t 0 * 1 + 1 * (0 : ℕ) = (k 0).val; rw [h0, hk0]
  | ⟨1, _⟩ => show win1_0.index t 1 * 2048 + 1 * e.val = (k 1).val; rw [h1, hk1]; omega

/-- Row e of the message block at point t is row 2048·(t mod 391) + e of the array. -/
theorem msgBlk_apply (c : Dev nD) (t : Fin cfg1.N) (e : Fin 2048) (d : Fin 128) (k : S800768x128.Idx)
    (hk0 : (k 0).val = 2048 * (t.val % 391) + e.val) (hk1 : (k 1).val = d.val) :
    msgBlk V c t (ix2 e d) = msgArr V c k := by
  obtain ⟨h0, h1⟩ := idx1_1 t
  unfold msgBlk msgArr iblk1
  rw [View.read_apply]
  show V c main_v11 _ = V c main_v11 _
  congr 1
  funext a
  apply Fin.ext
  match a with
  | ⟨0, _⟩ => show win1_1.index t 0 * 2048 + 1 * e.val = (k 0).val; rw [h0, hk0]; omega
  | ⟨1, _⟩ => show win1_1.index t 1 * 128 + 1 * d.val = (k 1).val; rw [h1, hk1]; omega

/-- The weights' one block is the array. -/
theorem wtBlk_eq (c : Dev nD) (t : Fin cfg1.N) : wtBlk V c t = wtArr V c := by
  obtain ⟨h0, h1⟩ := idx1_2 t
  funext j
  unfold wtBlk wtArr iblk1
  rw [View.read_apply]
  show V c main_v9 _ = V c main_v9 _
  congr 1
  funext a
  apply Fin.ext
  match a with
  | ⟨0, _⟩ => show win1_2.index t 0 * 128 + 1 * (j 0).val = (j 0).val; rw [h0]; omega
  | ⟨1, _⟩ => show win1_2.index t 1 * 128 + 1 * (j 1).val = (j 1).val; rw [h1]; omega

/-- The bias row's one block is the array. -/
theorem biasBlk_eq (c : Dev nD) (t : Fin cfg1.N) : biasBlk V c t = biasArr V c := by
  obtain ⟨h0, h1⟩ := idx1_3 t
  funext j
  unfold biasBlk biasArr iblk1
  rw [View.read_apply]
  show V c main_v10 _ = V c main_v10 _
  congr 1
  funext a
  apply Fin.ext
  match a with
  | ⟨0, _⟩ => show win1_3.index t 0 * 1 + 1 * (j 0).val = (j 0).val; rw [h0]; omega
  | ⟨1, _⟩ => show win1_3.index t 1 * 128 + 1 * (j 1).val = (j 1).val; rw [h1]; omega

end Blocks

/-! ## The accumulator after each point: the partial sum over the edges of the tiles swept so far -/

section Sums
variable (V : (c : Dev nD) → (b : Ref sig .tc) → Buf (Elt Ideal) ((c : Thread nD τ).loc b))

/-- What edge e adds to node row n in column q: its message there when its destination word is n; nothing beyond
    the last edge. -/
def edgeTerm (dst : Vec Ideal S1x800768 .i32) (msgs : Vec Ideal S800768x128 .f32) (n : ℕ) (q : Fin 128) (e : ℕ) : EReal :=
  if h : e < 800768 then (if dst (ix2 0 ⟨e, h⟩) = BitVec.ofNat 32 n then (1 : EReal) else 0) * msgs (ix2 ⟨e, h⟩ q) else 0

/-- The row inside the block plus 1024 times the block's number, as words. -/
theorem word_row (a b : ℕ) : BitVec.ofNat 32 a + BitVec.ofNat 32 b * 1024#32 = BitVec.ofNat 32 (1024 * b + a) := by
  rw [BitVec.ofNat_mul_ofNat, BitVec.ofNat_add_ofNat]
  congr 1
  omega

/-- One more tile of 2048 edges. -/
theorem range_step (f : ℕ → EReal) (k : ℕ) :
    ∑ e ∈ Finset.range (2048 * k), f e + ∑ x ∈ Finset.range 2048, f (2048 * k + x) = ∑ e ∈ Finset.range (2048 * (k + 1)), f e := by
  rw [Nat.mul_succ, Finset.sum_range_add]

/-- The tile's sum, read off the arrays: the edges 2048·(t mod 391) … 2048·(t mod 391) + 2047. -/
theorem tile_sum (c : Dev nD) (t : Fin cfg1.N) (p : Fin 1024) (q : Fin 128) :
    (∑ e : Fin 2048, (if BitVec.ofNat 32 p.val + BitVec.ofNat 32 (grid1.coords t 0).val * 1024#32 = dstBlk V c t (ix2 0 e) then (1 : EReal) else 0) * msgBlk V c t (ix2 e q))
      = ∑ x ∈ Finset.range 2048, edgeTerm (dstArr V c) (msgArr V c) (1024 * (t.val / 391) + p.val) q (2048 * (t.val % 391) + x) := by
  rw [Finset.sum_range]
  refine Finset.sum_congr rfl fun e _ => ?_
  have hlt : 2048 * (t.val % 391) + e.val < 800768 := by
    have := e.isLt; have := Nat.mod_lt t.val (show 0 < 391 by decide); omega
  unfold edgeTerm
  rw [dif_pos hlt, coord1_0, word_row,
    dstBlk_apply V c t e (ix2 0 ⟨2048 * (t.val % 391) + e.val, hlt⟩) rfl rfl,
    msgBlk_apply V c t e q (ix2 ⟨2048 * (t.val % 391) + e.val, hlt⟩ q) rfl rfl]
  exact congrArg (· * _) (if_congr eq_comm rfl rfl)

/-- The body's accumulation at a point, at (p, q). -/
theorem step_apply (c : Dev nD) (t : Fin cfg1.N) (X : Vec Ideal S1024x128 .f32) (p : Fin 1024) (q : Fin 128) :
    k1_pay2 (grid1.coords t) (dstBlk V c t) (msgBlk V c t) X (ix2 p q)
      = X (ix2 p q) + ∑ x ∈ Finset.range 2048, edgeTerm (dstArr V c) (msgArr V c) (1024 * (t.val / 391) + p.val) q (2048 * (t.val % 391) + x) :=
  (pay2_apply (grid1.coords t) (dstBlk V c t) (msgBlk V c t) X p q).trans (congrArg (X (ix2 p q) + ·) (tile_sum V c t p q))

/-- After point n = (i, kk) the accumulator holds, at (p, q), the sum over the edges of tiles 0 … kk. -/
theorem acc1_apply (c : Dev nD) (n : ℕ) : ∀ (hn : n < cfg1.N) (p : Fin 1024) (q : Fin 128),
    acc1 V c n hn (ix2 p q)
      = ∑ e ∈ Finset.range (2048 * (n % 391 + 1)), edgeTerm (dstArr V c) (msgArr V c) (1024 * (n / 391) + p.val) q e := by
  induction n using Nat.strong_induction_on with
  | _ n ih =>
    intro hn p q
    by_cases h : n % 391 = 0
    · refine (congrFun (acc1_first V c ⟨n, hn⟩ h) (ix2 p q)).trans ?_
      refine (step_apply V c ⟨n, hn⟩ (k1_pay1 (F := Ideal)) p q).trans ?_
      rw [pay1_apply, zero_add]
      dsimp only
      rw [← range_step, h, Nat.mul_zero, Finset.range_zero, Finset.sum_empty, zero_add]
    · refine (congrFun (acc1_next V c ⟨n, hn⟩ h) (ix2 p q)).trans ?_
      refine (step_apply V c ⟨n, hn⟩ (acc1 V c (n - 1) (Nat.lt_of_le_of_lt (Nat.sub_le _ _) hn)) p q).trans ?_
      dsimp only
      rw [ih (n - 1) (by omega) (Nat.lt_of_le_of_lt (Nat.sub_le _ _) hn) p q]
      have e1 : (n - 1) % 391 + 1 = n % 391 := by omega
      have e2 : (n - 1) / 391 = n / 391 := by omega
      rw [e1, e2]
      exact range_step _ _

/-- All 391 tiles: the sum over every padded edge. -/
theorem full_sum (dst : Vec Ideal S1x800768 .i32) (msgs : Vec Ideal S800768x128 .f32) (n : ℕ) (q : Fin 128) :
    ∑ e ∈ Finset.range 800768, edgeTerm dst msgs n q e
      = ∑ e : Fin 800768, (if dst (ix2 0 e) = BitVec.ofNat 32 n then (1 : EReal) else 0) * msgs (ix2 e q) := by
  rw [Finset.sum_range]
  refine Finset.sum_congr rfl fun e _ => ?_
  exact dif_pos e.isLt

/-- At the last tile of a node block the accumulator holds the whole scatter sum of its rows. -/
theorem acc1_last (c : Dev nD) (t : Fin cfg1.N) (h : t.val % 391 = 390) (p : Fin 1024) (d : Fin 128) :
    acc1 V c t.val t.isLt (ix2 p d)
      = ∑ e : Fin 800768, (if dstArr V c (ix2 0 e) = BitVec.ofNat 32 (1024 * (t.val / 391) + p.val) then (1 : EReal) else 0) * msgArr V c (ix2 e d) := by
  rw [acc1_apply V c t.val t.isLt p d, h]
  exact full_sum _ _ _ _

end Sums

end Cert.KernelIdeal.Hand.R1

end
-- ==== Proof.KernelIdeal.Val1c.lean ====
/-
  Region 1's output array after the run, over the extended reals. The point that closes node block i (tile 390)
  stores, at (p, q), max (∑_d acc[p, d] · wt[d, q] + bias[q], 0) with the accumulator at the whole scatter sum of row
  1024·i + p, and writes the block back to rows 1024·i … 1024·i + 1023; the 49 such blocks tile the 50176 rows, so the
  array ends holding, at row n and column k,
  max (∑_d (∑_e (destination word of e = n ? 1 : 0) · message[e, d]) · wt[d, k] + bias[k], 0).
-/
import proofs.«418971_j36292473651564_1_alg».proof.Proof.KernelIdeal.Def1
import proofs.«418971_j36292473651564_1_alg».proof.Proof.KernelIdeal.Val1b
import proofs.«418971_j36292473651564_1_alg».proof.Proof.Spec
import Idealize.ShloMosaic.Lib.Pipeline.Value
import Idealize.ShloMosaic.Lib.ValueIdx

set_option maxRecDepth 16384

noncomputable section

open scoped BigOperators

namespace Cert.KernelIdeal.Hand.R1

open Idealize.ShloMosaic Idealize.ShloMosaic.TcCoe Idealize.ShloMosaic.ValueIdx Idealize.SL.Sem
open Idealize.ShloMosaic.Pipeline (Dat)
open Cert.KernelIdeal Cert.KernelIdeal.Gen

/-! ## From the blocks the last tiles store to the output array -/

section Final
variable (V : (c : Dev nD) → (b : Ref sig .tc) → Buf (Elt Ideal) ((c : Thread nD τ).loc b))

/-- What the output array ends holding: the scatter, the linear layer and the cut at zero, on the padded arrays. -/
abbrev outArr (c : Dev nD) : Vec Ideal S50176x128 .f32 :=
  Cert.Spec.outP (dstArr V c) (msgArr V c) (wtArr V c) (biasArr V c)

/-- The stored block at the last tile of node block i, at (p, q), is the output at row 1024·i + p. -/
theorem stored_apply (c : Dev nD) (t : Fin cfg1.N) (h390 : t.val % 391 = 390) (p : Fin 1024) (q : Fin 128)
    (r : Fin 50176) (hr : r.val = 1024 * (t.val / 391) + p.val) :
    k1_pay3 (acc1 V c t.val t.isLt) (wtBlk V c t) (biasBlk V c t) (ix2 p q) = outArr V c (ix2 r q) := by
  refine (pay3_apply (acc1 V c t.val t.isLt) (wtBlk V c t) (biasBlk V c t) p q).trans ?_
  rw [wtBlk_eq, biasBlk_eq]
  show _ = max ((∑ d : Fin 128,
      (∑ e : Fin 800768, (if dstArr V c (ix2 0 e) = BitVec.ofNat 32 r.val then (1 : EReal) else 0) * msgArr V c (ix2 e d)) * wtArr V c (ix2 d q))
    + biasArr V c (ix2 0 q)) 0
  rw [hr]
  refine congrArg (max · (0 : EReal)) (congrArg (· + biasArr V c (ix2 0 q)) (Finset.sum_congr rfl fun d _ => congrArg (· * wtArr V c (ix2 d q)) ?_))
  exact acc1_last V c t h390 p d

/-- A block of 1024 rows that agrees, entry by entry, with rows 1024·(t / 391) … of an array of 50176 rows is what
    the output's window reads of that array at point t. -/
theorem cut_eq_read (G : Vec Ideal S50176x128 .f32) (X : Vec Ideal S1024x128 .f32) (t : Fin cfg1.N)
    (h : ∀ (p : Fin 1024) (q : Fin 128) (r : Fin 50176), r.val = 1024 * (t.val / 391) + p.val → X (ix2 p q) = G (ix2 r q)) :
    (cfg1.win 4).cut (grid1.coords t) X = ((cfg1.win 4).blk t).view.read (Elt Ideal) G := by
  obtain ⟨e0, e1⟩ := idx1_4 t
  have hN : cfg1.N = 19159 := N_1
  have ht := t.isLt
  funext j
  have hj0 : (j 0).val < 1024 := (j 0).isLt
  have hj1 : (j 1).val < 128 := (j 1).isLt
  have hrow : 1024 * (t.val / 391) + (j 0).val < 50176 := by omega
  have hx : ((cfg1.win 4).xinj (grid1.coords t) j : S1024x128.Idx) = ix2 (⟨(j 0).val, hj0⟩ : Fin 1024) (⟨(j 1).val, hj1⟩ : Fin 128) :=
    funext fun a => match a with | ⟨0, _⟩ => rfl | ⟨1, _⟩ => rfl
  have he : (((cfg1.win 4).blk t).view.emb j : S50176x128.Idx)
      = ix2 (⟨1024 * (t.val / 391) + (j 0).val, hrow⟩ : Fin 50176) (⟨(j 1).val, hj1⟩ : Fin 128) := by
    funext a
    apply Fin.ext
    match a with
    | ⟨0, _⟩ => show win1_4.index t 0 * 1024 + 1 * (j 0).val = 1024 * (t.val / 391) + (j 0).val; rw [e0]; omega
    | ⟨1, _⟩ => show win1_4.index t 1 * 128 + 1 * (j 1).val = (j 1).val; rw [e1]; omega
  show X ((cfg1.win 4).xinj (grid1.coords t) j) = G (((cfg1.win 4).blk t).view.emb j)
  refine ((congrArg X hx).trans ?_).trans (congrArg G he).symm
  exact h _ _ _ rfl

/-- What a point that closes a node block writes back is that block of the output. -/
theorem flushed1_eq (c : Dev nD) (t : Fin cfg1.N) (hf : (cfg1.win 4).flush t = true) :
    (dat1 V c).flushed 4 t = ((cfg1.win 4).blk t).view.read (Elt Ideal) (outArr V c) := by
  have h390 : t.val % 391 = 390 := (flush1_4 t).mp hf
  show (cfg1.win 4).cut (grid1.coords t) ((dat1 V c).after 4 t) = _
  rw [after1_4]
  exact cut_eq_read (outArr V c) (k1_pay3 (acc1 V c t.val t.isLt) (wtBlk V c t) (biasBlk V c t)) t
    (fun p q r hr => stored_apply V c t h390 p q r hr)
/-- Every row of the output lies in the block of the point that closes its node block. -/
theorem cover1 (i : S50176x128.Idx) :
    ∃ t : Fin cfg1.N, (cfg1.win 4).flush t = true ∧ i ∈ ((cfg1.win 4).blk t).view.set := by
  have h0 : (i 0).val < 50176 := (i 0).isLt
  have h1 : (i 1).val < 128 := (i 1).isLt
  have hN : cfg1.N = 19159 := N_1
  have hlt : 391 * ((i 0).val / 1024) + 390 < cfg1.N := by rw [hN]; omega
  obtain ⟨e0, e1⟩ := idx1_4 ⟨391 * ((i 0).val / 1024) + 390, hlt⟩
  refine ⟨⟨391 * ((i 0).val / 1024) + 390, hlt⟩, (flush1_4 _).mpr (by show (391 * ((i 0).val / 1024) + 390) % 391 = 390; omega), ?_⟩
  show i ∈ ((View.whole main_v12).slice (win1_4.rect ⟨391 * ((i 0).val / 1024) + 390, hlt⟩)).set
  rw [View.set_slice_whole, Rect.mem_set_unit]
  intro a
  match a with
  | ⟨0, _⟩ =>
    show win1_4.index ⟨391 * ((i 0).val / 1024) + 390, hlt⟩ 0 * 1024 ≤ (i 0).val
      ∧ (i 0).val < win1_4.index ⟨391 * ((i 0).val / 1024) + 390, hlt⟩ 0 * 1024 + 1024
    rw [e0]; dsimp only; omega
  | ⟨1, _⟩ =>
    show win1_4.index ⟨391 * ((i 0).val / 1024) + 390, hlt⟩ 1 * 128 ≤ (i 1).val
      ∧ (i 1).val < win1_4.index ⟨391 * ((i 0).val / 1024) + 390, hlt⟩ 1 * 128 + 128
    rw [e1]; omega

/-- After all 49·391 points the output array holds the scatter through the linear layer, cut at zero. -/
theorem out_arr (c : Dev nD) :
    (dat1 (F := Ideal) V c).arrAt 4 cfg1.N = Cert.Spec.outP (V c main_v7) (V c main_v11) (V c main_v9) (V c main_v10) :=
  (dat1 V c).arrAt_eq_of_cover 4 (outArr V c) (fun t hf => flushed1_eq V c t hf) cover1

end Final

end Cert.KernelIdeal.Hand.R1

end
-- ==== Proof.KernelIdeal.HostVal.lean ====
/-
  What the host operations around the two kernels do, at the ideal values, read at an index. Before the first kernel:
  the source indices, the destination indices and the edge weights are extended from 800000 to 800768 entries by zeros
  (the integer zero, and the integer zero converted to a float, which is the float zero), the sources and weights then
  laid out as columns and the destinations as a row; the feature matrix is narrowed to the shorter float format (no
  change of value at the ideal values) and extended from 50000 to 50176 rows by zero rows; the weight matrix is
  transposed and narrowed; the bias is laid out as a row. After the second kernel the result is rows 0 to 49999 of what
  that kernel leaves. Each array is walked back to the stretch of operations that wrote it, that stretch's operations
  are read off as one term over the launch contents, and the term is read at coordinates.
-/
import proofs.«418971_j36292473651564_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.Hand

open Idealize.ShloMosaic Idealize.ShloMosaic.TcCoe
open Idealize.ShloMosaic.ValueIdx
open Cert.KernelIdeal Cert.KernelIdeal.Gen

variable (m : (ℓ : Loc nD τ sig) → Buf (Elt Ideal) ℓ)

/-! ## Host layout operations read at coordinates -/

section General
variable {α : Type}

/-- A rank-1 array padded at its end only: inside the operand the operand's entry, beyond it the padding scalar. -/
theorem pad1_hi_apply {n n' hi : Nat} (x : (⟨1, ![n]⟩ : Shape).Idx → α) {u : Shape} (v : u.Idx → α)
    (h : (⟨1, ![n]⟩ : Shape).Pads (![0] : Fin 1 → Nat) ![hi] ![0] ⟨1, ![n']⟩) (hu : 0 < u.numel) (e : Fin n') :
    pad ⟨1, ![n']⟩ ![0] ![hi] ![0] x v h hu (ix1 e)
      = if h' : e.val < n then x (ix1 ⟨e.val, h'⟩) else v (Shape.Idx.first hu) := by
  by_cases h' : e.val < n
  · rw [dif_pos h']
    refine pad_apply_of_inside _ _ _ x v h hu (ix1 e) (ix1 ⟨e.val, h'⟩) fun a => ?_
    match a with
    | ⟨0, _⟩ => show e.val = 0 + e.val * (0 + 1); omega
  · rw [dif_neg h']
    refine pad_apply_of_not_inside _ _ _ x v h hu (ix1 e) (0 : Fin 1) ?_
    show ¬(0 ≤ e.val ∧ (e.val - 0) % (0 + 1) = 0 ∧ (e.val - 0) / (0 + 1) < n)
    rintro ⟨_, _, h3⟩
    have e3 : (e.val - 0) / (0 + 1) = e.val := by simp
    omega

/-- A matrix padded by rows at its end only: inside the operand the operand's entry, in the added rows the padding scalar. -/
theorem pad2_rows_hi_apply {n n' d hi : Nat} (x : (⟨2, ![n, d]⟩ : Shape).Idx → α) {u : Shape} (v : u.Idx → α)
    (h : (⟨2, ![n, d]⟩ : Shape).Pads (![0, 0] : Fin 2 → Nat) ![hi, 0] ![0, 0] ⟨2, ![n', d]⟩) (hu : 0 < u.numel)
    (r : Fin n') (k : Fin d) :
    pad ⟨2, ![n', d]⟩ ![0, 0] ![hi, 0] ![0, 0] x v h hu (ix2 r k)
      = if h' : r.val < n then x (ix2 ⟨r.val, h'⟩ k) else v (Shape.Idx.first hu) := by
  by_cases h' : r.val < n
  · rw [dif_pos h']
    refine pad_apply_of_inside _ _ _ x v h hu (ix2 r k) (ix2 ⟨r.val, h'⟩ k) fun a => ?_
    match a with
    | ⟨0, _⟩ => show r.val = 0 + r.val * (0 + 1); omega
    | ⟨1, _⟩ => show k.val = 0 + k.val * (0 + 1); omega
  · rw [dif_neg h']
    refine pad_apply_of_not_inside _ _ _ x v h hu (ix2 r k) (0 : Fin 2) ?_
    show ¬(0 ≤ r.val ∧ (r.val - 0) % (0 + 1) = 0 ∧ (r.val - 0) / (0 + 1) < n)
    rintro ⟨_, _, h3⟩
    have e3 : (r.val - 0) / (0 + 1) = r.val := by simp
    omega

/-- A vector broadcast to a one-column matrix reads its entry at the row. -/
theorem bcast_col_apply {n : Nat} (hn : n ≠ 1) (x : (⟨1, ![n]⟩ : Shape).Idx → α)
    (h : (⟨1, ![n]⟩ : Shape).BroadcastsInDim ⟨2, ![n, 1]⟩ (![0] : Fin 1 → Fin 2)) (e : Fin n) (z : Fin 1) :
    broadcastInDim ⟨2, ![n, 1]⟩ ![0] h x (ix2 e z) = x (ix1 e) := by
  refine broadcastInDim_apply _ h x (ix2 e z) (ix1 e) fun a => ?_
  match a with
  | ⟨0, _⟩ => show e.val = if n = 1 then 0 else e.val; rw [if_neg hn]

/-- A vector broadcast to a one-row matrix reads its entry at the column. -/
theorem bcast_row_apply {n : Nat} (hn : n ≠ 1) (x : (⟨1, ![n]⟩ : Shape).Idx → α)
    (h : (⟨1, ![n]⟩ : Shape).BroadcastsInDim ⟨2, ![1, n]⟩ (![1] : Fin 1 → Fin 2)) (z : Fin 1) (e : Fin n) :
    broadcastInDim ⟨2, ![1, n]⟩ ![1] h x (ix2 z e) = x (ix1 e) := by
  refine broadcastInDim_apply _ h x (ix2 z e) (ix1 e) fun a => ?_
  match a with
  | ⟨0, _⟩ => show e.val = if n = 1 then 0 else e.val; rw [if_neg hn]

end General

/-- The integer zero scalar converted to a float is the float zero. -/
theorem sitofp_const_zero {φ : FTy} (i : S_.Idx) : (sitofp φ (constantI S_ 32 0#32) : FVec Ideal S_ φ) i = 0 :=
  Idealize.ShloMosaic.sitofp_zero

/-! ## No host operation writes an argument -/

theorem V2_arg2 (c : Dev nD) : V2 m c main_arg2 = m ((c : Thread nD τ).loc main_arg2) :=
  (V2_of m c main_arg2 (by decide)).trans <| (V1_of m c main_arg2 (by decide)).trans rfl
theorem V4_arg3 (c : Dev nD) : V4 m c main_arg3 = m ((c : Thread nD τ).loc main_arg3) :=
  (V4_of m c main_arg3 (by decide)).trans <| (V3_of m c main_arg3 (by decide)).trans <| (V2_of m c main_arg3 (by decide)).trans <|
    (V1_of m c main_arg3 (by decide)).trans rfl
theorem V6_arg0 (c : Dev nD) : V6 m c main_arg0 = m ((c : Thread nD τ).loc main_arg0) :=
  (V6_of m c main_arg0 (by decide)).trans <| (V5_of m c main_arg0 (by decide)).trans <| (V4_of m c main_arg0 (by decide)).trans <|
    (V3_of m c main_arg0 (by decide)).trans <| (V2_of m c main_arg0 (by decide)).trans <| (V1_of m c main_arg0 (by decide)).trans rfl
theorem V8_arg4 (c : Dev nD) : V8 m c main_arg4 = m ((c : Thread nD τ).loc main_arg4) :=
  (V8_of m c main_arg4 (by decide)).trans <| (V7_of m c main_arg4 (by decide)).trans <| (V6_of m c main_arg4 (by decide)).trans <|
    (V5_of m c main_arg4 (by decide)).trans <| (V4_of m c main_arg4 (by decide)).trans <| (V3_of m c main_arg4 (by decide)).trans <|
    (V2_of m c main_arg4 (by decide)).trans <| (V1_of m c main_arg4 (by decide)).trans rfl
theorem V8_arg5 (c : Dev nD) : V8 m c main_arg5 = m ((c : Thread nD τ).loc main_arg5) :=
  (V8_of m c main_arg5 (by decide)).trans <| (V7_of m c main_arg5 (by decide)).trans <| (V6_of m c main_arg5 (by decide)).trans <|
    (V5_of m c main_arg5 (by decide)).trans <| (V4_of m c main_arg5 (by decide)).trans <| (V3_of m c main_arg5 (by decide)).trans <|
    (V2_of m c main_arg5 (by decide)).trans <| (V1_of m c main_arg5 (by decide)).trans rfl

/-! ## Each padded or converted array walked forward to the last stretch that could have written it -/

theorem V8_v0 (c : Dev nD) : V8 m c main_v0 = V2 m c main_v0 :=
  (V8_of m c main_v0 (by decide)).trans <| (V7_of m c main_v0 (by decide)).trans <| (V6_of m c main_v0 (by decide)).trans <|
    (V5_of m c main_v0 (by decide)).trans <| (V4_of m c main_v0 (by decide)).trans (V3_of m c main_v0 (by decide))
theorem V8_v1 (c : Dev nD) : V8 m c main_v1 = V4 m c main_v1 :=
  (V8_of m c main_v1 (by decide)).trans <| (V7_of m c main_v1 (by decide)).trans <| (V6_of m c main_v1 (by decide)).trans
    (V5_of m c main_v1 (by decide))
theorem V8_v2 (c : Dev nD) : V8 m c main_v2 = V6 m c main_v2 :=
  (V8_of m c main_v2 (by decide)).trans (V7_of m c main_v2 (by decide))

/-! ## What each stretch wrote, as its operations' term -/

theorem e2_v0 (c : Dev nD) : (V2 m c main_v0 : S800768.Idx → BitVec 32)
    = pad S800768 ![0] ![768] ![0] (m ((c : Thread nD τ).loc main_arg1) : S800000.Idx → BitVec 32) (constantI S_ 32 0#32)
        pads_S800000_S800768_07680 h_S_ := by
  dsimp only [V2, V1, hostOps0_1, hostOps0]; after_results <;> rfl

theorem e4_v1 (c : Dev nD) : (V4 m c main_v1 : S800768.Idx → BitVec 32)
    = pad S800768 ![0] ![768] ![0] (V2 m c main_arg2 : S800000.Idx → BitVec 32) (constantI S_ 32 0#32)
        pads_S800000_S800768_07680 h_S_ := by
  dsimp only [V4, V3, hostOps0_3, hostOps0_2]; after_results <;> rfl

theorem e6_v2 (c : Dev nD) : (V6 m c main_v2 : S800768.Idx → EReal)
    = pad S800768 ![0] ![768] ![0] (V4 m c main_arg3 : S800000.Idx → EReal)
        (sitofp .f32 (constantI S_ 32 0#32) : FVec Ideal S_ .f32) pads_S800000_S800768_07680 h_S_ := by
  dsimp only [V6, V5, hostOps0_5, hostOps0_4]; after_results <;> rfl

theorem e8_v4 (c : Dev nD) : (V8 m c main_v4 : S50176x128.Idx → EReal)
    = pad S50176x128 ![0, 0] ![176, 0] ![0, 0]
        (truncf .bf16 (V6 m c main_arg0 : FVec Ideal S50000x128 .f32) bitsLt_bf16_f32 : FVec Ideal S50000x128 .bf16)
        (sitofp .bf16 (constantI S_ 32 0#32) : FVec Ideal S_ .bf16) pads_S50000x128_S50176x128_01760_000 h_S_ := by
  dsimp only [V8, V7, hostOps0_7, hostOps0_6]; after_results <;> rfl

theorem e9_v5 (c : Dev nD) : (V9 m c main_v5 : S800768x1.Idx → BitVec 32)
    = broadcastInDim S800768x1 ![0] bcast_S800768_S800768x1_0 (V8 m c main_v0 : S800768.Idx → BitVec 32) := by
  dsimp only [V9, hostOps0_8]; after_results <;> rfl

theorem e9_v6 (c : Dev nD) : (V9 m c main_v6 : S800768x1.Idx → EReal)
    = broadcastInDim S800768x1 ![0] bcast_S800768_S800768x1_0 (V8 m c main_v2 : S800768.Idx → EReal) := by
  dsimp only [V9, hostOps0_8]; after_results <;> rfl

theorem e9_v7 (c : Dev nD) : (V9 m c main_v7 : S1x800768.Idx → BitVec 32)
    = broadcastInDim S1x800768 ![1] bcast_S800768_S1x800768_1 (V8 m c main_v1 : S800768.Idx → BitVec 32) := by
  dsimp only [V9, hostOps0_8]; after_results <;> rfl

theorem e9_v9 (c : Dev nD) : (V9 m c main_v9 : S128x128.Idx → EReal)
    = truncf .bf16 (transpose S128x128 [1, 0] (V8 m c main_arg4 : S128x128.Idx → EReal) transposes_S128x128_S128x128_1_0
        : FVec Ideal S128x128 .f32) bitsLt_bf16_f32 := by
  dsimp only [V9, hostOps0_8]; after_results <;> rfl

theorem e9_v10 (c : Dev nD) : (V9 m c main_v10 : S1x128.Idx → EReal)
    = broadcastInDim S1x128 ![1] bcast_S128_S1x128_1 (V8 m c main_arg5 : S128.Idx → EReal) := by
  dsimp only [V9, hostOps0_8]; after_results <;> rfl

theorem V11_v12 (outs : Outs (F := Ideal)) (c : Dev nD) : V11 m outs c main_v12 = outs 11 main_v12 c :=
  Function.update_self _ _ _

theorem e12_v13 (outs : Outs (F := Ideal)) (c : Dev nD) : (V12 m outs c main_v13 : S50000x128.Idx → EReal)
    = extractStridedSlice S50000x128 ![0, 0] (V11 m outs c main_v12 : S50176x128.Idx → EReal) slices_S50176x128_S50000x128_0_0 := by
  dsimp only [V12, hostOps2]; after_results <;> rfl

/-! ## The arrays the two kernels read, and the result, at an index -/

/-- The feature matrix the gather reads: the argument's rows (narrowing the format changes no value), then 176 rows of zeros. -/
theorem hv_feat (c : Dev nD) (n : Fin 50176) (d : Fin 128) :
    (V9 m c main_v4 : S50176x128.Idx → EReal) (ix2 n d)
      = if h : n.val < 50000 then (m ((c : Thread nD τ).loc main_arg0) : S50000x128.Idx → EReal) (ix2 ⟨n.val, h⟩ d) else (0 : EReal) := by
  rw [V9_of m c main_v4 (by decide), e8_v4, pad2_rows_hi_apply, V6_arg0, sitofp_const_zero]
  rfl

/-- The source indices as a column: the argument's entries, then 768 zeros. -/
theorem hv_src (c : Dev nD) (e : Fin 800768) :
    (V9 m c main_v5 : S800768x1.Idx → BitVec 32) (ix2 e 0)
      = if h : e.val < 800000 then (m ((c : Thread nD τ).loc main_arg1) : S800000.Idx → BitVec 32) (ix1 ⟨e.val, h⟩) else 0#32 := by
  rw [e9_v5, bcast_col_apply (by decide), V8_v0, e2_v0, pad1_hi_apply]
  rfl

/-- The edge weights as a column: the argument's entries, then 768 zeros. -/
theorem hv_w (c : Dev nD) (e : Fin 800768) :
    (V9 m c main_v6 : S800768x1.Idx → EReal) (ix2 e 0)
      = if h : e.val < 800000 then (m ((c : Thread nD τ).loc main_arg3) : S800000.Idx → EReal) (ix1 ⟨e.val, h⟩) else (0 : EReal) := by
  rw [e9_v6, bcast_col_apply (by decide), V8_v2, e6_v2, pad1_hi_apply, V4_arg3, sitofp_const_zero]

/-- The destination indices as a row: the argument's entries, then 768 zeros. -/
theorem hv_dst (c : Dev nD) (e : Fin 800768) :
    (V9 m c main_v7 : S1x800768.Idx → BitVec 32) (ix2 0 e)
      = if h : e.val < 800000 then (m ((c : Thread nD τ).loc main_arg2) : S800000.Idx → BitVec 32) (ix1 ⟨e.val, h⟩) else 0#32 := by
  rw [e9_v7, bcast_row_apply (by decide), V8_v1, e4_v1, pad1_hi_apply, V2_arg2]
  rfl

/-- The weight matrix the second kernel reads is the argument transposed. -/
theorem hv_wt (c : Dev nD) (d k : Fin 128) :
    (V9 m c main_v9 : S128x128.Idx → EReal) (ix2 d k) = (m ((c : Thread nD τ).loc main_arg4) : S128x128.Idx → EReal) (ix2 k d) := by
  rw [e9_v9, truncf_apply, transpose_ix2_apply, V8_arg4]

/-- The bias as a row. -/
theorem hv_b (c : Dev nD) (k : Fin 128) :
    (V9 m c main_v10 : S1x128.Idx → EReal) (ix2 0 k) = (m ((c : Thread nD τ).loc main_arg5) : S128.Idx → EReal) (ix1 k) := by
  rw [e9_v10, bcast_row_apply (by decide), V8_arg5]

/-- The result is the first 50000 rows of what the second kernel leaves. -/
theorem hv_out (outs : Outs (F := Ideal)) (c : Dev nD) (n : Fin 50000) (k : Fin 128) :
    (V12 m outs c main_v13 : S50000x128.Idx → EReal) (ix2 n k)
      = (outs 11 main_v12 c : S50176x128.Idx → EReal) (ix2 ⟨n.val, by omega⟩ k) := by
  rw [e12_v13, V11_v12]
  exact slice2_axis0_apply 0 _ _ n k ⟨n.val, by omega⟩ (by simp)

end Cert.KernelIdeal.Hand
end
-- ==== Proof.SpecAlg.lean ====
/-
  Pure algebra over the extended reals: the one-hot products on the padded arrays compute the layer.
  In the extended reals 0 · x = 0, x · 0 = 0, 1 · x = x and addition is a commutative monoid; nothing else is used,
  so no finiteness and no range assumption on the data is needed.
  (i)   A one-hot row times a column has at most one non-zero term, at the row the word names (a 32-bit word equals
        the word of n < 2^32 exactly when its value is n), so it reads the column there, or gives 0 when the word
        names no row. The padded feature rows are 0, so a word naming a padding row also gives 0.
  (ii)  A padding edge has weight 0, so its message row is 0.
  (iii) Hence the sum over all 800768 edges is the sum over the first 800000, where the padded arrays are the data.
  (iv)  The transposed weight matrix and the bias row are the data read at the swapped, respectively same, index.
-/
import proofs.«418971_j36292473651564_1_alg».proof.Proof.Spec
import Mathlib.Data.EReal.Basic
import Mathlib.Algebra.BigOperators.Fin

noncomputable section

open scoped BigOperators

namespace Cert.Spec

open Idealize.ShloMosaic Idealize.ShloMosaic.ValueIdx

/-- A sum over `Fin c` whose terms vanish from `a` on is the sum over the first `a` indices. -/
theorem sum_fin_castLE {M : Type*} [AddCommMonoid M] {a c : ℕ} (hac : a ≤ c) (f : Fin c → M)
    (hf : ∀ i : Fin c, a ≤ i.val → f i = 0) : ∑ i : Fin c, f i = ∑ i : Fin a, f (Fin.castLE hac i) := by
  obtain ⟨b, rfl⟩ := Nat.exists_eq_add_of_le hac
  rw [Fin.sum_univ_add, Finset.sum_eq_zero (s := Finset.univ) (f := fun i : Fin b => f (Fin.natAdd a i)), add_zero]
  · rfl
  · intro i _
    exact hf _ (Nat.le_add_right a i.val)

/-- A 32-bit word equals the word of a number below 2^32 exactly when its value is that number. -/
theorem eq_ofNat_iff (x : BitVec 32) (m : ℕ) (hm : m < 2 ^ 32) : x = BitVec.ofNat 32 m ↔ x.toNat = m := by
  constructor
  · intro hx
    rw [hx, BitVec.toNat_ofNat]
    exact Nat.mod_eq_of_lt hm
  · intro hx
    rw [← hx, BitVec.ofNat_toNat, BitVec.setWidth_eq]

/-- (i) A one-hot row times a column: the column at the word's value, or 0 when the value is no row. -/
theorem sum_onehot (N : ℕ) (hN : N ≤ 2 ^ 32) (x : BitVec 32) (f : Fin N → EReal) :
    (∑ n : Fin N, (if x = BitVec.ofNat 32 n.val then (1 : EReal) else 0) * f n)
      = if h : x.toNat < N then f ⟨x.toNat, h⟩ else 0 := by
  have key : ∀ n : Fin N, x = BitVec.ofNat 32 n.val ↔ x.toNat = n.val :=
    fun n => eq_ofNat_iff x n.val (lt_of_lt_of_le n.isLt hN)
  by_cases h : x.toNat < N
  · rw [dif_pos h, Finset.sum_eq_single (⟨x.toNat, h⟩ : Fin N)]
    · rw [if_pos ((key ⟨x.toNat, h⟩).2 rfl), one_mul]
    · intro n _ hn
      rw [if_neg, zero_mul]
      intro hx
      exact hn (Fin.ext ((key n).1 hx).symm)
    · intro hh
      exact absurd (Finset.mem_univ _) hh
  · rw [dif_neg h]
    refine Finset.sum_eq_zero fun n _ => ?_
    rw [if_neg, zero_mul]
    intro hx
    exact h (by rw [(key n).1 hx]; exact n.isLt)

/-- (i) + (ii) The padded message array: a real edge's row is its message, a padding edge's row is 0. -/
theorem msgP_at
    (feature : SN.Idx → EReal) (src : SE.Idx → BitVec 32) (w : SE.Idx → EReal)
    (featP : SNp.Idx → EReal) (srcC : SEc.Idx → BitVec 32) (wC : SEc.Idx → EReal)
    (hfeat : ∀ (n : Fin 50176) (d : Fin 128), featP (ix2 n d) = if h : n.val < 50000 then feature (ix2 ⟨n.val, h⟩ d) else 0)
    (hsrc : ∀ e : Fin 800768, srcC (ix2 e 0) = if h : e.val < 800000 then src (ix1 ⟨e.val, h⟩) else 0#32)
    (hw : ∀ e : Fin 800768, wC (ix2 e 0) = if h : e.val < 800000 then w (ix1 ⟨e.val, h⟩) else 0)
    (e : Fin 800768) (d : Fin 128) :
    msgP featP srcC wC (ix2 e d) = if h : e.val < 800000 then msg feature src w ⟨e.val, h⟩ d else 0 := by
  have h0 : msgP featP srcC wC (ix2 e d)
      = (∑ n : Fin 50176, (if srcC (ix2 e 0) = BitVec.ofNat 32 n.val then (1 : EReal) else 0) * featP (ix2 n d))
        * wC (ix2 e 0) := rfl
  rw [h0, sum_onehot 50176 (by norm_num) (srcC (ix2 e 0)) (fun n => featP (ix2 n d))]
  by_cases h : e.val < 800000
  · have hs : srcC (ix2 e 0) = src (ix1 ⟨e.val, h⟩) := by rw [hsrc e, dif_pos h]
    have hw' : wC (ix2 e 0) = w (ix1 ⟨e.val, h⟩) := by rw [hw e, dif_pos h]
    rw [dif_pos h, hs, hw']
    unfold msg
    generalize src (ix1 (⟨e.val, h⟩ : Fin 800000)) = s
    have key : (if h1 : s.toNat < 50176 then featP (ix2 (⟨s.toNat, h1⟩ : Fin 50176) d) else 0)
        = (if h2 : s.toNat < 50000 then feature (ix2 (⟨s.toNat, h2⟩ : Fin 50000) d) else 0) := by
      by_cases h2 : s.toNat < 50000
      · have h1 : s.toNat < 50176 := lt_trans h2 (by norm_num)
        rw [dif_pos h1, dif_pos h2, hfeat ⟨s.toNat, h1⟩ d]
        exact dif_pos h2
      · rw [dif_neg h2]
        by_cases h1 : s.toNat < 50176
        · rw [dif_pos h1, hfeat ⟨s.toNat, h1⟩ d]
          exact dif_neg h2
        · rw [dif_neg h1]
    rw [key]
  · rw [dif_neg h, hw e, dif_neg h, mul_zero]

/-- (iii) The one-hot scatter over the padded edges collects exactly what the node collects in the layer. -/
theorem scatter_msgP_eq_agg
    (feature : SN.Idx → EReal) (src dst : SE.Idx → BitVec 32) (w : SE.Idx → EReal)
    (featP : SNp.Idx → EReal) (srcC : SEc.Idx → BitVec 32) (wC : SEc.Idx → EReal) (dstR : SEr.Idx → BitVec 32)
    (hfeat : ∀ (n : Fin 50176) (d : Fin 128), featP (ix2 n d) = if h : n.val < 50000 then feature (ix2 ⟨n.val, h⟩ d) else 0)
    (hsrc : ∀ e : Fin 800768, srcC (ix2 e 0) = if h : e.val < 800000 then src (ix1 ⟨e.val, h⟩) else 0#32)
    (hw : ∀ e : Fin 800768, wC (ix2 e 0) = if h : e.val < 800000 then w (ix1 ⟨e.val, h⟩) else 0)
    (hdst : ∀ e : Fin 800768, dstR (ix2 0 e) = if h : e.val < 800000 then dst (ix1 ⟨e.val, h⟩) else 0#32)
    (n : Fin 50000) (d : Fin 128) :
    (∑ e : Fin 800768, (if dstR (ix2 0 e) = BitVec.ofNat 32 n.val then (1 : EReal) else 0) * msgP featP srcC wC (ix2 e d))
      = agg feature src dst w n d := by
  have hle : 800000 ≤ 800768 := by norm_num
  rw [sum_fin_castLE hle]
  · unfold agg
    refine Finset.sum_congr rfl fun i _ => ?_
    have hi : (Fin.castLE hle i).val < 800000 := i.isLt
    rw [msgP_at feature src w featP srcC wC hfeat hsrc hw (Fin.castLE hle i) d, dif_pos hi,
      hdst (Fin.castLE hle i), dif_pos hi]
    show (if dst (ix1 i) = BitVec.ofNat 32 n.val then (1 : EReal) else 0) * msg feature src w i d
      = if dst (ix1 i) = BitVec.ofNat 32 n.val then msg feature src w i d else 0
    by_cases hc : dst (ix1 i) = BitVec.ofNat 32 n.val
    · rw [if_pos hc, if_pos hc, one_mul]
    · rw [if_neg hc, if_neg hc, zero_mul]
  · intro e he
    rw [msgP_at feature src w featP srcC wC hfeat hsrc hw e d, dif_neg (by omega), mul_zero]

/-- The two one-hot products on the padded arrays, then the linear layer with the transposed weights and the bias
    row, give the layer's output on every real node row. -/
theorem outP_msgP_eq_outAt
    (feature : SN.Idx → EReal) (src dst : SE.Idx → BitVec 32) (w : SE.Idx → EReal) (Wm : SW.Idx → EReal) (b : SB.Idx → EReal)
    (featP : SNp.Idx → EReal) (srcC : SEc.Idx → BitVec 32) (wC : SEc.Idx → EReal) (dstR : SEr.Idx → BitVec 32) (wt : SW.Idx → EReal) (bR : SBr.Idx → EReal)
    (hfeat : ∀ (n : Fin 50176) (d : Fin 128), featP (ix2 n d) = if h : n.val < 50000 then feature (ix2 ⟨n.val, h⟩ d) else 0)
    (hsrc : ∀ e : Fin 800768, srcC (ix2 e 0) = if h : e.val < 800000 then src (ix1 ⟨e.val, h⟩) else 0#32)
    (hw : ∀ e : Fin 800768, wC (ix2 e 0) = if h : e.val < 800000 then w (ix1 ⟨e.val, h⟩) else 0)
    (hdst : ∀ e : Fin 800768, dstR (ix2 0 e) = if h : e.val < 800000 then dst (ix1 ⟨e.val, h⟩) else 0#32)
    (hwt : ∀ d k : Fin 128, wt (ix2 d k) = Wm (ix2 k d))
    (hb : ∀ k : Fin 128, bR (ix2 0 k) = b (ix1 k))
    (n : Fin 50000) (k : Fin 128) :
    outP dstR (msgP featP srcC wC) wt bR (ix2 ⟨n.val, by omega⟩ k) = outAt feature src dst w Wm b n k := by
  have hsum : (∑ d : Fin 128,
        (∑ e : Fin 800768, (if dstR (ix2 0 e) = BitVec.ofNat 32 n.val then (1 : EReal) else 0) * msgP featP srcC wC (ix2 e d))
          * wt (ix2 d k))
      = ∑ d : Fin 128, agg feature src dst w n d * Wm (ix2 k d) :=
    Finset.sum_congr rfl fun d _ => by
      rw [scatter_msgP_eq_agg feature src dst w featP srcC wC dstR hfeat hsrc hw hdst n d, hwt d k]
  show max ((∑ d : Fin 128,
        (∑ e : Fin 800768, (if dstR (ix2 0 e) = BitVec.ofNat 32 n.val then (1 : EReal) else 0) * msgP featP srcC wC (ix2 e d))
          * wt (ix2 d k)) + bR (ix2 0 k)) 0
    = max ((∑ d : Fin 128, agg feature src dst w n d * Wm (ix2 k d)) + b (ix1 k)) 0
  rw [hsum, hb k]

end Cert.Spec

end
-- ==== Proof.KernelIdeal.KernelValue.lean ====
/-
  The idealized kernel's result is the layer's output. The result buffer holds rows 0 to 49999 of what region 1 leaves in
  the padded output array; that array is the scatter-and-linear form of region 1's four input arrays; of those the
  message array is what region 0 left, the gather-and-scale form of its three input arrays, and the other six arrays
  are the host operations' paddings, broadcasts and transpose of the arguments. On those six relations the two padded
  forms compose to the layer itself, with no assumption on the arguments.
-/
import proofs.«418971_j36292473651564_1_alg».proof.Proof.KernelIdeal.Launch
import proofs.«418971_j36292473651564_1_alg».proof.Proof.KernelIdeal.Val0
import proofs.«418971_j36292473651564_1_alg».proof.Proof.KernelIdeal.Val1c
import proofs.«418971_j36292473651564_1_alg».proof.Proof.KernelIdeal.HostVal
import proofs.«418971_j36292473651564_1_alg».proof.Proof.SpecAlg

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- Region 1 finds the message array at what region 0 left: the gather-and-scale form of the padded features, source
    words and weights. -/
theorem ent1_v11 (c : Dev nD) :
    Ent1 m c main_v11 = Cert.Spec.msgP (V9 m c main_v4) (V9 m c main_v5) (V9 m c main_v6) :=
  (Function.update_self (Proc.devRef .tc main_v11) (out10 m c) (V9 m c)).trans (msg_arr (Ent0 m) c)

/-- Region 1 finds its other three input arrays as the host operations left them. -/
theorem ent1_v7 (c : Dev nD) : Ent1 m c main_v7 = V9 m c main_v7 :=
  Function.update_of_ne (StableHlo.devRef_ne_of_ne (by decide : (main_v7 : Ref sig .tc) ≠ main_v11)) (out10 m c) (V9 m c)
theorem ent1_v9 (c : Dev nD) : Ent1 m c main_v9 = V9 m c main_v9 :=
  Function.update_of_ne (StableHlo.devRef_ne_of_ne (by decide : (main_v9 : Ref sig .tc) ≠ main_v11)) (out10 m c) (V9 m c)
theorem ent1_v10 (c : Dev nD) : Ent1 m c main_v10 = V9 m c main_v10 :=
  Function.update_of_ne (StableHlo.devRef_ne_of_ne (by decide : (main_v10 : Ref sig .tc) ≠ main_v11)) (out10 m c) (V9 m c)

/-- The result buffer at the end of the run is the layer's output of the six argument arrays. -/
theorem kernel_value (c : Dev nD) :
    (V12 m (outs m) c main_v13 : S50000x128.Idx → EReal)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨n, k, rfl⟩ : ∃ (n : Fin 50000) (k : Fin 128), j = ix2 n k := ⟨j 0, j 1, eq_ix2 j⟩
  rw [hv_out m (outs m) c n k, outs_v12]
  unfold out11
  rw [R1.out_arr (Ent1 m) c, ent1_v11, ent1_v7, ent1_v9, ent1_v10]
  exact Cert.Spec.outP_msgP_eq_outAt _ _ _ _ _ _ _ _ _ _ _ _
    (hv_feat m c) (hv_src m c) (hv_w m c) (hv_dst m c) (hv_wt m c) (hv_b m c) n k

end Cert.KernelIdeal.Hand

end
-- ==== Proof.RefVal.lean ====
/-
  The reference program's result is the specification. The reference gathers, for each edge e, the row of the feature
  table at the source word of e (a negative word wrapped by 50000, the start index then clamped into the table: for a
  word that is already a row number neither does anything), scales it by the weight of e, adds the scaled rows into a zero
  array at the destination words (a word that is no row's adds nothing), multiplies by the transposed weight matrix, adds
  the bias along rows and takes the maximum with zero. Read at an index (n, k) this is
    max (∑_d (∑_e [dst e = n] · feature[src e, d] · w e) · W[k, d] + b k, 0),
  the layer's output.
-/
import proofs.«418971_j36292473651564_1_alg».proof.Proof.Gen.ReferenceIdeal.Run
import proofs.«418971_j36292473651564_1_alg».proof.Proof.Gen.ReferenceIdeal.Read
import proofs.«418971_j36292473651564_1_alg».proof.Proof.Spec
import Idealize.ShloMosaic.PureOps.Ideal
import Idealize.ShloMosaic.PureOps.Ideal.Laws
import Idealize.ShloMosaic.Lib.ValueIdx
import Idealize.ShloMosaic.Lib.Affine
import Idealize.ShloMosaic.Lib.StableHlo.Predicate

noncomputable section

open scoped BigOperators

namespace Cert.ReferenceIdeal.RefValue

open Idealize.ShloMosaic Idealize.ShloMosaic.ValueIdx

/-! ## A gather of whole rows and a scatter-add of whole rows, read at an index -/

section Rows

/-- The dimension numbers of "take row idx[e] of an [N × D] table, for each of E start indices kept as an [E × 1] column". -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, c): column c of the table's row at the start index idx[e, 0], read signed and clamped into
    [0, N − 1]. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGather N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGather N D E wf).start (ix2 e c) idx 0 + (rowGather N D E wf).batchCoord (ix2 e c) 0
      + (rowGather N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e c) ⟨List.idxOf (0 : Fin 2) (rowGather N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N D E wf).start (ix2 e c) idx 1 + (rowGather N D E wf).batchCoord (ix2 e c) 1
      + (rowGather N D E wf).offCoord (ix2 e c) 1 = c.val
    rw [GatherDims.batchCoord_eq_zero _ _ _ List.not_mem_nil]
    have hs : (rowGather N D E wf).start (ix2 e c) idx 1 = 0 := by
      unfold GatherDims.start
      rw [dif_neg (show ¬ (1 : Fin 2) ∈ (rowGather N D E wf).startIndexMap from (by decide : ¬ (1 : Fin 2) ∈ ([0] : List (Fin 2))))]
    have ho : (rowGather N D E wf).offCoord (ix2 e c) 1 = c.val := by
      unfold GatherDims.offCoord
      rw [dif_pos (show (1 : Fin 2) ∈ (rowGather N D E wf).sKept from (GatherDims.mem_sKept _ _).mpr ⟨(by decide : ¬ (1 : Fin 2) ∈ ([0] : List (Fin 2))), List.not_mem_nil⟩)]
      rfl
    rw [hs, ho]; omega

/-- The dimension numbers of "add row e of an [E × D] array of updates into row idx[e] of an [N × D] array". -/
abbrev rowScatter (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter
variable {N D E w : Nat} (wf : ScatterDims.WF ⟨2, ![N, D]⟩ ⟨2, ![E, 1]⟩ ⟨2, ![E, D]⟩ [1] [0] [0] 1)
  (idx : IVec ⟨2, ![E, 1]⟩ w) (e : Fin E) (c : Fin D)

theorem scatter_start0 : (rowScatter N D E wf).start (ix2 e c) idx 0 = (idx (ix2 e 0)).toInt := by
  unfold ScatterDims.start
  rw [dif_pos (show (0 : Fin 2) ∈ (rowScatter N D E wf).scatterDimsToOperandDims from List.mem_singleton.mpr rfl)]
  have hsi : (rowScatter N D E wf).siIdx (ix2 e c) ⟨List.idxOf (0 : Fin 2) (rowScatter N D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatter_start1 : (rowScatter N D E wf).start (ix2 e c) idx 1 = 0 := by
  unfold ScatterDims.start
  rw [dif_neg (show ¬ (1 : Fin 2) ∈ (rowScatter N D E wf).scatterDimsToOperandDims from (by decide : ¬ (1 : Fin 2) ∈ ([0] : List (Fin 2))))]

theorem scatter_window0 : (rowScatter N D E wf).window (ix2 e c) 0 = 0 := by
  unfold ScatterDims.window
  rw [dif_neg (show ¬ (0 : Fin 2) ∈ (rowScatter N D E wf).sKept from (by decide : ¬ (0 : Fin 2) ∈ (List.finRange 2).filter (· ∉ ([0] : List (Fin 2)))))]

theorem scatter_window1 : (rowScatter N D E wf).window (ix2 e c) 1 = c.val := by
  unfold ScatterDims.window
  rw [dif_pos (show (1 : Fin 2) ∈ (rowScatter N D E wf).sKept from (by decide : (1 : Fin 2) ∈ (List.finRange 2).filter (· ∉ ([0] : List (Fin 2)))))]
  rfl

/-- Update element (e, c) lands at (n, k) exactly when the start index idx[e, 0], read signed, is n and c is k. -/
theorem resultIdx_rows (n : Fin N) (k : Fin D) :
    (rowScatter N D E wf).resultIdx? (ix2 e c) idx = some (ix2 n k) ↔ (idx (ix2 e 0)).toInt = (n.val : ℤ) ∧ c = k := by
  unfold ScatterDims.resultIdx?
  split
  · rename_i h
    rw [Option.some.injEq]
    constructor
    · intro heq
      have h0 := congrArg (fun f => (f 0).val) heq
      have h1 := congrArg (fun f => (f 1).val) heq
      simp only [scatter_start0, scatter_start1, scatter_window0, scatter_window1] at h0 h1
      have hh := (h 0).1
      rw [scatter_start0, scatter_window0] at hh
      refine ⟨?_, Fin.ext ?_⟩
      · change ((idx (ix2 e 0)).toInt + ((0 : ℕ) : ℤ)).toNat = n.val at h0
        omega
      · change ((0 : ℤ) + (c.val : ℤ)).toNat = k.val at h1
        omega
    · rintro ⟨ht, rfl⟩
      funext a
      refine Fin.ext ?_
      match a with
      | ⟨0, _⟩ =>
        show ((rowScatter N D E wf).start (ix2 e c) idx 0 + ((rowScatter N D E wf).window (ix2 e c) 0 : ℤ)).toNat = n.val
        rw [scatter_start0, scatter_window0, ht]; simp
      | ⟨1, _⟩ =>
        show ((rowScatter N D E wf).start (ix2 e c) idx 1 + ((rowScatter N D E wf).window (ix2 e c) 1 : ℤ)).toNat = c.val
        rw [scatter_start1, scatter_window1]; simp
  · rename_i h
    constructor
    · intro heq; exact absurd heq (by simp)
    · rintro ⟨ht, rfl⟩
      exfalso; apply h
      intro a
      match a with
      | ⟨0, _⟩ =>
        show 0 ≤ (rowScatter N D E wf).start (ix2 e c) idx 0 + ((rowScatter N D E wf).window (ix2 e c) 0 : ℤ)
          ∧ (rowScatter N D E wf).start (ix2 e c) idx 0 + ((rowScatter N D E wf).window (ix2 e c) 0 : ℤ) < (N : ℤ)
        rw [scatter_start0, scatter_window0, ht]
        have := n.isLt
        constructor <;> push_cast <;> omega
      | ⟨1, _⟩ =>
        show 0 ≤ (rowScatter N D E wf).start (ix2 e c) idx 1 + ((rowScatter N D E wf).window (ix2 e c) 1 : ℤ)
          ∧ (rowScatter N D E wf).start (ix2 e c) idx 1 + ((rowScatter N D E wf).window (ix2 e c) 1 : ℤ) < (D : ℤ)
        rw [scatter_start1, scatter_window1]
        have := c.isLt
        constructor <;> push_cast <;> omega

end Scatter

/-- A 32-bit word reads, signed, as a number n below 2³¹ exactly when it is the word of n. -/
theorem toInt_eq_iff_eq_ofNat (v : BitVec 32) (n : Nat) (hn : n < 2 ^ 31) : v.toInt = (n : ℤ) ↔ v = BitVec.ofNat 32 n := by
  constructor
  · intro h
    apply BitVec.eq_of_toInt_eq
    rw [h, StableHlo.Predicate.toInt_ofNat_small n hn]
  · rintro rfl
    exact StableHlo.Predicate.toInt_ofNat_small n hn

/-- THE ROW SCATTER-ADD READ AT (n, k): the operand there plus the sum, over the update rows whose start index is the
    word of n, of their column k. A start index that is no row's word (negative, or N and beyond) adds nothing. -/
theorem scatterAdd_rows_apply {N D E : Nat} (hN : N < 2 ^ 31)
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (n : Fin N) (k : Fin D) :
    Ideal.hostScatterAdd (rowScatter N D E wf) x idx upd (ix2 n k)
      = x (ix2 n k) + ∑ e : Fin E, if idx (ix2 e 0) = BitVec.ofNat 32 n.val then upd (ix2 e k) else 0 := by
  unfold Ideal.hostScatterAdd
  congr 1
  rw [Finset.sum_filter, sum_idx2]
  refine Finset.sum_congr rfl fun e _ => ?_
  simp only [resultIdx_rows, toInt_eq_iff_eq_ofNat _ n.val (by have := n.isLt; omega)]
  by_cases hw : idx (ix2 e 0) = BitVec.ofNat 32 n.val
  · simp [hw]
  · simp [hw]

end Rows

/-! ## The reference read at an index -/

section Reference

open Cert.ReferenceIdeal Cert.ReferenceIdeal.Gen Cert.ReferenceIdeal.Read

/-- A word that is a row number (below 50000, so non-negative as a signed number) is not wrapped, and the clamp of the
    gather's start index into [0, 49999] leaves it: the row read is the word's. -/
theorem start_row (v : BitVec 32) (hv : v.toNat < 50000) :
    min (Scalar.select (IntOp.cmpi .slt v 0#32) (IntOp.addi v 50000#32) v).toInt.toNat (50000 - 1) = v.toNat := by
  have hti : v.toInt = (v.toNat : ℤ) := StableHlo.Predicate.toInt_eq_toNat_of_lt (by omega)
  have hc : IntOp.cmpi .slt v 0#32 = 0#1 := by
    refine eq_zero_of_ne_one fun h1 => ?_
    rw [IntOp.cmpi_slt, hti, show (0#32 : BitVec 32).toInt = 0 by decide] at h1
    omega
  rw [hc, select_zero, hti, Int.toNat_natCast]
  omega

variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x128, .f32⟩ : BufTy).Contents (Elt Ideal))
  (x5 : (⟨S128, .f32⟩ : BufTy).Contents (Elt Ideal))

/-- The start index the gather reads for edge e is the source word of e, wrapped. -/
theorem start_word (e : Fin 800000) :
    val_main_v5 (F := Ideal) x1 (ix2 e 0)
      = Scalar.select (IntOp.cmpi .slt (x1 (ix1 e)) 0#32) (IntOp.addi (x1 (ix1 e)) 50000#32) (x1 (ix1 e)) := by
  have e5 : idx_main_v5 (ix2 e (0 : Fin 1)) = ix1 e := funext fun a => Fin.ext (by match a with | ⟨0, _⟩ => rfl)
  rw [val_main_v5_apply, e5, val_main_v4_apply, val_main_v1_apply, val_main_v3_apply, val_main_v0_apply, val_main_v2_apply,
    val_main_c_apply, val_main_c_0_apply]

/-- The scaled gathered row of edge e is the message of e. -/
theorem msg_eq (hsrc : ∀ e : Fin 800000, (x1 (ix1 e)).toNat < 50000) (e : Fin 800000) (d : Fin 128) :
    val_main_v9 (F := Ideal) x0 x1 x3 (ix2 e d) = Cert.Spec.msg x0 x1 x3 e d := by
  have e8 : idx_main_v7 (idx_main_v8 (ix2 e d)) = ix1 e := funext fun a => Fin.ext (by match a with | ⟨0, _⟩ => rfl)
  rw [val_main_v9_apply, val_main_v8_apply, val_main_v7_apply, e8]
  unfold Cert.Spec.msg
  rw [dif_pos (hsrc e)]
  have hg : val_main_v6 (F := Ideal) x0 x1 (ix2 e d) = x0 (ix2 ⟨(x1 (ix1 e)).toNat, hsrc e⟩ d) := by
    refine (gather_rows_apply (N := 50000) (D := 128) (E := 800000) (by norm_num)
      Facts₀.gather_S50000x128_S800000x1_S800000x128_1_0_n_n_0_1_1128_wf x0 (val_main_v5 (F := Ideal) x1) e d).trans ?_
    refine congrArg x0 (funext fun a => Fin.ext ?_)
    match a with
    | ⟨0, _⟩ =>
      show min (val_main_v5 (F := Ideal) x1 (ix2 e 0)).toInt.toNat (50000 - 1) = (x1 (ix1 e)).toNat
      rw [start_word, start_row _ (hsrc e)]
    | ⟨1, _⟩ => rfl
  rw [hg]
  rfl

/-- The scatter-add stage at the ideal values is the exact accumulation. -/
theorem v12_eq : val_main_v12 (F := Ideal) x0 x1 x2 x3
    = Ideal.hostScatterAdd (rowScatter 50000 128 800000 Facts₀.scatter_S50000x128_S800000x1_S800000x128_1_0_0_1_wf)
        (val_main_v10 (F := Ideal)) (val_main_v11 (F := Ideal) x2) (val_main_v9 (F := Ideal) x0 x1 x3) := rfl

/-- Row n of the scatter-add is what node n collects. -/
theorem agg_eq (hsrc : ∀ e : Fin 800000, (x1 (ix1 e)).toNat < 50000) (n : Fin 50000) (d : Fin 128) :
    val_main_v12 (F := Ideal) x0 x1 x2 x3 (ix2 n d) = Cert.Spec.agg x0 x1 x2 x3 n d := by
  rw [v12_eq, scatterAdd_rows_apply (N := 50000) (D := 128) (E := 800000) (by norm_num)]
  have hz : val_main_v10 (F := Ideal) (ix2 n d) = 0 := by
    rw [val_main_v10_apply, val_main_cst_apply]
    exact Ideal.ofBits_zero_f32
  rw [hz, zero_add]
  unfold Cert.Spec.agg
  refine Finset.sum_congr rfl fun e _ => ?_
  have e11 : idx_main_v11 (ix2 e (0 : Fin 1)) = ix1 e := funext fun a => Fin.ext (by match a with | ⟨0, _⟩ => rfl)
  rw [val_main_v11_apply, e11, msg_eq x0 x1 x3 hsrc e d]

/-- THE REFERENCE IS THE SPECIFICATION: under "every source word is a row number" the reference's result array is the
    layer's output. -/
theorem ref_eq_spec (hsrc : ∀ e : Fin 800000, (x1 (ix1 e)).toNat < 50000) :
    val_main_v18 (F := Ideal) x0 x1 x2 x3 x4 x5 = Cert.Spec.out x0 x1 x2 x3 x4 x5 := by
  funext j
  obtain ⟨n, k, rfl⟩ : ∃ (n : Fin 50000) (k : Fin 128), j = ix2 n k := ⟨j 0, j 1, eq_ix2 j⟩
  have eb : idx_main_v15 (idx_main_v16 (ix2 n k)) = ix1 k := funext fun a => Fin.ext (by match a with | ⟨0, _⟩ => rfl)
  have el : ∀ d : Fin 128, lidx_main_v14 (ix2 n k) d = ix2 n d := fun d => funext fun a => Fin.ext (by
    match a with | ⟨0, _⟩ => rfl | ⟨1, _⟩ => rfl)
  have er : ∀ d : Fin 128, idx_main_v13 (ridx_main_v14 (ix2 n k) d) = ix2 k d := fun d => funext fun a => Fin.ext (by
    match a with | ⟨0, _⟩ => rfl | ⟨1, _⟩ => rfl)
  rw [val_main_v18_apply, val_main_v17_apply, val_main_v14_apply, val_main_v16_apply, val_main_v15_apply, eb,
    val_main_call0_v0_apply, val_main_call0_cst_apply]
  simp only [val_main_v13_apply, el, er, agg_eq x0 x1 x2 x3 hsrc, Ideal.maximumf_def, Ideal.addf_def, Ideal.ofBits_def,
    Ideal.ofBits_zero_f32]
  rfl

end Reference

end Cert.ReferenceIdeal.RefValue

end
-- ==== Proof.PreSrc.lean ====
/-
  The precondition decoded: its last conjunct is  all ((src ≥ 0) ∧ (src < 50000)),  compared as signed 32-bit words.
  A word w with 0 ≤ w and w < 50000, both signed, has a non-negative signed reading below 50000, and a non-negative
  signed reading is the unsigned one: so every source word, read unsigned, is a node row, w.toNat < 50000.
-/
import proofs.«418971_j36292473651564_1_alg».proof.Pre_finite_inputs
import proofs.«418971_j36292473651564_1_alg».proof.Proof.Gen.Pre_finite_inputs
import Idealize.ShloMosaic.Lib.StableHlo.Predicate
import Idealize.ShloMosaic.Lib.ReduceAll
import Idealize.ShloMosaic.Lib.ValueIdx

noncomputable section

namespace Cert.PreSrc

open Idealize.ShloMosaic Idealize.ShloMosaic.ValueIdx
open Cert.Pre_finite_inputs

/-- The scalar shape has one index. -/
instance subsingleton_scalar_idx : Subsingleton S_.Idx := ⟨fun a b => funext fun d => d.elim0⟩

/-- A 32-bit word in [0, n) as a SIGNED number (n below 2³¹) is below n as an unsigned one: were its top bit set its
    signed reading would be negative. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have hz : (0#32 : BitVec 32).toInt = 0 := by decide
  rw [hz] at h0
  have hw := w.isLt
  rw [BitVec.toInt_eq_toNat_cond] at h0 h1
  split at h0 <;> omega

/-- The last conjunct, read at one edge: the tail of the printed chain is 1 only if the source word of every edge is in
    [0, 50000) signed. The other conjuncts enter as the two opaque bits v13 and v16. -/
theorem src_in_range_part1 [Facts] (a1 : IVec S800000 32) (v13 : IVec S_ 1) (v16 : IVec S128 1)
    (h : fn_part1 (F := Ideal) a1 v13 v16 ix0 = 1#1) (e : Fin 800000) : (a1 (ix1 e)).toNat < 50000 := by
  dsimp only [fn_part1] at h
  have h24 := (IntOp.andi_eq_one.1 h).2
  have he := Host.reduce_andi_all _ _ _ _ _ h24 (ix1 e)
  obtain ⟨hge, hlt⟩ := IntOp.andi_eq_one.1 he
  exact toNat_lt_of_signed_range _ 50000 (by norm_num) hge hlt

/-- THE PRECONDITION DECODED: under it every source word, read unsigned, names one of the 50000 node rows. -/
theorem src_in_range [Facts] (a0 : FVec Ideal S50000x128 .f32) (a1 a2 : IVec S800000 32) (a3 : FVec Ideal S800000 .f32)
    (a4 : FVec Ideal S128x128 .f32) (a5 : FVec Ideal S128 .f32)
    (h : fn (F := Ideal) a0 a1 a2 a3 a4 a5 = fun _ => 1#1) : ∀ e : Fin 800000, (a1 (ix1 e)).toNat < 50000 :=
  fun e => src_in_range_part1 a1 _ _ (congrFun h ix0) e

end Cert.PreSrc

end
-- ==== Proof.lean ====
/-
  The certificate of a graph-convolution layer computed with one-hot matrix products, against its jnp reference.

  The layer: edge e carries  feature[src e, ·] · w e ; node n collects the sum of the messages of the edges whose
  destination is n ; the output row of n is  max (agg n · Wᵀ + b, 0).  The kernel pads the 800000 edges to 391 tiles of
  2048 and the 50000 node rows to 49 blocks of 1024 and runs two pipelined regions. Region 0 turns the gather into a
  product: row e of a tile's one-hot matrix has its single 1 in the column of e's source node, so its product with the
  feature blocks, accumulated over the 49 blocks in a scratch buffer, is the source's feature row; the last block's step
  scales it by the weight. Region 1 turns the scatter into a product the same way (row n has a 1 in the column of every
  edge whose destination is n), accumulates over the 391 tiles, and at the last tile applies the linear layer, the bias
  and the maximum with zero. Over the extended reals a one-hot product is exactly the selection it spells, because
  0 · x = 0 for every extended real and sums may be regrouped freely; the padding edges carry weight zero and the
  padding node rows are zero rows or are sliced away. So the kernel's result is the layer for EVERY input.
  The reference gathers with `feature[src]`, which for a source word outside 0 ≤ src < 50000 wraps or clamps to some row
  where the kernel's one-hot row is empty: the statement is made under that evident range of the index input, and the
  reference side of the value claim is where the range is used.

  The three frames: each kernel region runs its pipeline under a body obligation proved per control case (first block of
  a sweep resets the accumulator, the last stores the output, the others only accumulate), the accumulator carried
  between grid points by the region's invariant; the regions and the host stretches are chained by the conditional
  frame of the program. The reference has no kernel: its frame is its run with the result dropped.
-/
import proofs.«418971_j36292473651564_1_alg».proof.Defs
import proofs.«418971_j36292473651564_1_alg».proof.Proof.Gen.Kernel
import proofs.«418971_j36292473651564_1_alg».proof.Proof.Gen.KernelIdeal
import proofs.«418971_j36292473651564_1_alg».proof.Proof.Gen.ReferenceIdeal
import proofs.«418971_j36292473651564_1_alg».proof.Proof.Gen.Pre_finite_inputs
import proofs.«418971_j36292473651564_1_alg».proof.Proof.Kernel.Frame
import proofs.«418971_j36292473651564_1_alg».proof.Proof.KernelIdeal.FrameVal
import proofs.«418971_j36292473651564_1_alg».proof.Proof.KernelIdeal.KernelValue
import proofs.«418971_j36292473651564_1_alg».proof.Proof.RefVal
import proofs.«418971_j36292473651564_1_alg».proof.Proof.PreSrc

noncomputable section

namespace Cert.Proof

open Idealize.ShloMosaic Idealize.ShloMosaic.TcCoe Idealize.SL.Sem

/-- The word-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame_of_obl (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame_of_obl (F := Ideal) m ρ

/-- The reference runs and leaves its arguments unchanged: its run with the result dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments, with every source word a node row, both idealized programs end with the
    layer's output in their result buffers: the kernel unconditionally, the reference because its gather then reads
    exactly the row the word names. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_value m c), (h c).2⟩)
      (Cert.KernelIdeal.Hand.run_val_of_obl (F := Ideal) m ρ)
  · refine (θ_run Cert.ReferenceIdeal.defs _ _).mono (fun r h c => ⟨(h c).1.trans ?_, (h c).2⟩)
      (Cert.ReferenceIdeal.Value.run (F := Ideal) m' ρ')
    have hsrc : ∀ e : Fin 800000, ((m' ((c.tc : Thread Cert.ReferenceIdeal.nD Cert.ReferenceIdeal.τ).loc Cert.ReferenceIdeal.main_arg1)
        : Cert.ReferenceIdeal.S800000.Idx → BitVec 32) (Idealize.ShloMosaic.ValueIdx.ix1 e)).toNat < 50000 := by
      rw [(hagree c).2.1]
      exact Cert.PreSrc.src_in_range _ _ _ _ _ _ (hpre c)
    rw [Cert.ReferenceIdeal.Read.val_main_v18_eq, Cert.ReferenceIdeal.RefValue.ref_eq_spec _ _ _ _ _ _ hsrc,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
